-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x14 : Shape := ⟨2, ![100000, 14]⟩
abbrev S2x300000 : Shape := ⟨2, ![2, 300000]⟩
abbrev S100000 : Shape := ⟨1, ![100000]⟩
abbrev S14x256 : Shape := ⟨2, ![14, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S_ : Shape := ⟨0, ![]⟩

class Facts : Prop where
  bcast_S_S100000x14 : S_.BroadcastsInDim S100000x14 (![] : Fin 0 → Fin S100000x14.rank)
  reducesTo_S100000x14_S_d0_1 : S100000x14.ReducesTo [0, 1] S_
  h_S_ : 0 < S_.numel
  bcast_S_S14x256 : S_.BroadcastsInDim S14x256 (![] : Fin 0 → Fin S14x256.rank)
  reducesTo_S14x256_S_d0_1 : S14x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part5 {F : FTy → Type} [FloatOps F] (main_arg20 : FVec F S256x2 .f32) (main_arg21 : FVec F S2 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S256x2 .f32 := Host.absf main_arg20
  let main_cst_34 : FVec F S_ .f32 := constant S_ .f32 0x7F800000#32
  let main_v90 : FVec F S256x2 .f32 := broadcastInDim S256x2 ![] bcast_S_S256x2 main_cst_34
  let main_v91 : IVec S256x2 1 := cmpf .olt main_v89 main_v90
  let main_c_35 : IVec S_ 1 := constantI S_ 1 1#1
  let main_v92 : IVec S_ 1 := (fun x v => Host.reduce IntOp.andi x v reducesTo_S256x2_S_d0_1 h_S_) main_v91 main_c_35
  let main_v93 : IVec S_ 1 := andi main_v88 main_v92
  let main_v94 : FVec F S2 .f32 := Host.absf main_arg21
  let main_cst_36 : FVec F S_ .f32 := constant S_ .f32 0x7F800000#32
  let main_v95 : FVec F S2 .f32 := broadcastInDim S2 ![] bcast_S_S2 main_cst_36
  let main_v96 : IVec S2 1 := cmpf .olt main_v94 main_v95
  let main_c_37 : IVec S_ 1 := constantI S_ 1 1#1
  let main_v97 : IVec S_ 1 := (fun x v => Host.reduce IntOp.andi x v reducesTo_S2_S_d0 h_S_) main_v96 main_c_37
  let main_v98 : IVec S_ 1 := andi main_v93 main_v97
  main_v98

def fn_part4 {F : FTy → Type} [FloatOps F] (main_arg16 : FVec F S256 .f32) (main_arg17 : FVec F S256x256 .f32) (main_arg18 : FVec F S256x256 .f32) (main_arg19 : FVec F S256 .f32) (main_arg20 : FVec F S256x2 .f32) (main_arg21 : FVec F S2 .f32) (main_v63 : IVec S_ 1) (main_v67 : IVec S_ 1) : IVec S_ 1 :=
  let main_v68 : IVec S_ 1 := andi main_v63 main_v67
  let main_v69 : FVec F S256 .f32 := Host.absf main_arg16
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256x256 .f32 := Host.absf main_arg17
  let main_cst_28 : FVec F S_ .f32 := constant S_ .f32 0x7F800000#32
  let main_v75 : FVec F S256x256 .f32 := broadcastInDim S256x256 ![] bcast_S_S256x256 main_cst_28
  let main_v76 : IVec S256x256 1 := cmpf .olt main_v74 main_v75
  let main_c_29 : IVec S_ 1 := constantI S_ 1 1#1
  let main_v77 : IVec S_ 1 := (fun x v => Host.reduce IntOp.andi x v reducesTo_S256x256_S_d0_1 h_S_) main_v76 main_c_29
  let main_v78 : IVec S_ 1 := andi main_v73 main_v77
  let main_v79 : FVec F S256x256 .f32 := Host.absf main_arg18
  let main_cst_30 : FVec F S_ .f32 := constant S_ .f32 0x7F800000#32
  let main_v80 : FVec F S256x256 .f32 := broadcastInDim S256x256 ![] bcast_S_S256x256 main_cst_30
  let main_v81 : IVec S256x256 1 := cmpf .olt main_v79 main_v80
  let main_c_31 : IVec S_ 1 := constantI S_ 1 1#1
  let main_v82 : IVec S_ 1 := (fun x v => Host.reduce IntOp.andi x v reducesTo_S256x256_S_d0_1 h_S_) main_v81 main_c_31
  let main_v83 : IVec S_ 1 := andi main_v78 main_v82
  let main_v84 : FVec F S256 .f32 := Host.absf main_arg19
  let main_cst_32 : FVec F S_ .f32 := constant S_ .f32 0x7F800000#32
  fn_part5 (F := F) main_arg20 main_arg21 main_v83 main_v84 main_cst_32

def fn_part3 {F : FTy → Type} [FloatOps F] (main_arg13 : FVec F S256 .f32) (main_arg14 : FVec F S256x256 .f32) (main_arg15 : FVec F S256x256 .f32) (main_arg16 : FVec F S256 .f32) (main_arg17 : FVec F S256x256 .f32) (main_arg18 : FVec F S256x256 .f32) (main_arg19 : FVec F S256 .f32) (main_arg20 : FVec F S256x2 .f32) (main_arg21 : FVec F S2 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg13
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x256 .f32 := Host.absf main_arg14
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256x256 .f32 := Host.absf main_arg15
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg16 main_arg17 main_arg18 main_arg19 main_arg20 main_arg21 main_v63 main_v67

def fn_part2 {F : FTy → Type} [FloatOps F] (main_arg9 : FVec F S256x256 .f32) (main_arg10 : FVec F S256 .f32) (main_arg11 : FVec F S256x256 .f32) (main_arg12 : FVec F S256x256 .f32) (main_arg13 : FVec F S256 .f32) (main_arg14 : FVec F S256x256 .f32) (main_arg15 : FVec F S256x256 .f32) (main_arg16 : FVec F S256 .f32) (main_arg17 : FVec F S256x256 .f32) (main_arg18 : FVec F S256x256 .f32) (main_arg19 : FVec F S256 .f32) (main_arg20 : FVec F S256x2 .f32) (main_arg21 : FVec F S2 .f32) (main_v33 : IVec S_ 1) : IVec S_ 1 :=
  let main_v34 : FVec F S256x256 .f32 := Host.absf main_arg9
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg11
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256x256 .f32 := Host.absf main_arg12
  let main_cst_18 : FVec F S_ .f32 := constant S_ .f32 0x7F800000#32
  let main_v50 : FVec F S256x256 .f32 := broadcastInDim S256x256 ![] bcast_S_S256x256 main_cst_18
  fn_part3 (F := F) main_arg13 main_arg14 main_arg15 main_arg16 main_arg17 main_arg18 main_arg19 main_arg20 main_arg21 main_v48 main_v49 main_v50

def fn_part1 {F : FTy → Type} [FloatOps F] (main_arg6 : FVec F S256x256 .f32) (main_arg7 : FVec F S256 .f32) (main_arg8 : FVec F S256x256 .f32) (main_arg9 : FVec F S256x256 .f32) (main_arg10 : FVec F S256 .f32) (main_arg11 : FVec F S256x256 .f32) (main_arg12 : FVec F S256x256 .f32) (main_arg13 : FVec F S256 .f32) (main_arg14 : FVec F S256x256 .f32) (main_arg15 : FVec F S256x256 .f32) (main_arg16 : FVec F S256 .f32) (main_arg17 : FVec F S256x256 .f32) (main_arg18 : FVec F S256x256 .f32) (main_arg19 : FVec F S256 .f32) (main_arg20 : FVec F S256x2 .f32) (main_arg21 : FVec F S2 .f32) (main_v13 : IVec S_ 1) (main_v16 : IVec S14x256 1) : IVec S_ 1 :=
  let main_c_5 : IVec S_ 1 := constantI S_ 1 1#1
  let main_v17 : IVec S_ 1 := (fun x v => Host.reduce IntOp.andi x v reducesTo_S14x256_S_d0_1 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg8
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_v33

def fn {F : FTy → Type} [FloatOps F] (main_arg0 : FVec F S100000x14 .f32) (main_arg1 : IVec S2x300000 32) (main_arg2 : IVec S100000 32) (main_arg3 : FVec F S14x256 .f32) (main_arg4 : FVec F S256 .f32) (main_arg5 : FVec F S14x256 .f32) (main_arg6 : FVec F S256x256 .f32) (main_arg7 : FVec F S256 .f32) (main_arg8 : FVec F S256x256 .f32) (main_arg9 : FVec F S256x256 .f32) (main_arg10 : FVec F S256 .f32) (main_arg11 : FVec F S256x256 .f32) (main_arg12 : FVec F S256x256 .f32) (main_arg13 : FVec F S256 .f32) (main_arg14 : FVec F S256x256 .f32) (main_arg15 : FVec F S256x256 .f32) (main_arg16 : FVec F S256 .f32) (main_arg17 : FVec F S256x256 .f32) (main_arg18 : FVec F S256x256 .f32) (main_arg19 : FVec F S256 .f32) (main_arg20 : FVec F S256x2 .f32) (main_arg21 : FVec F S2 .f32) : IVec S_ 1 :=
  let main_v0 : FVec F S100000x14 .f32 := Host.absf main_arg0
  let main_cst : FVec F S_ .f32 := constant S_ .f32 0x7F800000#32
  let main_v1 : FVec F S100000x14 .f32 := broadcastInDim S100000x14 ![] bcast_S_S100000x14 main_cst
  let main_v2 : IVec S100000x14 1 := cmpf .olt main_v0 main_v1
  let main_c : IVec S_ 1 := constantI S_ 1 1#1
  let main_v3 : IVec S_ 1 := (fun x v => Host.reduce IntOp.andi x v reducesTo_S100000x14_S_d0_1 h_S_) main_v2 main_c
  let main_v4 : FVec F S14x256 .f32 := Host.absf main_arg3
  let main_cst_0 : FVec F S_ .f32 := constant S_ .f32 0x7F800000#32
  let main_v5 : FVec F S14x256 .f32 := broadcastInDim S14x256 ![] bcast_S_S14x256 main_cst_0
  let main_v6 : IVec S14x256 1 := cmpf .olt main_v4 main_v5
  let main_c_1 : IVec S_ 1 := constantI S_ 1 1#1
  let main_v7 : IVec S_ 1 := (fun x v => Host.reduce IntOp.andi x v reducesTo_S14x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S14x256 .f32 := Host.absf main_arg5
  let main_cst_4 : FVec F S_ .f32 := constant S_ .f32 0x7F800000#32
  let main_v15 : FVec F S14x256 .f32 := broadcastInDim S14x256 ![] bcast_S_S14x256 main_cst_4
  let main_v16 : IVec S14x256 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S100000x14 : Shape := ⟨2, ![100000, 14]⟩
abbrev S2x300000 : Shape := ⟨2, ![2, 300000]⟩
abbrev S100000 : Shape := ⟨1, ![100000]⟩
abbrev S14x256 : Shape := ⟨2, ![14, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S1x300000 : Shape := ⟨2, ![1, 300000]⟩
abbrev S300000 : Shape := ⟨1, ![300000]⟩
abbrev S_ : Shape := ⟨0, ![]⟩
abbrev S300000x1 : Shape := ⟨2, ![300000, 1]⟩
abbrev S300000x14 : Shape := ⟨2, ![300000, 14]⟩
abbrev S1x256 : Shape := ⟨2, ![1, 256]⟩
abbrev S100000x256 : Shape := ⟨2, ![100000, 256]⟩
abbrev S2000x14 : Shape := ⟨2, ![2000, 14]⟩
abbrev S2000x256 : Shape := ⟨2, ![2000, 256]⟩
abbrev S300000x256 : Shape := ⟨2, ![300000, 256]⟩
abbrev S100000x1 : Shape := ⟨2, ![100000, 1]⟩
abbrev S2048x256 : Shape := ⟨2, ![2048, 256]⟩
abbrev S2000x1 : Shape := ⟨2, ![2000, 1]⟩
abbrev S2000x2048 : Shape := ⟨2, ![2000, 2048]⟩
abbrev S1x2 : Shape := ⟨2, ![1, 2]⟩
abbrev S2048x2 : Shape := ⟨2, ![2048, 2]⟩
abbrev S2048 : Shape := ⟨1, ![2048]⟩
abbrev S2048x1 : Shape := ⟨2, ![2048, 1]⟩

abbrev nBuf : Space → Nat
  | .hbm => 122
  | .vmem => 56
  | .smem => 0
  | _ => 0

abbrev bufTy : (tb : Table) → Fin (tcTables nBuf tb) → BufTy
  | .hbm, ⟨0, _⟩ => ⟨S100000x14, .f32⟩
  | .hbm, ⟨1, _⟩ => ⟨S2x300000, .i32⟩
  | .hbm, ⟨2, _⟩ => ⟨S100000, .i32⟩
  | .hbm, ⟨3, _⟩ => ⟨S14x256, .f32⟩
  | .hbm, ⟨4, _⟩ => ⟨S256, .f32⟩
  | .hbm, ⟨5, _⟩ => ⟨S14x256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256x256, .f32⟩
  | .hbm, ⟨13, _⟩ => ⟨S256, .f32⟩
  | .hbm, ⟨14, _⟩ => ⟨S256x256, .f32⟩
  | .hbm, ⟨15, _⟩ => ⟨S256x256, .f32⟩
  | .hbm, ⟨16, _⟩ => ⟨S256, .f32⟩
  | .hbm, ⟨17, _⟩ => ⟨S256x256, .f32⟩
  | .hbm, ⟨18, _⟩ => ⟨S256x256, .f32⟩
  | .hbm, ⟨19, _⟩ => ⟨S256, .f32⟩
  | .hbm, ⟨20, _⟩ => ⟨S256x2, .f32⟩
  | .hbm, ⟨21, _⟩ => ⟨S2, .f32⟩
  | .hbm, ⟨22, _⟩ => ⟨S1x300000, .i32⟩
  | .hbm, ⟨23, _⟩ => ⟨S300000, .i32⟩
  | .hbm, ⟨24, _⟩ => ⟨S1x300000, .i32⟩
  | .hbm, ⟨25, _⟩ => ⟨S300000, .i32⟩
  | .hbm, ⟨26, _⟩ => ⟨S_, .i32⟩
  | .hbm, ⟨27, _⟩ => ⟨S300000, .i32⟩
  | .hbm, ⟨28, _⟩ => ⟨S300000, .i1⟩
  | .hbm, ⟨29, _⟩ => ⟨S_, .i32⟩
  | .hbm, ⟨30, _⟩ => ⟨S300000, .i32⟩
  | .hbm, ⟨31, _⟩ => ⟨S300000, .i32⟩
  | .hbm, ⟨32, _⟩ => ⟨S300000, .i32⟩
  | .hbm, ⟨33, _⟩ => ⟨S300000x1, .i32⟩
  | .hbm, ⟨34, _⟩ => ⟨S300000x14, .f32⟩
  | .hbm, ⟨35, _⟩ => ⟨S_, .f32⟩
  | .hbm, ⟨36, _⟩ => ⟨S100000x14, .f32⟩
  | .hbm, ⟨37, _⟩ => ⟨S300000x1, .i32⟩
  | .hbm, ⟨38, _⟩ => ⟨S100000x14, .f32⟩
  | .hbm, ⟨39, _⟩ => ⟨S1x256, .f32⟩
  | .hbm, ⟨40, _⟩ => ⟨S100000x256, .f32⟩
  | .hbm, ⟨41, _⟩ => ⟨S1x300000, .i32⟩
  | .hbm, ⟨42, _⟩ => ⟨S300000, .i32⟩
  | .hbm, ⟨43, _⟩ => ⟨S1x300000, .i32⟩
  | .hbm, ⟨44, _⟩ => ⟨S300000, .i32⟩
  | .hbm, ⟨45, _⟩ => ⟨S_, .i32⟩
  | .hbm, ⟨46, _⟩ => ⟨S300000, .i32⟩
  | .hbm, ⟨47, _⟩ => ⟨S300000, .i1⟩
  | .hbm, ⟨48, _⟩ => ⟨S_, .i32⟩
  | .hbm, ⟨49, _⟩ => ⟨S300000, .i32⟩
  | .hbm, ⟨50, _⟩ => ⟨S300000, .i32⟩
  | .hbm, ⟨51, _⟩ => ⟨S300000, .i32⟩
  | .hbm, ⟨52, _⟩ => ⟨S300000x1, .i32⟩
  | .hbm, ⟨53, _⟩ => ⟨S300000x256, .f32⟩
  | .hbm, ⟨54, _⟩ => ⟨S_, .f32⟩
  | .hbm, ⟨55, _⟩ => ⟨S100000x256, .f32⟩
  | .hbm, ⟨56, _⟩ => ⟨S300000x1, .i32⟩
  | .hbm, ⟨57, _⟩ => ⟨S100000x256, .f32⟩
  | .hbm, ⟨58, _⟩ => ⟨S1x256, .f32⟩
  | .hbm, ⟨59, _⟩ => ⟨S100000x256, .f32⟩
  | .hbm, ⟨60, _⟩ => ⟨S1x300000, .i32⟩
  | .hbm, ⟨61, _⟩ => ⟨S300000, .i32⟩
  | .hbm, ⟨62, _⟩ => ⟨S1x300000, .i32⟩
  | .hbm, ⟨63, _⟩ => ⟨S300000, .i32⟩
  | .hbm, ⟨64, _⟩ => ⟨S_, .i32⟩
  | .hbm, ⟨65, _⟩ => ⟨S300000, .i32⟩
  | .hbm, ⟨66, _⟩ => ⟨S300000, .i1⟩
  | .hbm, ⟨67, _⟩ => ⟨S_, .i32⟩
  | .hbm, ⟨68, _⟩ => ⟨S300000, .i32⟩
  | .hbm, ⟨69, _⟩ => ⟨S300000, .i32⟩
  | .hbm, ⟨70, _⟩ => ⟨S300000, .i32⟩
  | .hbm, ⟨71, _⟩ => ⟨S300000x1, .i32⟩
  | .hbm, ⟨72, _⟩ => ⟨S300000x256, .f32⟩
  | .hbm, ⟨73, _⟩ => ⟨S_, .f32⟩
  | .hbm, ⟨74, _⟩ => ⟨S100000x256, .f32⟩
  | .hbm, ⟨75, _⟩ => ⟨S300000x1, .i32⟩
  | .hbm, ⟨76, _⟩ => ⟨S100000x256, .f32⟩
  | .hbm, ⟨77, _⟩ => ⟨S1x256, .f32⟩
  | .hbm, ⟨78, _⟩ => ⟨S100000x256, .f32⟩
  | .hbm, ⟨79, _⟩ => ⟨S1x300000, .i32⟩
  | .hbm, ⟨80, _⟩ => ⟨S300000, .i32⟩
  | .hbm, ⟨81, _⟩ => ⟨S1x300000, .i32⟩
  | .hbm, ⟨82, _⟩ => ⟨S300000, .i32⟩
  | .hbm, ⟨83, _⟩ => ⟨S_, .i32⟩
  | .hbm, ⟨84, _⟩ => ⟨S300000, .i32⟩
  | .hbm, ⟨85, _⟩ => ⟨S300000, .i1⟩
  | .hbm, ⟨86, _⟩ => ⟨S_, .i32⟩
  | .hbm, ⟨87, _⟩ => ⟨S300000, .i32⟩
  | .hbm, ⟨88, _⟩ => ⟨S300000, .i32⟩
  | .hbm, ⟨89, _⟩ => ⟨S300000, .i32⟩
  | .hbm, ⟨90, _⟩ => ⟨S300000x1, .i32⟩
  | .hbm, ⟨91, _⟩ => ⟨S300000x256, .f32⟩
  | .hbm, ⟨92, _⟩ => ⟨S_, .f32⟩
  | .hbm, ⟨93, _⟩ => ⟨S100000x256, .f32⟩
  | .hbm, ⟨94, _⟩ => ⟨S300000x1, .i32⟩
  | .hbm, ⟨95, _⟩ => ⟨S100000x256, .f32⟩
  | .hbm, ⟨96, _⟩ => ⟨S1x256, .f32⟩
  | .hbm, ⟨97, _⟩ => ⟨S100000x256, .f32⟩
  | .hbm, ⟨98, _⟩ => ⟨S1x300000, .i32⟩
  | .hbm, ⟨99, _⟩ => ⟨S300000, .i32⟩
  | .hbm, ⟨100, _⟩ => ⟨S1x300000, .i32⟩
  | .hbm, ⟨101, _⟩ => ⟨S300000, .i32⟩
  | .hbm, ⟨102, _⟩ => ⟨S_, .i32⟩
  | .hbm, ⟨103, _⟩ => ⟨S300000, .i32⟩
  | .hbm, ⟨104, _⟩ => ⟨S300000, .i1⟩
  | .hbm, ⟨105, _⟩ => ⟨S_, .i32⟩
  | .hbm, ⟨106, _⟩ => ⟨S300000, .i32⟩
  | .hbm, ⟨107, _⟩ => ⟨S300000, .i32⟩
  | .hbm, ⟨108, _⟩ => ⟨S300000, .i32⟩
  | .hbm, ⟨109, _⟩ => ⟨S300000x1, .i32⟩
  | .hbm, ⟨110, _⟩ => ⟨S300000x256, .f32⟩
  | .hbm, ⟨111, _⟩ => ⟨S_, .f32⟩
  | .hbm, ⟨112, _⟩ => ⟨S100000x256, .f32⟩
  | .hbm, ⟨113, _⟩ => ⟨S300000x1, .i32⟩
  | .hbm, ⟨114, _⟩ => ⟨S100000x256, .f32⟩
  | .hbm, ⟨115, _⟩ => ⟨S1x256, .f32⟩
  | .hbm, ⟨116, _⟩ => ⟨S100000x256, .f32⟩
  | .hbm, ⟨117, _⟩ => ⟨S100000x1, .i32⟩
  | .hbm, ⟨118, _⟩ => ⟨S2048x256, .f32⟩
  | .hbm, ⟨119, _⟩ => ⟨S1x256, .f32⟩
  | .hbm, ⟨120, _⟩ => ⟨S1x2, .f32⟩
  | .hbm, ⟨121, _⟩ => ⟨S2048x2, .f32⟩
  | .local _ .vmem, ⟨0, _⟩ => ⟨S2000x14, .f32⟩
  | .local _ .vmem, ⟨1, _⟩ => ⟨S2000x14, .f32⟩
  | .local _ .vmem, ⟨2, _⟩ => ⟨S2000x14, .f32⟩
  | .local _ .vmem, ⟨3, _⟩ => ⟨S2000x14, .f32⟩
  | .local _ .vmem, ⟨4, _⟩ => ⟨S14x256, .f32⟩
  | .local _ .vmem, ⟨5, _⟩ => ⟨S1x256, .f32⟩
  | .local _ .vmem, ⟨6, _⟩ => ⟨S14x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x256, .f32⟩
  | .local _ .vmem, ⟨14, _⟩ => ⟨S1x256, .f32⟩
  | .local _ .vmem, ⟨15, _⟩ => ⟨S256x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S256x256, .f32⟩
  | .local _ .vmem, ⟨23, _⟩ => ⟨S1x256, .f32⟩
  | .local _ .vmem, ⟨24, _⟩ => ⟨S256x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S2000x256, .f32⟩
  | .local _ .vmem, ⟨29, _⟩ => ⟨S2000x256, .f32⟩
  | .local _ .vmem, ⟨30, _⟩ => ⟨S2000x256, .f32⟩
  | .local _ .vmem, ⟨31, _⟩ => ⟨S256x256, .f32⟩
  | .local _ .vmem, ⟨32, _⟩ => ⟨S1x256, .f32⟩
  | .local _ .vmem, ⟨33, _⟩ => ⟨S256x256, .f32⟩
  | .local _ .vmem, ⟨34, _⟩ => ⟨S2000x256, .f32⟩
  | .local _ .vmem, ⟨35, _⟩ => ⟨S2000x256, .f32⟩
  | .local _ .vmem, ⟨36, _⟩ => ⟨S2000x256, .f32⟩
  | .local _ .vmem, ⟨37, _⟩ => ⟨S2000x256, .f32⟩
  | .local _ .vmem, ⟨38, _⟩ => ⟨S2000x256, .f32⟩
  | .local _ .vmem, ⟨39, _⟩ => ⟨S2000x256, .f32⟩
  | .local _ .vmem, ⟨40, _⟩ => ⟨S256x256, .f32⟩
  | .local _ .vmem, ⟨41, _⟩ => ⟨S1x256, .f32⟩
  | .local _ .vmem, ⟨42, _⟩ => ⟨S256x256, .f32⟩
  | .local _ .vmem, ⟨43, _⟩ => ⟨S2000x256, .f32⟩
  | .local _ .vmem, ⟨44, _⟩ => ⟨S2000x256, .f32⟩
  | .local _ .vmem, ⟨45, _⟩ => ⟨S2000x1, .i32⟩
  | .local _ .vmem, ⟨46, _⟩ => ⟨S2000x1, .i32⟩
  | .local _ .vmem, ⟨47, _⟩ => ⟨S2000x256, .f32⟩
  | .local _ .vmem, ⟨48, _⟩ => ⟨S2000x256, .f32⟩
  | .local _ .vmem, ⟨49, _⟩ => ⟨S2048x256, .f32⟩
  | .local _ .vmem, ⟨50, _⟩ => ⟨S2048x256, .f32⟩
  | .local _ .vmem, ⟨51, _⟩ => ⟨S256x256, .f32⟩
  | .local _ .vmem, ⟨52, _⟩ => ⟨S1x256, .f32⟩
  | .local _ .vmem, ⟨53, _⟩ => ⟨S256x2, .f32⟩
  | .local _ .vmem, ⟨54, _⟩ => ⟨S1x2, .f32⟩
  | .local _ .vmem, ⟨55, _⟩ => ⟨S2048x2, .f32⟩
  | _, _ => ⟨S100000x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_c : Ref sig .tc := ⟨.hbm, 26, rfl⟩
abbrev main_v4 : Ref sig .tc := ⟨.hbm, 27, rfl⟩
abbrev main_v5 : Ref sig .tc := ⟨.hbm, 28, rfl⟩
abbrev main_c_0 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_c_1 : Ref sig .tc := ⟨.hbm, 45, rfl⟩
abbrev main_v20 : Ref sig .tc := ⟨.hbm, 46, rfl⟩
abbrev main_v21 : Ref sig .tc := ⟨.hbm, 47, rfl⟩
abbrev main_c_2 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_cst_3 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_c_4 : Ref sig .tc := ⟨.hbm, 64, rfl⟩
abbrev main_v36 : Ref sig .tc := ⟨.hbm, 65, rfl⟩
abbrev main_v37 : Ref sig .tc := ⟨.hbm, 66, rfl⟩
abbrev main_c_5 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_6 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_c_7 : Ref sig .tc := ⟨.hbm, 83, rfl⟩
abbrev main_v52 : Ref sig .tc := ⟨.hbm, 84, rfl⟩
abbrev main_v53 : Ref sig .tc := ⟨.hbm, 85, rfl⟩
abbrev main_c_8 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_9 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_c_10 : Ref sig .tc := ⟨.hbm, 102, rfl⟩
abbrev main_v68 : Ref sig .tc := ⟨.hbm, 103, rfl⟩
abbrev main_v69 : Ref sig .tc := ⟨.hbm, 104, rfl⟩
abbrev main_c_11 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_12 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg5_1 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg1_1 : Ref sig .tc := ⟨.vmem, 48, rfl⟩
abbrev cc5_stg2_0 : Ref sig .tc := ⟨.vmem, 49, rfl⟩
abbrev cc6_stg0_0 : Ref sig .tc := ⟨.vmem, 50, rfl⟩
abbrev cc6_stg1_0 : Ref sig .tc := ⟨.vmem, 51, rfl⟩
abbrev cc6_stg2_0 : Ref sig .tc := ⟨.vmem, 52, rfl⟩
abbrev cc6_stg3_0 : Ref sig .tc := ⟨.vmem, 53, rfl⟩
abbrev cc6_stg4_0 : Ref sig .tc := ⟨.vmem, 54, rfl⟩
abbrev cc6_stg5_0 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem5_1 : DmaSem sig := 44
abbrev cc5_sem0_0 : DmaSem sig := 45
abbrev cc5_sem0_1 : DmaSem sig := 46
abbrev cc5_sem1_0 : DmaSem sig := 47
abbrev cc5_sem1_1 : DmaSem sig := 48
abbrev cc5_sem2_0 : DmaSem sig := 49
abbrev cc6_sem0_0 : DmaSem sig := 50
abbrev cc6_sem1_0 : DmaSem sig := 51
abbrev cc6_sem2_0 : DmaSem sig := 52
abbrev cc6_sem3_0 : DmaSem sig := 53
abbrev cc6_sem4_0 : DmaSem sig := 54
abbrev cc6_sem5_0 : DmaSem sig := 55

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x14 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x14 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S14x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S14x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S256x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x256 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S2000x1 .i32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S2048x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S2048x256 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S256x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S256x2 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x2 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S2048x2 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S_S300000 : S_.BroadcastsInDim S300000 (![] : Fin 0 → Fin S300000.rank)
  bcast_S300000_S300000x1_0 : S300000.BroadcastsInDim S300000x1 (![0] : Fin 1 → Fin S300000x1.rank)
  bcast_S_S100000x14 : S_.BroadcastsInDim S100000x14 (![] : Fin 0 → Fin S100000x14.rank)
  shapeCasts_S256_S1x256 : S256.ShapeCasts S1x256
  inb_S2000x14_S2000x14_0_0 : ∀ a, (![0, 0] : Fin 2 → Nat) a + S2000x14.size a ≤ S2000x14.size a
  h_S2000x14 : 0 < S2000x14.numel
  shapeCasts_S2000x14_S2000x14 : S2000x14.ShapeCasts S2000x14
  bitsLt_bf16_f32 : FTy.bits .bf16 < FTy.bits .f32
  inb_S14x256_S14x256_0_0 : ∀ a, (![0, 0] : Fin 2 → Nat) a + S14x256.size a ≤ S14x256.size a
  h_S14x256 : 0 < S14x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S100000x256 : S_.BroadcastsInDim S100000x256 (![] : Fin 0 → Fin S100000x256.rank)
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S100000_S100000x1 : S100000.ShapeCasts S100000x1
  inb_S2048x256_S2048x256_0_0 : ∀ a, (![0, 0] : Fin 2 → Nat) a + S2048x256.size a ≤ S2048x256.size a
  h_S2048x256 : 0 < S2048x256.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x2048_d1_w32 : S2000x2048.Iotas .tc 32 [1]
  broadcasts_S2000x1_S2000x2048 : S2000x1.Broadcasts S2000x2048
  natLt_1_32 : 1 < 32
  shapeCasts_S2048x256_S2048x256 : S2048x256.ShapeCasts S2048x256
  shapeCasts_S2_S1x2 : S2.ShapeCasts S1x2
  broadcasts_S1x256_S2048x256 : S1x256.Broadcasts S2048x256
  inb_S256x2_S256x2_0_0 : ∀ a, (![0, 0] : Fin 2 → Nat) a + S256x2.size a ≤ S256x2.size a
  h_S256x2 : 0 < S256x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2048x2 : S1x2.Broadcasts S2048x2
  reduces_S2048x2_S2048 : S2048x2.Reduces [1] S2048
  shapeCasts_S2048_S2048x1 : S2048.ShapeCasts S2048x1
  broadcasts_S2048x1_S2048x2 : S2048x1.Broadcasts S2048x2
  inb_S2048x2_S2048x2_0_0 : ∀ a, (![0, 0] : Fin 2 → Nat) a + S2048x2.size a ≤ S2048x2.size a
  h_S2048x2 : 0 < S2048x2.numel
  gather_S100000x14_S300000x1_S300000x14_1_0_n_n_0_1_114_wf : GatherDims.WF S100000x14 S300000x1 S300000x14 [1] [0] [] [0] [] 1 ![1, 14]
  scatter_S100000x14_S300000x1_S300000x14_1_0_0_1_wf : ScatterDims.WF S100000x14 S300000x1 S300000x14 [1] [0] [0] 1
  dot_S2000x14_S14x256_S2000x256_1_0_0_1_n_n_wf : DotDims.WF S2000x14 S14x256 S2000x256 [1] [0] [0] [1] [] []
  gather_S100000x256_S300000x1_S300000x256_1_0_n_n_0_1_1256_wf : GatherDims.WF S100000x256 S300000x1 S300000x256 [1] [0] [] [0] [] 1 ![1, 256]
  scatter_S100000x256_S300000x1_S300000x256_1_0_0_1_wf : ScatterDims.WF S100000x256 S300000x1 S300000x256 [1] [0] [0] 1
  dot_S2000x256_S256x256_S2000x256_1_0_0_1_n_n_wf : DotDims.WF S2000x256 S256x256 S2000x256 [1] [0] [0] [1] [] []
  dot_S2000x2048_S2000x256_S2048x256_0_0_1_1_n_n_wf : DotDims.WF S2000x2048 S2000x256 S2048x256 [0] [0] [1] [1] [] []
  dot_S2048x256_S256x256_S2048x256_1_0_0_1_n_n_wf : DotDims.WF S2048x256 S256x256 S2048x256 [1] [0] [0] [1] [] []
  dot_S2048x256_S256x2_S2048x2_1_0_0_1_n_n_wf : DotDims.WF S2048x256 S256x2 S2048x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x14.size a ≤ S100000x14.size a
  hwx0_0 : ∀ i : grid0.Coords, EltTy.bits .f32 = 32 ∨ (Rect.block (s := S100000x14) S2000x14.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x14.size a ≤ S100000x14.size a
  hwx0_1 : ∀ i : grid0.Coords, EltTy.bits .f32 = 32 ∨ (Rect.block (s := S100000x14) S2000x14.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S14x256.size a ≤ S14x256.size a
  hwx0_2 : ∀ i : grid0.Coords, EltTy.bits .f32 = 32 ∨ (Rect.block (s := S14x256) S14x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S14x256.size a ≤ S14x256.size a
  hwx0_4 : ∀ i : grid0.Coords, EltTy.bits .f32 = 32 ∨ (Rect.block (s := S14x256) S14x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S100000x256.size a
  hwx0_5 : ∀ i : grid0.Coords, EltTy.bits .f32 = 32 ∨ (Rect.block (s := S100000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S100000x256.size a
  hwx1_0 : ∀ i : grid1.Coords, EltTy.bits .f32 = 32 ∨ (Rect.block (s := S100000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S100000x256.size a
  hwx1_1 : ∀ i : grid1.Coords, EltTy.bits .f32 = 32 ∨ (Rect.block (s := S100000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S100000x256.size a
  hwx1_5 : ∀ i : grid1.Coords, EltTy.bits .f32 = 32 ∨ (Rect.block (s := S100000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S100000x256.size a
  hwx2_0 : ∀ i : grid2.Coords, EltTy.bits .f32 = 32 ∨ (Rect.block (s := S100000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S100000x256.size a
  hwx2_1 : ∀ i : grid2.Coords, EltTy.bits .f32 = 32 ∨ (Rect.block (s := S100000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S100000x256.size a
  hwx2_5 : ∀ i : grid2.Coords, EltTy.bits .f32 = 32 ∨ (Rect.block (s := S100000x256) S2000x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S100000x256.size a
  hwx3_0 : ∀ i : grid3.Coords, EltTy.bits .f32 = 32 ∨ (Rect.block (s := S100000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S100000x256.size a
  hwx3_1 : ∀ i : grid3.Coords, EltTy.bits .f32 = 32 ∨ (Rect.block (s := S100000x256) S2000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .f32 = 32 ∨ (Rect.block (s := S256x256) S256x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x256.size a ≤ S256x256.size a
  hwx3_4 : ∀ i : grid3.Coords, EltTy.bits .f32 = 32 ∨ (Rect.block (s := S256x256) S256x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x256.size a ≤ S100000x256.size a
  hwx3_5 : ∀ i : grid3.Coords, EltTy.bits .f32 = 32 ∨ (Rect.block (s := S100000x256) S2000x256.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S100000x256.size a
  hwx4_0 : ∀ i : grid4.Coords, EltTy.bits .f32 = 32 ∨ (Rect.block (s := S100000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x256.size a ≤ S100000x256.size a
  hwx4_1 : ∀ i : grid4.Coords, EltTy.bits .f32 = 32 ∨ (Rect.block (s := S100000x256) S2000x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x256.size a ≤ S256x256.size a
  hwx4_2 : ∀ i : grid4.Coords, EltTy.bits .f32 = 32 ∨ (Rect.block (s := S256x256) S256x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S256x256.size a ≤ S256x256.size a
  hwx4_4 : ∀ i : grid4.Coords, EltTy.bits .f32 = 32 ∨ (Rect.block (s := S256x256) S256x256.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x256.size a ≤ S100000x256.size a
  hwx4_5 : ∀ i : grid4.Coords, EltTy.bits .f32 = 32 ∨ (Rect.block (s := S100000x256) S2000x256.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x1.size a ≤ S100000x1.size a
  hwx5_0 : ∀ i : grid5.Coords, EltTy.bits .i32 = 32 ∨ (Rect.block (s := S100000x1) S2000x1.size (cc5_transform_0 i) (hinb5_0 i)).WholeWords (EltTy.packing .i32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x256.size a ≤ S100000x256.size a
  hwx5_1 : ∀ i : grid5.Coords, EltTy.bits .f32 = 32 ∨ (Rect.block (s := S100000x256) S2000x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S2048x256.size a ≤ S2048x256.size a
  hwx5_2 : ∀ i : grid5.Coords, EltTy.bits .f32 = 32 ∨ (Rect.block (s := S2048x256) S2048x256.size (cc5_transform_2 i) (hinb5_2 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S2048x256.size a ≤ S2048x256.size a
  hwx6_0 : ∀ i : grid6.Coords, EltTy.bits .f32 = 32 ∨ (Rect.block (s := S2048x256) S2048x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x256.size a ≤ S256x256.size a
  hwx6_1 : ∀ i : grid6.Coords, EltTy.bits .f32 = 32 ∨ (Rect.block (s := S256x256) S256x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x256.size a ≤ S1x256.size a
  hwx6_2 : ∀ i : grid6.Coords, EltTy.bits .f32 = 32 ∨ (Rect.block (s := S1x256) S1x256.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S256x2.size a ≤ S256x2.size a
  hwx6_3 : ∀ i : grid6.Coords, EltTy.bits .f32 = 32 ∨ (Rect.block (s := S256x2) S256x2.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x2.size a ≤ S1x2.size a
  hwx6_4 : ∀ i : grid6.Coords, EltTy.bits .f32 = 32 ∨ (Rect.block (s := S1x2) S1x2.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S2048x2.size a ≤ S2048x2.size a
  hwx6_5 : ∀ i : grid6.Coords, EltTy.bits .f32 = 32 ∨ (Rect.block (s := S2048x2) S2048x2.size (cc6_transform_5 i) (hinb6_5 i)).WholeWords (EltTy.packing .f32)

variable [Facts₀]

def gather_S100000x14_S300000x1_S300000x14_1_0_n_n_0_1_114 : GatherDims S100000x14 S300000x1 S300000x14 where
  offsetDims := [1]
  collapsedSliceDims := [0]
  operandBatchingDims := []
  startIndicesBatchingDims := []
  startIndexMap := [0]
  indexVectorDim := 1
  sliceSizes := ![1, 14]
  wf := gather_S100000x14_S300000x1_S300000x14_1_0_n_n_0_1_114_wf
def scatter_S100000x14_S300000x1_S300000x14_1_0_0_1 : ScatterDims S100000x14 S300000x1 S300000x14 where
  updateWindowDims := [1]
  insertedWindowDims := [0]
  scatterDimsToOperandDims := [0]
  indexVectorDim := 1
  wf := scatter_S100000x14_S300000x1_S300000x14_1_0_0_1_wf
def dot_S2000x14_S14x256_S2000x256_1_0_0_1_n_n : DotDims S2000x14 S14x256 S2000x256 where
  lhsContracting := [1]
  rhsContracting := [0]
  lhsNonContracting := [0]
  rhsNonContracting := [1]
  lhsBatch := []
  rhsBatch := []
  wf := dot_S2000x14_S14x256_S2000x256_1_0_0_1_n_n_wf
def gather_S100000x256_S300000x1_S300000x256_1_0_n_n_0_1_1256 : GatherDims S100000x256 S300000x1 S300000x256 where
  offsetDims := [1]
  collapsedSliceDims := [0]
  operandBatchingDims := []
  startIndicesBatchingDims := []
  startIndexMap := [0]
  indexVectorDim := 1
  sliceSizes := ![1, 256]
  wf := gather_S100000x256_S300000x1_S300000x256_1_0_n_n_0_1_1256_wf
def scatter_S100000x256_S300000x1_S300000x256_1_0_0_1 : ScatterDims S100000x256 S300000x1 S300000x256 where
  updateWindowDims := [1]
  insertedWindowDims := [0]
  scatterDimsToOperandDims := [0]
  indexVectorDim := 1
  wf := scatter_S100000x256_S300000x1_S300000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x2048_S2000x256_S2048x256_0_0_1_1_n_n : DotDims S2000x2048 S2000x256 S2048x256 where
  lhsContracting := [0]
  rhsContracting := [0]
  lhsNonContracting := [1]
  rhsNonContracting := [1]
  lhsBatch := []
  rhsBatch := []
  wf := dot_S2000x2048_S2000x256_S2048x256_0_0_1_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x2_S2048x2_1_0_0_1_n_n : DotDims S2048x256 S256x2 S2048x2 where
  lhsContracting := [1]
  rhsContracting := [0]
  lhsNonContracting := [0]
  rhsNonContracting := [1]
  lhsBatch := []
  rhsBatch := []
  wf := dot_S2048x256_S256x2_S2048x2_1_0_0_1_n_n_wf

abbrev win0_0 : Pipeline.Window sig grid0 :=
  Pipeline.Window.ofSpec (Memref.whole main_v13) S2000x14.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x14.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S14x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S14x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v29) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v45) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v46) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v47) S2000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v61) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v47) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg12) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v62) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg14) S256x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v63) S2000x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v77) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v63) S2000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg15) S256x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v78) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg17) S256x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v79) S2000x256.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v80) S2000x1.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v79) S2000x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v81) S2048x256.size cc5_transform_2 reads5_2 true true 1 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v81) S2048x256.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg18) S256x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v82) S1x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg20) S256x2.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v83) S1x2.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v84) S2048x2.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S100000x14 : Shape := ⟨2, ![100000, 14]⟩
abbrev S2x300000 : Shape := ⟨2, ![2, 300000]⟩
abbrev S100000 : Shape := ⟨1, ![100000]⟩
abbrev S14x256 : Shape := ⟨2, ![14, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S1x300000 : Shape := ⟨2, ![1, 300000]⟩
abbrev S300000 : Shape := ⟨1, ![300000]⟩
abbrev S_ : Shape := ⟨0, ![]⟩
abbrev S300000x1 : Shape := ⟨2, ![300000, 1]⟩
abbrev S300000x14 : Shape := ⟨2, ![300000, 14]⟩
abbrev S100000x256 : Shape := ⟨2, ![100000, 256]⟩
abbrev S1x256 : Shape := ⟨2, ![1, 256]⟩
abbrev S300000x256 : Shape := ⟨2, ![300000, 256]⟩
abbrev S2048x256 : Shape := ⟨2, ![2048, 256]⟩
abbrev S100000x1 : Shape := ⟨2, ![100000, 1]⟩
abbrev S2048x2 : Shape := ⟨2, ![2048, 2]⟩
abbrev S1x2 : Shape := ⟨2, ![1, 2]⟩
abbrev S2048 : Shape := ⟨1, ![2048]⟩
abbrev S2048x1 : Shape := ⟨2, ![2048, 1]⟩

abbrev nBuf : Space → Nat
  | .hbm => 182
  | .vmem => 0
  | .smem => 0
  | _ => 0

abbrev hbmTy0_0 (i : Nat) : BufTy := match i % 128 with
  | 0 => ⟨S100000x14, .f32⟩
  | 1 => ⟨S2x300000, .i32⟩
  | 2 => ⟨S100000, .i32⟩
  | 3 => ⟨S14x256, .f32⟩
  | 4 => ⟨S256, .f32⟩
  | 5 => ⟨S14x256, .f32⟩
  | 6 => ⟨S256x256, .f32⟩
  | 7 => ⟨S256, .f32⟩
  | 8 => ⟨S256x256, .f32⟩
  | 9 => ⟨S256x256, .f32⟩
  | 10 => ⟨S256, .f32⟩
  | 11 => ⟨S256x256, .f32⟩
  | 12 => ⟨S256x256, .f32⟩
  | 13 => ⟨S256, .f32⟩
  | 14 => ⟨S256x256, .f32⟩
  | 15 => ⟨S256x256, .f32⟩
  | 16 => ⟨S256, .f32⟩
  | 17 => ⟨S256x256, .f32⟩
  | 18 => ⟨S256x256, .f32⟩
  | 19 => ⟨S256, .f32⟩
  | 20 => ⟨S256x2, .f32⟩
  | 21 => ⟨S2, .f32⟩
  | 22 => ⟨S1x300000, .i32⟩
  | 23 => ⟨S300000, .i32⟩
  | 24 => ⟨S1x300000, .i32⟩
  | 25 => ⟨S300000, .i32⟩
  | 26 => ⟨S_, .i32⟩
  | 27 => ⟨S300000, .i32⟩
  | 28 => ⟨S300000, .i1⟩
  | 29 => ⟨S_, .i32⟩
  | 30 => ⟨S300000, .i32⟩
  | 31 => ⟨S300000, .i32⟩
  | 32 => ⟨S300000, .i32⟩
  | 33 => ⟨S300000x1, .i32⟩
  | 34 => ⟨S300000x14, .f32⟩
  | 35 => ⟨S_, .f32⟩
  | 36 => ⟨S100000x14, .f32⟩
  | 37 => ⟨S300000x1, .i32⟩
  | 38 => ⟨S100000x14, .f32⟩
  | 39 => ⟨S100000x256, .f32⟩
  | 40 => ⟨S1x256, .f32⟩
  | 41 => ⟨S100000x256, .f32⟩
  | 42 => ⟨S100000x256, .f32⟩
  | 43 => ⟨S100000x256, .f32⟩
  | 44 => ⟨S100000x256, .f32⟩
  | 45 => ⟨S_, .f32⟩
  | 46 => ⟨S100000x256, .f32⟩
  | 47 => ⟨S100000x256, .f32⟩
  | 48 => ⟨S1x300000, .i32⟩
  | 49 => ⟨S300000, .i32⟩
  | 50 => ⟨S1x300000, .i32⟩
  | 51 => ⟨S300000, .i32⟩
  | 52 => ⟨S_, .i32⟩
  | 53 => ⟨S300000, .i32⟩
  | 54 => ⟨S300000, .i1⟩
  | 55 => ⟨S_, .i32⟩
  | 56 => ⟨S300000, .i32⟩
  | 57 => ⟨S300000, .i32⟩
  | 58 => ⟨S300000, .i32⟩
  | 59 => ⟨S300000x1, .i32⟩
  | 60 => ⟨S300000x256, .f32⟩
  | 61 => ⟨S_, .f32⟩
  | 62 => ⟨S100000x256, .f32⟩
  | 63 => ⟨S300000x1, .i32⟩
  | 64 => ⟨S100000x256, .f32⟩
  | 65 => ⟨S100000x256, .f32⟩
  | 66 => ⟨S1x256, .f32⟩
  | 67 => ⟨S100000x256, .f32⟩
  | 68 => ⟨S100000x256, .f32⟩
  | 69 => ⟨S100000x256, .f32⟩
  | 70 => ⟨S100000x256, .f32⟩
  | 71 => ⟨S_, .f32⟩
  | 72 => ⟨S100000x256, .f32⟩
  | 73 => ⟨S100000x256, .f32⟩
  | 74 => ⟨S1x300000, .i32⟩
  | 75 => ⟨S300000, .i32⟩
  | 76 => ⟨S1x300000, .i32⟩
  | 77 => ⟨S300000, .i32⟩
  | 78 => ⟨S_, .i32⟩
  | 79 => ⟨S300000, .i32⟩
  | 80 => ⟨S300000, .i1⟩
  | 81 => ⟨S_, .i32⟩
  | 82 => ⟨S300000, .i32⟩
  | 83 => ⟨S300000, .i32⟩
  | 84 => ⟨S300000, .i32⟩
  | 85 => ⟨S300000x1, .i32⟩
  | 86 => ⟨S300000x256, .f32⟩
  | 87 => ⟨S_, .f32⟩
  | 88 => ⟨S100000x256, .f32⟩
  | 89 => ⟨S300000x1, .i32⟩
  | 90 => ⟨S100000x256, .f32⟩
  | 91 => ⟨S100000x256, .f32⟩
  | 92 => ⟨S1x256, .f32⟩
  | 93 => ⟨S100000x256, .f32⟩
  | 94 => ⟨S100000x256, .f32⟩
  | 95 => ⟨S100000x256, .f32⟩
  | 96 => ⟨S100000x256, .f32⟩
  | 97 => ⟨S_, .f32⟩
  | 98 => ⟨S100000x256, .f32⟩
  | 99 => ⟨S100000x256, .f32⟩
  | 100 => ⟨S1x300000, .i32⟩
  | 101 => ⟨S300000, .i32⟩
  | 102 => ⟨S1x300000, .i32⟩
  | 103 => ⟨S300000, .i32⟩
  | 104 => ⟨S_, .i32⟩
  | 105 => ⟨S300000, .i32⟩
  | 106 => ⟨S300000, .i1⟩
  | 107 => ⟨S_, .i32⟩
  | 108 => ⟨S300000, .i32⟩
  | 109 => ⟨S300000, .i32⟩
  | 110 => ⟨S300000, .i32⟩
  | 111 => ⟨S300000x1, .i32⟩
  | 112 => ⟨S300000x256, .f32⟩
  | 113 => ⟨S_, .f32⟩
  | 114 => ⟨S100000x256, .f32⟩
  | 115 => ⟨S300000x1, .i32⟩
  | 116 => ⟨S100000x256, .f32⟩
  | 117 => ⟨S100000x256, .f32⟩
  | 118 => ⟨S1x256, .f32⟩
  | 119 => ⟨S100000x256, .f32⟩
  | 120 => ⟨S100000x256, .f32⟩
  | 121 => ⟨S100000x256, .f32⟩
  | 122 => ⟨S100000x256, .f32⟩
  | 123 => ⟨S_, .f32⟩
  | 124 => ⟨S100000x256, .f32⟩
  | 125 => ⟨S100000x256, .f32⟩
  | 126 => ⟨S1x300000, .i32⟩
  | 127 => ⟨S300000, .i32⟩
  | _ => ⟨S100000x14, .f32⟩

abbrev hbmTy0_1 (i : Nat) : BufTy := match i % 128 with
  | 0 => ⟨S1x300000, .i32⟩
  | 1 => ⟨S300000, .i32⟩
  | 2 => ⟨S_, .i32⟩
  | 3 => ⟨S300000, .i32⟩
  | 4 => ⟨S300000, .i1⟩
  | 5 => ⟨S_, .i32⟩
  | 6 => ⟨S300000, .i32⟩
  | 7 => ⟨S300000, .i32⟩
  | 8 => ⟨S300000, .i32⟩
  | 9 => ⟨S300000x1, .i32⟩
  | 10 => ⟨S300000x256, .f32⟩
  | 11 => ⟨S_, .f32⟩
  | 12 => ⟨S100000x256, .f32⟩
  | 13 => ⟨S300000x1, .i32⟩
  | 14 => ⟨S100000x256, .f32⟩
  | 15 => ⟨S100000x256, .f32⟩
  | 16 => ⟨S1x256, .f32⟩
  | 17 => ⟨S100000x256, .f32⟩
  | 18 => ⟨S100000x256, .f32⟩
  | 19 => ⟨S100000x256, .f32⟩
  | 20 => ⟨S100000x256, .f32⟩
  | 21 => ⟨S_, .f32⟩
  | 22 => ⟨S100000x256, .f32⟩
  | 23 => ⟨S100000x256, .f32⟩
  | 24 => ⟨S_, .f32⟩
  | 25 => ⟨S2048x256, .f32⟩
  | 26 => ⟨S100000x1, .i32⟩
  | 27 => ⟨S2048x256, .f32⟩
  | 28 => ⟨S2048x256, .f32⟩
  | 29 => ⟨S1x256, .f32⟩
  | 30 => ⟨S2048x256, .f32⟩
  | 31 => ⟨S2048x256, .f32⟩
  | 32 => ⟨S_, .f32⟩
  | 33 => ⟨S2048x256, .f32⟩
  | 34 => ⟨S2048x256, .f32⟩
  | 35 => ⟨S2048x2, .f32⟩
  | 36 => ⟨S1x2, .f32⟩
  | 37 => ⟨S2048x2, .f32⟩
  | 38 => ⟨S2048x2, .f32⟩
  | 39 => ⟨S_, .f32⟩
  | 40 => ⟨S2048, .f32⟩
  | 41 => ⟨S_, .f32⟩
  | 42 => ⟨S2048, .f32⟩
  | 43 => ⟨S2048, .f32⟩
  | 44 => ⟨S2048x1, .f32⟩
  | 45 => ⟨S2048x2, .f32⟩
  | 46 => ⟨S2048x2, .f32⟩
  | 47 => ⟨S2048x2, .f32⟩
  | 48 => ⟨S_, .f32⟩
  | 49 => ⟨S2048, .f32⟩
  | 50 => ⟨S2048x1, .f32⟩
  | 51 => ⟨S2048x1, .f32⟩
  | 52 => ⟨S2048x2, .f32⟩
  | 53 => ⟨S2048x2, .f32⟩
  | _ => ⟨S100000x14, .f32⟩

abbrev hbmTy (i : Nat) : BufTy := match i / 128 with
  | 0 => hbmTy0_0 i
  | 1 => hbmTy0_1 i
  | _ => ⟨S100000x14, .f32⟩

abbrev bufTy : (tb : Table) → Fin (tcTables nBuf tb) → BufTy
  | .hbm, ⟨i, _⟩ => hbmTy i
  | _, _ => ⟨S100000x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_c : Ref sig .tc := ⟨.hbm, 26, rfl⟩
abbrev main_v4 : Ref sig .tc := ⟨.hbm, 27, rfl⟩
abbrev main_v5 : Ref sig .tc := ⟨.hbm, 28, rfl⟩
abbrev main_c_0 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_call0_cst : Ref sig .tc := ⟨.hbm, 45, rfl⟩
abbrev main_call0_v0 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_c_1 : Ref sig .tc := ⟨.hbm, 52, rfl⟩
abbrev main_v25 : Ref sig .tc := ⟨.hbm, 53, rfl⟩
abbrev main_v26 : Ref sig .tc := ⟨.hbm, 54, rfl⟩
abbrev main_c_2 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_cst_3 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_call1_cst : Ref sig .tc := ⟨.hbm, 71, rfl⟩
abbrev main_call1_v0 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_c_4 : Ref sig .tc := ⟨.hbm, 78, rfl⟩
abbrev main_v46 : Ref sig .tc := ⟨.hbm, 79, rfl⟩
abbrev main_v47 : Ref sig .tc := ⟨.hbm, 80, rfl⟩
abbrev main_c_5 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_6 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_call2_cst : Ref sig .tc := ⟨.hbm, 97, rfl⟩
abbrev main_call2_v0 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_c_7 : Ref sig .tc := ⟨.hbm, 104, rfl⟩
abbrev main_v67 : Ref sig .tc := ⟨.hbm, 105, rfl⟩
abbrev main_v68 : Ref sig .tc := ⟨.hbm, 106, rfl⟩
abbrev main_c_8 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_cst_9 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_call3_cst : Ref sig .tc := ⟨.hbm, 123, rfl⟩
abbrev main_call3_v0 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_c_10 : Ref sig .tc := ⟨.hbm, 130, rfl⟩
abbrev main_v88 : Ref sig .tc := ⟨.hbm, 131, rfl⟩
abbrev main_v89 : Ref sig .tc := ⟨.hbm, 132, rfl⟩
abbrev main_c_11 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_cst_12 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_call4_cst : Ref sig .tc := ⟨.hbm, 149, rfl⟩
abbrev main_call4_v0 : Ref sig .tc := ⟨.hbm, 150, rfl⟩
abbrev main_v104 : Ref sig .tc := ⟨.hbm, 151, rfl⟩
abbrev main_cst_13 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_call5_cst : Ref sig .tc := ⟨.hbm, 160, rfl⟩
abbrev main_call5_v0 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_call6_cst : Ref sig .tc := ⟨.hbm, 167, rfl⟩
abbrev main_call6_v0 : Ref sig .tc := ⟨.hbm, 168, rfl⟩
abbrev main_call6_cst_0 : Ref sig .tc := ⟨.hbm, 169, rfl⟩
abbrev main_call6_v1 : Ref sig .tc := ⟨.hbm, 170, rfl⟩
abbrev main_call6_v2 : Ref sig .tc := ⟨.hbm, 171, rfl⟩
abbrev main_call6_v3 : Ref sig .tc := ⟨.hbm, 172, rfl⟩
abbrev main_call6_v4 : Ref sig .tc := ⟨.hbm, 173, rfl⟩
abbrev main_call6_v5 : Ref sig .tc := ⟨.hbm, 174, rfl⟩
abbrev main_call6_v6 : Ref sig .tc := ⟨.hbm, 175, rfl⟩
abbrev main_call6_cst_1 : Ref sig .tc := ⟨.hbm, 176, rfl⟩
abbrev main_call6_v7 : Ref sig .tc := ⟨.hbm, 177, rfl⟩
abbrev main_call6_v8 : Ref sig .tc := ⟨.hbm, 178, rfl⟩
abbrev main_call6_v9 : Ref sig .tc := ⟨.hbm, 179, rfl⟩
abbrev main_call6_v10 : Ref sig .tc := ⟨.hbm, 180, rfl⟩
abbrev main_v117 : Ref sig .tc := ⟨.hbm, 181, rfl⟩

abbrev nD : Nat := 1
abbrev τ : Topo := Topo.v7x

variable {F : FTy → Type} [FloatOps F]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S_S300000 : S_.BroadcastsInDim S300000 (![] : Fin 0 → Fin S300000.rank)
  bcast_S300000_S300000x1_0 : S300000.BroadcastsInDim S300000x1 (![0] : Fin 1 → Fin S300000x1.rank)
  bcast_S_S100000x14 : S_.BroadcastsInDim S100000x14 (![] : Fin 0 → Fin S100000x14.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S_S2048x256 : S_.BroadcastsInDim S2048x256 (![] : Fin 0 → Fin S2048x256.rank)
  bcast_S100000_S100000x1_0 : S100000.BroadcastsInDim S100000x1 (![0] : Fin 1 → Fin S100000x1.rank)
  bcast_S1x256_S2048x256_0_1 : S1x256.BroadcastsInDim S2048x256 (![0, 1] : Fin 2 → Fin S2048x256.rank)
  bcast_S2_S1x2_1 : S2.BroadcastsInDim S1x2 (![1] : Fin 1 → Fin S1x2.rank)
  bcast_S1x2_S2048x2_0_1 : S1x2.BroadcastsInDim S2048x2 (![0, 1] : Fin 2 → Fin S2048x2.rank)
  reducesTo_S2048x2_S2048_d1 : S2048x2.ReducesTo [1] S2048
  h_S_ : 0 < S_.numel
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x2_0_1 : S2048x1.BroadcastsInDim S2048x2 (![0, 1] : Fin 2 → Fin S2048x2.rank)
  gather_S100000x14_S300000x1_S300000x14_1_0_n_n_0_1_114_wf : GatherDims.WF S100000x14 S300000x1 S300000x14 [1] [0] [] [0] [] 1 ![1, 14]
  scatter_S100000x14_S300000x1_S300000x14_1_0_0_1_wf : ScatterDims.WF S100000x14 S300000x1 S300000x14 [1] [0] [0] 1
  dot_S100000x14_S14x256_S100000x256_1_0_0_1_n_n_wf : DotDims.WF S100000x14 S14x256 S100000x256 [1] [0] [0] [1] [] []
  gather_S100000x256_S300000x1_S300000x256_1_0_n_n_0_1_1256_wf : GatherDims.WF S100000x256 S300000x1 S300000x256 [1] [0] [] [0] [] 1 ![1, 256]
  scatter_S100000x256_S300000x1_S300000x256_1_0_0_1_wf : ScatterDims.WF S100000x256 S300000x1 S300000x256 [1] [0] [0] 1
  dot_S100000x256_S256x256_S100000x256_1_0_0_1_n_n_wf : DotDims.WF S100000x256 S256x256 S100000x256 [1] [0] [0] [1] [] []
  scatter_S2048x256_S100000x1_S100000x256_1_0_0_1_wf : ScatterDims.WF S2048x256 S100000x1 S100000x256 [1] [0] [0] 1
  dot_S2048x256_S256x256_S2048x256_1_0_0_1_n_n_wf : DotDims.WF S2048x256 S256x256 S2048x256 [1] [0] [0] [1] [] []
  dot_S2048x256_S256x2_S2048x2_1_0_0_1_n_n_wf : DotDims.WF S2048x256 S256x2 S2048x2 [1] [0] [0] [1] [] []

variable [Facts₀]

def gather_S100000x14_S300000x1_S300000x14_1_0_n_n_0_1_114 : GatherDims S100000x14 S300000x1 S300000x14 where
  offsetDims := [1]
  collapsedSliceDims := [0]
  operandBatchingDims := []
  startIndicesBatchingDims := []
  startIndexMap := [0]
  indexVectorDim := 1
  sliceSizes := ![1, 14]
  wf := gather_S100000x14_S300000x1_S300000x14_1_0_n_n_0_1_114_wf
def scatter_S100000x14_S300000x1_S300000x14_1_0_0_1 : ScatterDims S100000x14 S300000x1 S300000x14 where
  updateWindowDims := [1]
  insertedWindowDims := [0]
  scatterDimsToOperandDims := [0]
  indexVectorDim := 1
  wf := scatter_S100000x14_S300000x1_S300000x14_1_0_0_1_wf
def dot_S100000x14_S14x256_S100000x256_1_0_0_1_n_n : DotDims S100000x14 S14x256 S100000x256 where
  lhsContracting := [1]
  rhsContracting := [0]
  lhsNonContracting := [0]
  rhsNonContracting := [1]
  lhsBatch := []
  rhsBatch := []
  wf := dot_S100000x14_S14x256_S100000x256_1_0_0_1_n_n_wf
def gather_S100000x256_S300000x1_S300000x256_1_0_n_n_0_1_1256 : GatherDims S100000x256 S300000x1 S300000x256 where
  offsetDims := [1]
  collapsedSliceDims := [0]
  operandBatchingDims := []
  startIndicesBatchingDims := []
  startIndexMap := [0]
  indexVectorDim := 1
  sliceSizes := ![1, 256]
  wf := gather_S100000x256_S300000x1_S300000x256_1_0_n_n_0_1_1256_wf
def scatter_S100000x256_S300000x1_S300000x256_1_0_0_1 : ScatterDims S100000x256 S300000x1 S300000x256 where
  updateWindowDims := [1]
  insertedWindowDims := [0]
  scatterDimsToOperandDims := [0]
  indexVectorDim := 1
  wf := scatter_S100000x256_S300000x1_S300000x256_1_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def scatter_S2048x256_S100000x1_S100000x256_1_0_0_1 : ScatterDims S2048x256 S100000x1 S100000x256 where
  updateWindowDims := [1]
  insertedWindowDims := [0]
  scatterDimsToOperandDims := [0]
  indexVectorDim := 1
  wf := scatter_S2048x256_S100000x1_S100000x256_1_0_0_1_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x2_S2048x2_1_0_0_1_n_n : DotDims S2048x256 S256x2 S2048x2 where
  lhsContracting := [1]
  rhsContracting := [0]
  lhsNonContracting := [0]
  rhsNonContracting := [1]
  lhsBatch := []
  rhsBatch := []
  wf := dot_S2048x256_S256x2_S2048x2_1_0_0_1_n_n_wf

class Facts : Prop extends Facts₀ where

variable [Facts]
-- ==== Proof.Spec.lean ====
/-
  The mathematics of the network, on the extended reals, stated once for both programs.

  A GraphConv layer sends node features X (with their neighbour sums A) to
  relu(A·W + b + X·R); five of them are stacked.  The per-graph pool adds the rows of the
  last layer's output whose graph id is g.  The head is relu(G·W1 + b1)·W2 + b2 followed by a
  log-softmax over the two classes.  The two programs differ in the last step only in how they
  bracket  l − m − log Σ exp(l − m):  one subtracts (m + log Σ) from l, the other subtracts m and
  then log Σ.  On the extended reals these agree when the row maximum m is a real number, which
  holds when every input is finite: sums, products and maxima of reals are reals.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-! ## Shapes -/

abbrev Nodes14 : Shape := ⟨2, ![100000, 14]⟩
abbrev Nodes : Shape := ⟨2, ![100000, 256]⟩
abbrev Wt14 : Shape := ⟨2, ![14, 256]⟩
abbrev Wt : Shape := ⟨2, ![256, 256]⟩
abbrev Row : Shape := ⟨2, ![1, 256]⟩
abbrev Graphs : Shape := ⟨2, ![2048, 256]⟩
abbrev Wt2 : Shape := ⟨2, ![256, 2]⟩
abbrev Row2 : Shape := ⟨2, ![1, 2]⟩
abbrev Logits : Shape := ⟨2, ![2048, 2]⟩
abbrev Ids : Shape := ⟨2, ![100000, 1]⟩

/-! ## The layers, entry by entry -/

/-- Entry (p, q) of relu(A·W + b + X·R) for 14 input features. -/
def conv14At (A X : Nodes14.Idx → EReal) (W : Wt14.Idx → EReal) (b : Row.Idx → EReal) (R : Wt14.Idx → EReal)
    (p : Fin 100000) (q : Fin 256) : EReal :=
  max ((∑ k : Fin 14, A (ix2 p k) * W (ix2 k q)) + b (ix2 0 q) + ∑ k : Fin 14, X (ix2 p k) * R (ix2 k q)) 0

/-- relu(A·W + b + X·R) for 14 input features, as an array. -/
def conv14 (A X : Nodes14.Idx → EReal) (W : Wt14.Idx → EReal) (b : Row.Idx → EReal) (R : Wt14.Idx → EReal) :
    Nodes.Idx → EReal := fun i => conv14At A X W b R (i 0) (i 1)

/-- Entry (p, q) of relu(A·W + b + X·R) for 256 input features. -/
def convAt (A X : Nodes.Idx → EReal) (W : Wt.Idx → EReal) (b : Row.Idx → EReal) (R : Wt.Idx → EReal)
    (p : Fin 100000) (q : Fin 256) : EReal :=
  max ((∑ k : Fin 256, A (ix2 p k) * W (ix2 k q)) + b (ix2 0 q) + ∑ k : Fin 256, X (ix2 p k) * R (ix2 k q)) 0

/-- relu(A·W + b + X·R) for 256 input features, as an array. -/
def conv (A X : Nodes.Idx → EReal) (W : Wt.Idx → EReal) (b : Row.Idx → EReal) (R : Wt.Idx → EReal) :
    Nodes.Idx → EReal := fun i => convAt A X W b R (i 0) (i 1)

/-- Entry (g, q) of the per-graph sum: the rows n of H whose graph id is g, added up. -/
def poolAt (B : Ids.Idx → BitVec 32) (H : Nodes.Idx → EReal) (g : Fin 2048) (q : Fin 256) : EReal :=
  ∑ n : Fin 100000, if B (ix2 n 0) = BitVec.ofNat 32 g.val then H (ix2 n q) else 0

/-- The per-graph sum as an array. -/
def pool (B : Ids.Idx → BitVec 32) (H : Nodes.Idx → EReal) : Graphs.Idx → EReal :=
  fun i => poolAt B H (i 0) (i 1)

/-- Entry (g, q) of the hidden layer relu(G·W1 + b1). -/
def hidAt (G : Graphs.Idx → EReal) (W1 : Wt.Idx → EReal) (b1 : Row.Idx → EReal) (g : Fin 2048) (q : Fin 256) : EReal :=
  max ((∑ k : Fin 256, G (ix2 g k) * W1 (ix2 k q)) + b1 (ix2 0 q)) 0

/-- Entry (g, c) of the logits relu(G·W1 + b1)·W2 + b2. -/
def logitAt (G : Graphs.Idx → EReal) (W1 : Wt.Idx → EReal) (b1 : Row.Idx → EReal) (W2 : Wt2.Idx → EReal)
    (b2 : Row2.Idx → EReal) (g : Fin 2048) (c : Fin 2) : EReal :=
  (∑ k : Fin 256, hidAt G W1 b1 g k * W2 (ix2 k c)) + b2 (ix2 0 c)

/-- The larger of a row's two logits. -/
def rowMax (l : Fin 2 → EReal) : EReal := max (l 0) (l 1)

/-- Σ_c exp(l c − m) for a row of two logits, m its maximum. -/
def sumExp (l : Fin 2 → EReal) : EReal := ∑ k : Fin 2, Ideal.exp (l k - rowMax l)

/-- The log-softmax bracketed as  l − (m + log Σ). -/
def lsmSum (l : Fin 2 → EReal) (c : Fin 2) : EReal := l c - (rowMax l + Ideal.log (sumExp l))

/-- The log-softmax bracketed as  (l − m) − log Σ. -/
def lsmShift (l : Fin 2 → EReal) (c : Fin 2) : EReal := (l c - rowMax l) - Ideal.log (sumExp l)

/-- The head's result bracketed the first way, as an array. -/
def headSum (G : Graphs.Idx → EReal) (W1 : Wt.Idx → EReal) (b1 : Row.Idx → EReal) (W2 : Wt2.Idx → EReal)
    (b2 : Row2.Idx → EReal) : Logits.Idx → EReal :=
  fun i => lsmSum (fun c => logitAt G W1 b1 W2 b2 (i 0) c) (i 1)

/-- The head's result bracketed the second way, as an array. -/
def headShift (G : Graphs.Idx → EReal) (W1 : Wt.Idx → EReal) (b1 : Row.Idx → EReal) (W2 : Wt2.Idx → EReal)
    (b2 : Row2.Idx → EReal) : Logits.Idx → EReal :=
  fun i => lsmShift (fun c => logitAt G W1 b1 W2 b2 (i 0) c) (i 1)

/-! ## Real-valued entries are kept by every step -/

/-- An extended real that is a real number. -/
def IsR (x : EReal) : Prop := ∃ r : ℝ, x = (r : EReal)

/-- Every entry of an array is a real number. -/
def AllR {α : Type} (v : α → EReal) : Prop := ∀ i, IsR (v i)

theorem isR_zero : IsR 0 := ⟨0, rfl⟩

theorem IsR.add {x y : EReal} (hx : IsR x) (hy : IsR y) : IsR (x + y) := by
  obtain ⟨a, rfl⟩ := hx; obtain ⟨b, rfl⟩ := hy; exact ⟨a + b, (EReal.coe_add a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.max {x y : EReal} (hx : IsR x) (hy : IsR y) : IsR (max x y) := by
  rcases le_total x y with h | h
  · rw [max_eq_right h]; exact hy
  · rw [max_eq_left h]; exact hx

theorem isR_sum {ι : Type} (s : Finset ι) (f : ι → EReal) (h : ∀ i ∈ s, IsR (f i)) : IsR (∑ i ∈ s, f i) := by
  classical
  induction s using Finset.induction_on with
  | empty => simpa using isR_zero
  | insert a s ha ih =>
    rw [Finset.sum_insert ha]
    exact (h a (Finset.mem_insert_self a s)).add (ih fun i hi => h i (Finset.mem_insert_of_mem hi))

theorem conv14At_isR {A X : Nodes14.Idx → EReal} {W : Wt14.Idx → EReal} {b : Row.Idx → EReal} {R : Wt14.Idx → EReal}
    (hA : AllR A) (hX : AllR X) (hW : AllR W) (hb : AllR b) (hR : AllR R) (p : Fin 100000) (q : Fin 256) :
    IsR (conv14At A X W b R p q) := by
  unfold conv14At
  refine IsR.max (IsR.add (IsR.add (isR_sum _ _ fun k _ => ?_) (hb (ix2 0 q))) (isR_sum _ _ fun k _ => ?_)) isR_zero
  · exact (hA (ix2 p k)).mul (hW (ix2 k q))
  · exact (hX (ix2 p k)).mul (hR (ix2 k q))

theorem conv14_allR {A X : Nodes14.Idx → EReal} {W : Wt14.Idx → EReal} {b : Row.Idx → EReal} {R : Wt14.Idx → EReal}
    (hA : AllR A) (hX : AllR X) (hW : AllR W) (hb : AllR b) (hR : AllR R) : AllR (conv14 A X W b R) :=
  fun i => conv14At_isR hA hX hW hb hR (i 0) (i 1)

theorem convAt_isR {A X : Nodes.Idx → EReal} {W : Wt.Idx → EReal} {b : Row.Idx → EReal} {R : Wt.Idx → EReal}
    (hA : AllR A) (hX : AllR X) (hW : AllR W) (hb : AllR b) (hR : AllR R) (p : Fin 100000) (q : Fin 256) :
    IsR (convAt A X W b R p q) := by
  unfold convAt
  refine IsR.max (IsR.add (IsR.add (isR_sum _ _ fun k _ => ?_) (hb (ix2 0 q))) (isR_sum _ _ fun k _ => ?_)) isR_zero
  · exact (hA (ix2 p k)).mul (hW (ix2 k q))
  · exact (hX (ix2 p k)).mul (hR (ix2 k q))

theorem conv_allR {A X : Nodes.Idx → EReal} {W : Wt.Idx → EReal} {b : Row.Idx → EReal} {R : Wt.Idx → EReal}
    (hA : AllR A) (hX : AllR X) (hW : AllR W) (hb : AllR b) (hR : AllR R) : AllR (conv A X W b R) :=
  fun i => convAt_isR hA hX hW hb hR (i 0) (i 1)

theorem poolAt_isR {B : Ids.Idx → BitVec 32} {H : Nodes.Idx → EReal} (hH : AllR H) (g : Fin 2048) (q : Fin 256) :
    IsR (poolAt B H g q) := by
  unfold poolAt
  refine isR_sum _ _ fun n _ => ?_
  by_cases h : B (ix2 n 0) = BitVec.ofNat 32 g.val
  · rw [if_pos h]; exact hH (ix2 n q)
  · rw [if_neg h]; exact isR_zero

theorem pool_allR {B : Ids.Idx → BitVec 32} {H : Nodes.Idx → EReal} (hH : AllR H) : AllR (pool B H) :=
  fun i => poolAt_isR hH (i 0) (i 1)

theorem hidAt_isR {G : Graphs.Idx → EReal} {W1 : Wt.Idx → EReal} {b1 : Row.Idx → EReal}
    (hG : AllR G) (hW1 : AllR W1) (hb1 : AllR b1) (g : Fin 2048) (q : Fin 256) : IsR (hidAt G W1 b1 g q) := by
  unfold hidAt
  refine IsR.max (IsR.add (isR_sum _ _ fun k _ => ?_) (hb1 (ix2 0 q))) isR_zero
  exact (hG (ix2 g k)).mul (hW1 (ix2 k q))

theorem logitAt_isR {G : Graphs.Idx → EReal} {W1 : Wt.Idx → EReal} {b1 : Row.Idx → EReal} {W2 : Wt2.Idx → EReal}
    {b2 : Row2.Idx → EReal} (hG : AllR G) (hW1 : AllR W1) (hb1 : AllR b1) (hW2 : AllR W2) (hb2 : AllR b2)
    (g : Fin 2048) (c : Fin 2) : IsR (logitAt G W1 b1 W2 b2 g c) := by
  unfold logitAt
  refine IsR.add (isR_sum _ _ fun k _ => ?_) (hb2 (ix2 0 c))
  exact (hidAt_isR hG hW1 hb1 g k).mul (hW2 (ix2 k c))

/-- A neighbour sum of real entries has real entries, whatever the edges are: each entry is the start value
    plus a finite sum of update entries. -/
theorem scatterAdd_allR {s si su : Shape} (d : ScatterDims s si su) {w : Nat} (x : s.Idx → EReal) (idx : IVec si w)
    (u : su.Idx → EReal) (hx : AllR x) (hu : AllR u) :
    AllR (Host.scatterAdd (F := Ideal) (φ := .f32) d x idx u) := fun i =>
  (hx i).add (isR_sum _ _ fun j _ => hu j)

/-- A gather of real entries has real entries: each entry is one of the operand's. -/
theorem gather_allR {s si t : Shape} {w : Nat} (d : GatherDims s si t) (x : s.Idx → EReal) (idx : IVec si w)
    (hx : AllR x) : AllR (Host.gather d x idx) := fun j => hx _

/-! ## The two bracketings of the log-softmax agree on real logits -/

theorem lsm_law (l : Fin 2 → EReal) (h : ∀ c, IsR (l c)) (c : Fin 2) : lsmSum l c = lsmShift l c := by
  obtain ⟨m, hm⟩ : IsR (rowMax l) := (h 0).max (h 1)
  unfold lsmSum lsmShift
  rw [hm, sub_eq_add_neg, sub_eq_add_neg, sub_eq_add_neg, EReal.neg_add (Or.inl (EReal.coe_ne_bot m)) (Or.inl (EReal.coe_ne_top m)),
    sub_eq_add_neg, add_assoc]

theorem head_law {G : Graphs.Idx → EReal} {W1 : Wt.Idx → EReal} {b1 : Row.Idx → EReal} {W2 : Wt2.Idx → EReal}
    {b2 : Row2.Idx → EReal} (hG : AllR G) (hW1 : AllR W1) (hb1 : AllR b1) (hW2 : AllR W2) (hb2 : AllR b2) :
    headSum G W1 b1 W2 b2 = headShift G W1 b1 W2 b2 :=
  funext fun i => lsm_law _ (fun c => logitAt_isR hG hW1 hb1 hW2 hb2 (i 0) c) (i 1)

end Cert.Spec

end
-- ==== Proof.HostTerms.lean ====
/-
  The host-side pieces of the network, as terms of the argument arrays, and the whole network assembled from them.

  The neighbour sum of node features X over the edge list E: source ids are wrapped (a negative id has the
  node count added), the source rows are gathered, and each is added into the row its edge's destination id
  names (an id outside the array adds nothing).  A bias vector is used as a one-row matrix, the graph ids as a
  one-column matrix.  The network is five GraphConv layers over these neighbour sums, the per-graph sum, and
  the two-layer head with its log-softmax, in either of its two bracketings.
-/
import proofs.«428615_j50182397886862_1_alg».proof.Proof.Gen.KernelIdeal
import proofs.«428615_j50182397886862_1_alg».proof.Proof.Spec

noncomputable section

open scoped BigOperators

namespace Cert.Net

open Idealize.ShloMosaic Idealize.ShloMosaic.ValueIdx
open Cert.KernelIdeal Cert.KernelIdeal.Facts₀ Cert.KernelIdeal.Facts Cert.Spec

/-- The edges' source ids, a negative one wrapped by the node count, as a column. -/
def srcCol (E : IVec S2x300000 32) : IVec S300000x1 32 :=
  let s : IVec S300000 32 := shapeCast S300000 (extractStridedSlice S1x300000 ![0, 0] E slices_S2x300000_S1x300000_0_0) shapeCasts_S1x300000_S300000
  broadcastInDim S300000x1 ![0] bcast_S300000_S300000x1_0
    (select (cmpi .slt s (broadcastInDim S300000 ![] bcast_S_S300000 (constantI S_ 32 0#32)))
      (addi s (broadcastInDim S300000 ![] bcast_S_S300000 (constantI S_ 32 100000#32))) s)

/-- The edges' destination ids as a column. -/
def dstCol (E : IVec S2x300000 32) : IVec S300000x1 32 :=
  broadcastInDim S300000x1 ![0] bcast_S300000_S300000x1_0
    (shapeCast S300000 (extractStridedSlice S1x300000 ![1, 0] E slices_S2x300000_S1x300000_1_0) shapeCasts_S1x300000_S300000)

/-- Neighbour sums of 14-wide node features. -/
def agg14 (X : FVec Ideal S100000x14 .f32) (E : IVec S2x300000 32) : FVec Ideal S100000x14 .f32 :=
  Host.scatterAdd scatter_S100000x14_S300000x1_S300000x14_1_0_0_1
    (broadcastInDim S100000x14 ![] bcast_S_S100000x14 (constant (F := Ideal) S_ .f32 0x00000000#32))
    (dstCol E) (Host.gather gather_S100000x14_S300000x1_S300000x14_1_0_n_n_0_1_114 X (srcCol E))

/-- Neighbour sums of 256-wide node features. -/
def agg (X : FVec Ideal S100000x256 .f32) (E : IVec S2x300000 32) : FVec Ideal S100000x256 .f32 :=
  Host.scatterAdd scatter_S100000x256_S300000x1_S300000x256_1_0_0_1
    (broadcastInDim S100000x256 ![] bcast_S_S100000x256 (constant (F := Ideal) S_ .f32 0x00000000#32))
    (dstCol E) (Host.gather gather_S100000x256_S300000x1_S300000x256_1_0_n_n_0_1_1256 X (srcCol E))

/-- A 256-vector as a one-row matrix. -/
def rowOf (b : FVec Ideal S256 .f32) : FVec Ideal S1x256 .f32 := shapeCast S1x256 b shapeCasts_S256_S1x256

/-- A 2-vector as a one-row matrix. -/
def row2Of (b : FVec Ideal S2 .f32) : FVec Ideal S1x2 .f32 := shapeCast S1x2 b shapeCasts_S2_S1x2

/-- The graph ids as a one-column matrix. -/
def idsOf (B : IVec S100000 32) : IVec S100000x1 32 := shapeCast S100000x1 B shapeCasts_S100000_S100000x1

/-- The first GraphConv layer (14 input features). -/
def layer1 (x : FVec Ideal S100000x14 .f32) (E : IVec S2x300000 32)
    (w : FVec Ideal S14x256 .f32) (b : FVec Ideal S256 .f32) (r : FVec Ideal S14x256 .f32) : FVec Ideal S100000x256 .f32 :=
  conv14 (agg14 x E) x w (rowOf b) r

/-- A later GraphConv layer (256 input features). -/
def layer (h : FVec Ideal S100000x256 .f32) (E : IVec S2x300000 32)
    (w : FVec Ideal S256x256 .f32) (b : FVec Ideal S256 .f32) (r : FVec Ideal S256x256 .f32) : FVec Ideal S100000x256 .f32 :=
  conv (agg h E) h w (rowOf b) r

/-- The node features after the five GraphConv layers. -/
def nodes5 (x : FVec Ideal S100000x14 .f32) (E : IVec S2x300000 32)
    (w1 : FVec Ideal S14x256 .f32) (b1 : FVec Ideal S256 .f32) (r1 : FVec Ideal S14x256 .f32)
    (w2 : FVec Ideal S256x256 .f32) (b2 : FVec Ideal S256 .f32) (r2 : FVec Ideal S256x256 .f32)
    (w3 : FVec Ideal S256x256 .f32) (b3 : FVec Ideal S256 .f32) (r3 : FVec Ideal S256x256 .f32)
    (w4 : FVec Ideal S256x256 .f32) (b4 : FVec Ideal S256 .f32) (r4 : FVec Ideal S256x256 .f32)
    (w5 : FVec Ideal S256x256 .f32) (b5 : FVec Ideal S256 .f32) (r5 : FVec Ideal S256x256 .f32) :
    FVec Ideal S100000x256 .f32 :=
  layer (layer (layer (layer (layer1 x E w1 b1 r1) E w2 b2 r2) E w3 b3 r3) E w4 b4 r4) E w5 b5 r5

/-- The per-graph sums of the last layer's node features. -/
def pooled (B : IVec S100000 32) (h : FVec Ideal S100000x256 .f32) : FVec Ideal S2048x256 .f32 := pool (idsOf B) h

/-- The network's result with the log-softmax bracketed as l − (m + log Σ). -/
def outSum (g : FVec Ideal S2048x256 .f32) (l1 : FVec Ideal S256x256 .f32) (c1 : FVec Ideal S256 .f32)
    (l2 : FVec Ideal S256x2 .f32) (c2 : FVec Ideal S2 .f32) : FVec Ideal S2048x2 .f32 :=
  headSum g l1 (rowOf c1) l2 (row2Of c2)

/-- The network's result with the log-softmax bracketed as (l − m) − log Σ. -/
def outShift (g : FVec Ideal S2048x256 .f32) (l1 : FVec Ideal S256x256 .f32) (c1 : FVec Ideal S256 .f32)
    (l2 : FVec Ideal S256x2 .f32) (c2 : FVec Ideal S2 .f32) : FVec Ideal S2048x2 .f32 :=
  headShift g l1 (rowOf c1) l2 (row2Of c2)

/-! ## Real entries in, real entries out -/

theorem rowOf_allR {b : FVec Ideal S256 .f32} (hb : AllR b) : AllR (rowOf b) := fun i => hb _
theorem row2Of_allR {b : FVec Ideal S2 .f32} (hb : AllR b) : AllR (row2Of b) := fun i => hb _

theorem zeros_allR (s : Shape) (h : S_.BroadcastsInDim s (![] : Fin 0 → Fin s.rank)) :
    AllR (broadcastInDim s ![] h (constant (F := Ideal) S_ .f32 0x00000000#32)) := fun i =>
  ⟨0, by show Ideal.ofBits .f32 0x00000000#32 = _; rw [Ideal.ofBits_zero_f32]; rfl⟩

theorem agg14_allR {X : FVec Ideal S100000x14 .f32} (E : IVec S2x300000 32) (hX : AllR X) : AllR (agg14 X E) :=
  scatterAdd_allR _ _ _ _ (zeros_allR _ _) (gather_allR _ _ _ hX)

theorem agg_allR {X : FVec Ideal S100000x256 .f32} (E : IVec S2x300000 32) (hX : AllR X) : AllR (agg X E) :=
  scatterAdd_allR _ _ _ _ (zeros_allR _ _) (gather_allR _ _ _ hX)

theorem layer1_allR {x : FVec Ideal S100000x14 .f32} (E : IVec S2x300000 32) {w : FVec Ideal S14x256 .f32}
    {b : FVec Ideal S256 .f32} {r : FVec Ideal S14x256 .f32} (hx : AllR x) (hw : AllR w) (hb : AllR b) (hr : AllR r) :
    AllR (layer1 x E w b r) :=
  conv14_allR (agg14_allR E hx) hx hw (rowOf_allR hb) hr

theorem layer_allR {h : FVec Ideal S100000x256 .f32} (E : IVec S2x300000 32) {w : FVec Ideal S256x256 .f32}
    {b : FVec Ideal S256 .f32} {r : FVec Ideal S256x256 .f32} (hh : AllR h) (hw : AllR w) (hb : AllR b) (hr : AllR r) :
    AllR (layer h E w b r) :=
  conv_allR (agg_allR E hh) hh hw (rowOf_allR hb) hr

/-- On real inputs the two bracketings of the log-softmax give one result. -/
theorem out_law {g : FVec Ideal S2048x256 .f32} {l1 : FVec Ideal S256x256 .f32} {c1 : FVec Ideal S256 .f32}
    {l2 : FVec Ideal S256x2 .f32} {c2 : FVec Ideal S2 .f32}
    (hg : AllR g) (hl1 : AllR l1) (hc1 : AllR c1) (hl2 : AllR l2) (hc2 : AllR c2) :
    outSum g l1 c1 l2 c2 = outShift g l1 c1 l2 c2 :=
  head_law hg hl1 (rowOf_allR hc1) hl2 (row2Of_allR hc2)

end Cert.Net

end
-- ==== Proof.KDense0.lean ====
/-
  GraphConv layer 1's dense step as the kernel computes it: the node axis is cut into fifty blocks of 2000 rows;
  at block t the body forms relu(A_t·W + b + X_t·R) from rows 2000t … 2000t+1999 of the neighbour sums A and
  of the features X and from the whole weights, and writes it to the same rows of the output.  Row p of the
  output therefore depends on row p of A and X only, and the fifty blocks tile the array.
-/
import proofs.«428615_j50182397886862_1_alg».proof.Proof.Gen.KernelIdeal.Frame
import proofs.«428615_j50182397886862_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Dense0

open Idealize.ShloMosaic Idealize.ShloMosaic.TcCoe Idealize.SL.Sem Idealize.ShloMosaic.ValueIdx
open Cert.KernelIdeal Cert.KernelIdeal.Gen

-- the TensorCore's buffer contents when the region is entered: any valuation
variable (V : (c : Dev nD) → (b : Ref sig .tc) → Buf (Elt Ideal) ((c : Thread nD τ).loc b))

/-! ## The body's arithmetic at one entry

The body forms two products of a [2000,14] block with a [14,256] matrix, each started from zero, adds the bias row
to the first and the second to that, and takes the maximum with zero.  On the extended reals the roundings to the
narrower format are the identity and a product started from zero is the plain sum over the 14 shared coordinates. -/

/-- In such a product the left factor is read at the entry's row … -/
theorem left_row (i : S2000x256.Idx) (q : dot_S2000x14_S14x256_S2000x256_1_0_0_1_n_n.contr.Idx) :
    (dot_S2000x14_S14x256_S2000x256_1_0_0_1_n_n.lhsIdx i q 0).val = (i 0).val := by
  unfold DotDims.lhsIdx
  rw [dif_neg (show ¬(0 : Fin S2000x14.rank) ∈ dot_S2000x14_S14x256_S2000x256_1_0_0_1_n_n.lhsBatch by decide), dif_pos (show (0 : Fin S2000x14.rank) ∈ dot_S2000x14_S14x256_S2000x256_1_0_0_1_n_n.lhsNonContracting by decide)]
  rfl
/-- … and at the summation coordinate's column; -/
theorem left_col (i : S2000x256.Idx) (q : dot_S2000x14_S14x256_S2000x256_1_0_0_1_n_n.contr.Idx) :
    (dot_S2000x14_S14x256_S2000x256_1_0_0_1_n_n.lhsIdx i q 1).val = (q ⟨0, by decide⟩).val :=
  dot_S2000x14_S14x256_S2000x256_1_0_0_1_n_n.lhsIdx_val_of_single rfl i q
/-- the right factor at the summation coordinate's row … -/
theorem right_row (i : S2000x256.Idx) (q : dot_S2000x14_S14x256_S2000x256_1_0_0_1_n_n.contr.Idx) :
    (dot_S2000x14_S14x256_S2000x256_1_0_0_1_n_n.rhsIdx i q 0).val = (q ⟨0, by decide⟩).val :=
  dot_S2000x14_S14x256_S2000x256_1_0_0_1_n_n.rhsIdx_val_of_single rfl i q
/-- … and at the entry's column. -/
theorem right_col (i : S2000x256.Idx) (q : dot_S2000x14_S14x256_S2000x256_1_0_0_1_n_n.contr.Idx) :
    (dot_S2000x14_S14x256_S2000x256_1_0_0_1_n_n.rhsIdx i q 1).val = (i 1).val := by
  unfold DotDims.rhsIdx
  rw [dif_neg (show ¬(1 : Fin S14x256.rank) ∈ dot_S2000x14_S14x256_S2000x256_1_0_0_1_n_n.rhsBatch by decide), dif_pos (show (1 : Fin S14x256.rank) ∈ dot_S2000x14_S14x256_S2000x256_1_0_0_1_n_n.rhsNonContracting by decide)]
  rfl

/-- Entry (p, q) of a block times a matrix, started from zero: the sum over k of block (p, k) · matrix (k, q). -/
theorem product_at {φ₁ φ₂ : FTy} (l : FVec Ideal S2000x14 φ₁) (r : FVec Ideal S14x256 φ₂) (p : Fin 2000) (q : Fin 256) :
    matmul dot_S2000x14_S14x256_S2000x256_1_0_0_1_n_n none l r (constant (F := Ideal) S2000x256 .f32 0x00000000#32) (ix2 p q)
      = ∑ k : Fin 14, l (ix2 p k) * r (ix2 k q) := by
  simp only [matmul]
  rw [Ideal.matmul_constant_zero_apply, ← Equiv.sum_comp (contrEquiv1 dot_S2000x14_S14x256_S2000x256_1_0_0_1_n_n 14 rfl rfl).symm]
  refine Finset.sum_congr rfl fun k _ => ?_
  have hk := contrEquiv1_symm_val dot_S2000x14_S14x256_S2000x256_1_0_0_1_n_n 14 rfl rfl k
  have el : dot_S2000x14_S14x256_S2000x256_1_0_0_1_n_n.lhsIdx (ix2 p q) ((contrEquiv1 dot_S2000x14_S14x256_S2000x256_1_0_0_1_n_n 14 rfl rfl).symm k) = ix2 p k := funext fun a => Fin.ext (by
    match a with
    | ⟨0, _⟩ => exact left_row _ _
    | ⟨1, _⟩ => exact (left_col _ _).trans hk)
  have er : dot_S2000x14_S14x256_S2000x256_1_0_0_1_n_n.rhsIdx (ix2 p q) ((contrEquiv1 dot_S2000x14_S14x256_S2000x256_1_0_0_1_n_n 14 rfl rfl).symm k) = ix2 k q := funext fun a => Fin.ext (by
    match a with
    | ⟨0, _⟩ => exact (right_row _ _).trans hk
    | ⟨1, _⟩ => exact right_col _ _)
  rw [el, er]

/-- Entry (p, q) of what the body stores, from the blocks it loads: relu of row p of the neighbour-sum block times
    W, plus the bias row, plus row p of the feature block times R. -/
theorem payload_at (a x : Vec Ideal S2000x14 .f32) (W R : Vec Ideal S14x256 .f32) (b : Vec Ideal S1x256 .f32)
    (p : Fin 2000) (q : Fin 256) :
    k0_pay1 (F := Ideal) a x W R b (ix2 p q)
      = max ((∑ k : Fin 14, a (ix2 p k) * W (ix2 k q)) + b (ix2 0 q) + ∑ k : Fin 14, x (ix2 p k) * R (ix2 k q)) 0 := by
  unfold k0_pay1
  simp only [maximumf_apply, addf_apply, broadcast_apply, product_at, truncf_apply, shapeCast_self, broadcastTo_1b_ab_apply]
  exact congrArg (max _) Ideal.ofBits_zero_f32

/-! ## From the blocks to the array

At point t the two row-blocked inputs and the output are all read and written at rows 2000t … 2000t + 1999, and the
weights and the bias row are read whole; so the entry the body stores at (p, q) of its block is the entry
(2000t + p, q) of relu(A·W + b + X·R) of the whole arrays, and the fifty blocks tile the output. -/

/-- The origin of a rank-2 buffer, as the body's whole-buffer loads and store spell it. -/
theorem origin : (![0, 0] : Fin 2 → Nat) = fun _ => 0 := funext fun a => by fin_cases a <;> rfl

/-- Where each window's block sits at point t, in blocks: the two row-blocked inputs move with the output down the
    rows, at block t; everything else stays at block 0. -/
theorem block_places : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The entry the body stores at (p, q) is entry (P, Q) of relu(A·W + b + X·R) as soon as its blocks hold row P of A
    and of X, column Q of W and of R, and entry Q of the bias row where the body reads them. -/
theorem entry_eq (A X : Cert.Spec.Nodes14.Idx → EReal) (W : Cert.Spec.Wt14.Idx → EReal) (b : Cert.Spec.Row.Idx → EReal)
    (R : Cert.Spec.Wt14.Idx → EReal)
    (a x : Vec Ideal S2000x14 .f32) (w r : Vec Ideal S14x256 .f32) (bb : Vec Ideal S1x256 .f32)
    (p : Fin 2000) (q : Fin 256) (P : Fin 100000) (Q : Fin 256)
    (ha : ∀ k : Fin 14, a (ix2 p k) = A (ix2 P k)) (hx : ∀ k : Fin 14, x (ix2 p k) = X (ix2 P k))
    (hw : ∀ k : Fin 14, w (ix2 k q) = W (ix2 k Q)) (hr : ∀ k : Fin 14, r (ix2 k q) = R (ix2 k Q))
    (hb : bb (ix2 0 q) = b (ix2 0 Q)) :
    k0_pay1 (F := Ideal) a x w r bb (ix2 p q) = Cert.Spec.conv14At A X W b R P Q := by
  rw [payload_at]
  unfold Cert.Spec.conv14At
  simp only [ha, hx, hw, hr, hb]

/-- Row p of the neighbour-sum block at point t is row P of the array, P the output block's row p. -/
theorem read_sums (c : Dev nD) (t : Fin cfg0.N) (p : Fin 2000) (k : Fin 14) (P : Fin 100000)
    (hP : P.val = win0_5.index t (0 : Fin 2) * 2000 + 1 * p.val) :
    iblk0 V c 0 t (ix2 p k) = V c main_v13 (ix2 P k) := by
  show V c main_v13 (((cfg0.win 0).blk t).view.emb (ix2 p k)) = V c main_v13 (ix2 P k)
  refine congrArg (V c main_v13) (funext fun a => Fin.ext ?_)
  obtain ⟨e0, e1, -⟩ := block_places t
  match a with
  | ⟨0, _⟩ => show win0_0.index t (0 : Fin 2) * 2000 + 1 * p.val = P.val; omega
  | ⟨1, _⟩ => show win0_0.index t (1 : Fin 2) * 14 + 1 * k.val = k.val; omega

/-- Row p of the feature block at point t is row P of the array. -/
theorem read_feats (c : Dev nD) (t : Fin cfg0.N) (p : Fin 2000) (k : Fin 14) (P : Fin 100000)
    (hP : P.val = win0_5.index t (0 : Fin 2) * 2000 + 1 * p.val) :
    iblk0 V c 1 t (ix2 p k) = V c main_arg0 (ix2 P k) := by
  show V c main_arg0 (((cfg0.win 1).blk t).view.emb (ix2 p k)) = V c main_arg0 (ix2 P k)
  refine congrArg (V c main_arg0) (funext fun a => Fin.ext ?_)
  obtain ⟨-, -, e2, e3, -⟩ := block_places t
  match a with
  | ⟨0, _⟩ => show win0_1.index t (0 : Fin 2) * 2000 + 1 * p.val = P.val; omega
  | ⟨1, _⟩ => show win0_1.index t (1 : Fin 2) * 14 + 1 * k.val = k.val; omega

/-- The block of W at any point is W. -/
theorem read_w (c : Dev nD) (t : Fin cfg0.N) (k : Fin 14) (q : Fin 256) :
    iblk0 V c 2 t (ix2 k q) = V c main_arg3 (ix2 k q) := by
  show V c main_arg3 (((cfg0.win 2).blk t).view.emb (ix2 k q)) = V c main_arg3 (ix2 k q)
  refine congrArg (V c main_arg3) (funext fun a => Fin.ext ?_)
  obtain ⟨-, -, -, -, e4, e5, -⟩ := block_places t
  match a with
  | ⟨0, _⟩ => show win0_2.index t (0 : Fin 2) * 14 + 1 * k.val = k.val; omega
  | ⟨1, _⟩ => show win0_2.index t (1 : Fin 2) * 256 + 1 * q.val = q.val; omega

/-- The block of the bias row at any point is the bias row. -/
theorem read_bias (c : Dev nD) (t : Fin cfg0.N) (q : Fin 256) :
    iblk0 V c 3 t (ix2 (0 : Fin 1) q) = V c main_v14 (ix2 (0 : Fin 1) q) := by
  show V c main_v14 (((cfg0.win 3).blk t).view.emb (ix2 (0 : Fin 1) q)) = V c main_v14 (ix2 (0 : Fin 1) q)
  refine congrArg (V c main_v14) (funext fun a => Fin.ext ?_)
  obtain ⟨-, -, -, -, -, -, e6, e7, -⟩ := block_places t
  match a with
  | ⟨0, _⟩ => show win0_3.index t (0 : Fin 2) * 1 + 1 * 0 = 0; omega
  | ⟨1, _⟩ => show win0_3.index t (1 : Fin 2) * 256 + 1 * q.val = q.val; omega

/-- The block of R at any point is R. -/
theorem read_r (c : Dev nD) (t : Fin cfg0.N) (k : Fin 14) (q : Fin 256) :
    iblk0 V c 4 t (ix2 k q) = V c main_arg5 (ix2 k q) := by
  show V c main_arg5 (((cfg0.win 4).blk t).view.emb (ix2 k q)) = V c main_arg5 (ix2 k q)
  refine congrArg (V c main_arg5) (funext fun a => Fin.ext ?_)
  obtain ⟨-, -, -, -, -, -, -, -, e8, e9, -⟩ := block_places t
  match a with
  | ⟨0, _⟩ => show win0_4.index t (0 : Fin 2) * 14 + 1 * k.val = k.val; omega
  | ⟨1, _⟩ => show win0_4.index t (1 : Fin 2) * 256 + 1 * q.val = q.val; omega

/-- What point t writes back is block t of relu(A·W + b + X·R) of the five arrays as the region finds them. -/
theorem flushed_eq (c : Dev nD) (t : Fin cfg0.N) :
    (dat0 V c).flushed 5 t = ((cfg0.win 5).blk t).view.read (Elt Ideal)
      (Cert.Spec.conv14 (V c main_v13) (V c main_arg0) (V c main_arg3) (V c main_v14) (V c main_arg5)) := by
  show (cfg0.win 5).cut (grid0.coords t) ((dat0 V c).after 5 t) = _
  rw [after0_5]
  unfold out0_5
  rw [View.canon_unit_zero origin]
  simp only [View.ld_unit_zero (S := S2000x14) origin, View.ld_unit_zero (S := S14x256) origin,
    View.ld_unit_zero (S := S1x256) origin]
  funext j
  obtain ⟨p, q, rfl⟩ : ∃ (p : Fin 2000) (q : Fin 256), j = ix2 p q := ⟨j 0, j 1, eq_ix2 j⟩
  show k0_pay1 (F := Ideal) (iblk0 V c 0 t) (iblk0 V c 1 t) (iblk0 V c 2 t) (iblk0 V c 4 t) (iblk0 V c 3 t) (ix2 p q)
    = Cert.Spec.conv14At (V c main_v13) (V c main_arg0) (V c main_arg3) (V c main_v14) (V c main_arg5)
        ((((cfg0.win 5).blk t).view.emb (ix2 p q)) 0) ((((cfg0.win 5).blk t).view.emb (ix2 p q)) 1)
  have hrow : ((((cfg0.win 5).blk t).view.emb (ix2 p q)) 0).val = win0_5.index t (0 : Fin 2) * 2000 + 1 * p.val := rfl
  have hcol : (((cfg0.win 5).blk t).view.emb (ix2 p q)) 1 = q := by
    obtain ⟨-, -, -, -, -, -, -, -, -, -, -, e11⟩ := block_places t
    apply Fin.ext
    show win0_5.index t (1 : Fin 2) * 256 + 1 * q.val = q.val
    omega
  rw [hcol]
  exact entry_eq (V c main_v13) (V c main_arg0) (V c main_arg3) (V c main_v14) (V c main_arg5)
    (iblk0 V c 0 t) (iblk0 V c 1 t) (iblk0 V c 2 t) (iblk0 V c 4 t) (iblk0 V c 3 t) p q
    ((((cfg0.win 5).blk t).view.emb (ix2 p q)) 0) q
    (fun k => read_sums V c t p k _ hrow) (fun k => read_feats V c t p k _ hrow)
    (fun k => read_w V c t k q) (fun k => read_r V c t k q) (read_bias V c t q)

/-- An entry of the output array is in point t's block iff each coordinate is in the block's range on its axis. -/
theorem mem_block (t : Fin cfg0.N) (i : S100000x256.Idx) :
    i ∈ ((cfg0.win 5).blk t).view.set ↔ ∀ a : Fin 2, win0_5.index t a * S2000x256.size a ≤ (i a).val
      ∧ (i a).val < win0_5.index t a * S2000x256.size a + S2000x256.size a := by
  show i ∈ ((View.whole main_v15).slice (win0_5.rect t)).set ↔ _
  rw [View.set_slice_whole, Rect.mem_set_unit]
  exact Iff.rfl

/-- Row r of the output lies in the block of point r / 2000: the fifty blocks tile the array. -/
theorem covered (i : S100000x256.Idx) :
    ∃ t : Fin cfg0.N, (cfg0.win 5).flush t = true ∧ i ∈ ((cfg0.win 5).blk t).view.set := by
  have hi0 : (i 0).val < 100000 := idx2_lt0 i
  have hi1 : (i 1).val < 256 := idx2_lt1 i
  have hN : grid0.N = 50 := N_0
  have ht : (i 0).val / 2000 < grid0.N := by rw [hN]; omega
  refine ⟨⟨(i 0).val / 2000, ht⟩, flush0_5 _, ?_⟩
  rw [mem_block]
  obtain ⟨-, -, -, -, -, -, -, -, -, -, e10, e11⟩ := block_places ⟨(i 0).val / 2000, ht⟩
  have e10' : win0_5.index ⟨(i 0).val / 2000, ht⟩ (0 : Fin 2) = (i 0).val / 2000 := e10
  intro a
  match a with
  | ⟨0, _⟩ =>
    show win0_5.index ⟨(i 0).val / 2000, ht⟩ (0 : Fin 2) * 2000 ≤ (i 0).val
      ∧ (i 0).val < win0_5.index ⟨(i 0).val / 2000, ht⟩ (0 : Fin 2) * 2000 + 2000
    omega
  | ⟨1, _⟩ =>
    show win0_5.index ⟨(i 0).val / 2000, ht⟩ (1 : Fin 2) * 256 ≤ (i 1).val
      ∧ (i 1).val < win0_5.index ⟨(i 0).val / 2000, ht⟩ (1 : Fin 2) * 256 + 256
    omega

/-- After the region's fifty write-backs its output array is relu(A·W + b + X·R) of the five arrays its
    windows read, as the region finds them. -/
theorem arr (c : Dev nD) :
    (dat0 V c).arrAt 5 cfg0.N
      = Cert.Spec.conv14 (V c main_v13) (V c main_arg0) (V c main_arg3) (V c main_v14) (V c main_arg5) :=
  (dat0 V c).arrAt_eq_of_cover 5
    (Cert.Spec.conv14 (V c main_v13) (V c main_arg0) (V c main_arg3) (V c main_v14) (V c main_arg5))
    (fun t _ => flushed_eq V c t) covered

end Cert.KernelIdeal.Dense0

end
-- ==== Proof.KDense1.lean ====
/-
  GraphConv layer 2's dense step as the kernel computes it: the node axis is cut into fifty blocks of 2000 rows;
  at block t the body forms relu(A_t·W + b + X_t·R) from rows 2000t … 2000t+1999 of the neighbour sums A and
  of the features X and from the whole weights, and writes it to the same rows of the output.  Row p of the
  output therefore depends on row p of A and X only, and the fifty blocks tile the array.
-/
import proofs.«428615_j50182397886862_1_alg».proof.Proof.Gen.KernelIdeal.Frame
import proofs.«428615_j50182397886862_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Dense1

open Idealize.ShloMosaic Idealize.ShloMosaic.TcCoe Idealize.SL.Sem Idealize.ShloMosaic.ValueIdx
open Cert.KernelIdeal Cert.KernelIdeal.Gen

-- the TensorCore's buffer contents when the region is entered: any valuation
variable (V : (c : Dev nD) → (b : Ref sig .tc) → Buf (Elt Ideal) ((c : Thread nD τ).loc b))

/-! ## The product of a block of rows with a whole weight matrix, entry by entry -/

/-- In the product's left factor the row is the output entry's row … -/
theorem lhs_rows (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
/-- … and the column is the summation coordinate. -/
theorem lhs_contr (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
/-- In the right factor the row is the summation coordinate … -/
theorem rhs_contr (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
/-- … and the column is the output entry's column. -/
theorem rhs_cols (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- Entry (p, q) of a [2000,256] block times a [256,256] matrix, accumulated from zero: the sum over the 256
    shared coordinates of the products. -/
theorem rows_mul_apply {φ₁ φ₂ : FTy} (L : FVec Ideal S2000x256 φ₁) (R : FVec Ideal S256x256 φ₂) (p : Fin 2000) (q : Fin 256) :
    matmul dot_S2000x256_S256x256_S2000x256_1_0_0_1_n_n none L R (constant (F := Ideal) S2000x256 .f32 0x00000000#32) (ix2 p q)
      = ∑ k : Fin 256, L (ix2 p k) * R (ix2 k q) := by
  simp only [matmul]
  rw [Ideal.matmul_constant_zero_apply, ← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx (ix2 p q) ((ValueIdx.contrEquiv1 dot_S2000x256_S256x256_S2000x256_1_0_0_1_n_n 256 rfl rfl).symm k) = ix2 p k := funext fun a => Fin.ext (by
    match a with
    | ⟨0, _⟩ => exact lhs_rows _ _
    | ⟨1, _⟩ => exact (lhs_contr _ _).trans hk)
  have er : dot_S2000x256_S256x256_S2000x256_1_0_0_1_n_n.rhsIdx (ix2 p q) ((ValueIdx.contrEquiv1 dot_S2000x256_S256x256_S2000x256_1_0_0_1_n_n 256 rfl rfl).symm k) = ix2 k q := funext fun a => Fin.ext (by
    match a with
    | ⟨0, _⟩ => exact (rhs_contr _ _).trans hk
    | ⟨1, _⟩ => exact rhs_cols _ _)
  rw [el, er]

/-! ## The body's arithmetic at an entry of the block -/

/-- Entry (p, q) of what the body stores, from the five blocks it loads: the changes of float format are the
    identity on extended reals, each matrix product from a zero accumulator is the plain sum, the bias row is
    repeated down the block, and the final maximum is taken against the constant zero. -/
theorem pay_apply (a x : Vec Ideal S2000x256 .f32) (w r : Vec Ideal S256x256 .f32) (b : Vec Ideal S1x256 .f32) (p : Fin 2000) (q : Fin 256) :
    k1_pay1 (F := Ideal) a x w r b (ix2 p q)
      = max ((∑ k : Fin 256, a (ix2 p k) * w (ix2 k q)) + b (ix2 (0 : Fin 1) q) + ∑ k : Fin 256, x (ix2 p k) * r (ix2 k q)) 0 := by
  unfold k1_pay1
  simp only [shapeCast_self]
  rw [maximumf_apply, addf_apply, addf_apply, broadcast_apply, rows_mul_apply, rows_mul_apply, broadcastTo_1b_ab_apply]
  simp only [truncf_apply]
  show max _ (Ideal.ofBits .f32 0x00000000#32) = _
  rw [Ideal.ofBits_zero_f32]

/-! ## Where each window's block sits in its array -/

/-- The body loads and stores its blocks whole: from offset zero on both axes. -/
theorem zero_offsets : (![0, 0] : Fin 2 → Nat) = fun _ => 0 := funext fun a => by fin_cases a <;> rfl

/-- The printed index maps over the fifty points: the two row-blocked inputs and the output are at row block t,
    column block 0; the weights and the bias row are at block (0, 0) throughout. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of block t is row 2000·t + p of the node axis. -/
def rowOf (t : Fin cfg1.N) (p : Fin 2000) : Fin 100000 :=
  ⟨2000 * t.val + p.val, by have h : t.val < 50 := lt_of_lt_of_eq t.isLt N_1; have := p.isLt; omega⟩

theorem rowOf_val (t : Fin cfg1.N) (p : Fin 2000) : (rowOf t p).val = 2000 * t.val + p.val := rfl

/-- Block t of the neighbour sums is their rows 2000·t … 2000·t + 1999. -/
theorem blockA_apply (c : Dev nD) (t : Fin cfg1.N) (p : Fin 2000) (k : Fin 256) :
    (iblk1 V c 0 t : Vec Ideal S2000x256 .f32) (ix2 p k) = (V c main_v29 : S100000x256.Idx → EReal) (ix2 (rowOf t p) k) := by
  obtain ⟨e0, e1, -⟩ := index_facts t
  unfold iblk1
  show V c main_v29 _ = V c main_v29 _
  congr 1
  funext a; apply Fin.ext
  match a with
  | ⟨0, _⟩ => show win1_0.index t (0 : Fin 2) * 2000 + 1 * p.val = 2000 * t.val + p.val; rw [e0]; omega
  | ⟨1, _⟩ => show win1_0.index t (1 : Fin 2) * 256 + 1 * k.val = k.val; rw [e1]; omega

/-- Block t of the features is their rows 2000·t … 2000·t + 1999. -/
theorem blockX_apply (c : Dev nD) (t : Fin cfg1.N) (p : Fin 2000) (k : Fin 256) :
    (iblk1 V c 1 t : Vec Ideal S2000x256 .f32) (ix2 p k) = (V c main_v15 : S100000x256.Idx → EReal) (ix2 (rowOf t p) k) := by
  obtain ⟨-, -, e0, e1, -⟩ := index_facts t
  unfold iblk1
  show V c main_v15 _ = V c main_v15 _
  congr 1
  funext a; apply Fin.ext
  match a with
  | ⟨0, _⟩ => show win1_1.index t (0 : Fin 2) * 2000 + 1 * p.val = 2000 * t.val + p.val; rw [e0]; omega
  | ⟨1, _⟩ => show win1_1.index t (1 : Fin 2) * 256 + 1 * k.val = k.val; rw [e1]; omega

/-- The first weight matrix is staged whole at every point. -/
theorem blockW_apply (c : Dev nD) (t : Fin cfg1.N) (k q : Fin 256) :
    (iblk1 V c 2 t : Vec Ideal S256x256 .f32) (ix2 k q) = (V c main_arg6 : S256x256.Idx → EReal) (ix2 k q) := by
  obtain ⟨-, -, -, -, e0, e1, -⟩ := index_facts t
  unfold iblk1
  show V c main_arg6 _ = V c main_arg6 _
  congr 1
  funext a; apply Fin.ext
  match a with
  | ⟨0, _⟩ => show win1_2.index t (0 : Fin 2) * 256 + 1 * k.val = k.val; rw [e0]; omega
  | ⟨1, _⟩ => show win1_2.index t (1 : Fin 2) * 256 + 1 * q.val = q.val; rw [e1]; omega

/-- The bias row is staged whole at every point. -/
theorem blockB_apply (c : Dev nD) (t : Fin cfg1.N) (q : Fin 256) :
    (iblk1 V c 3 t : Vec Ideal S1x256 .f32) (ix2 (0 : Fin 1) q) = (V c main_v30 : S1x256.Idx → EReal) (ix2 (0 : Fin 1) q) := by
  obtain ⟨-, -, -, -, -, -, e0, e1, -⟩ := index_facts t
  unfold iblk1
  show V c main_v30 _ = V c main_v30 _
  congr 1
  funext a; apply Fin.ext
  match a with
  | ⟨0, _⟩ => show win1_3.index t (0 : Fin 2) * 1 + 1 * 0 = 0; rw [e0]
  | ⟨1, _⟩ => show win1_3.index t (1 : Fin 2) * 256 + 1 * q.val = q.val; rw [e1]; omega

/-- The second weight matrix is staged whole at every point. -/
theorem blockR_apply (c : Dev nD) (t : Fin cfg1.N) (k q : Fin 256) :
    (iblk1 V c 4 t : Vec Ideal S256x256 .f32) (ix2 k q) = (V c main_arg8 : S256x256.Idx → EReal) (ix2 k q) := by
  obtain ⟨-, -, -, -, -, -, -, -, e0, e1, -⟩ := index_facts t
  unfold iblk1
  show V c main_arg8 _ = V c main_arg8 _
  congr 1
  funext a; apply Fin.ext
  match a with
  | ⟨0, _⟩ => show win1_4.index t (0 : Fin 2) * 256 + 1 * k.val = k.val; rw [e0]; omega
  | ⟨1, _⟩ => show win1_4.index t (1 : Fin 2) * 256 + 1 * q.val = q.val; rw [e1]; omega

/-- Entry (p, q) of the output's block t is entry (2000·t + p, q) of the output array. -/
theorem out_emb (t : Fin cfg1.N) (p : Fin 2000) (q : Fin 256) :
    ((cfg1.win 5).blk t).view.emb (ix2 p q) = (ix2 (rowOf t p) q : S100000x256.Idx) := by
  obtain ⟨-, -, -, -, -, -, -, -, -, -, e0, e1⟩ := index_facts t
  funext a; apply Fin.ext
  match a with
  | ⟨0, _⟩ => show win1_5.index t (0 : Fin 2) * 2000 + 1 * p.val = 2000 * t.val + p.val; rw [e0]; omega
  | ⟨1, _⟩ => show win1_5.index t (1 : Fin 2) * 256 + 1 * q.val = q.val; rw [e1]; omega

/-! ## What a point writes back, and the whole array -/

/-- Point t writes back block t of relu(A·W + b + X·R): the body's arithmetic on rows 2000·t … of A and X
    and the whole weights is the specification's entry at those rows. -/
theorem flushed_eq (c : Dev nD) (t : Fin cfg1.N) :
    (dat1 V c).flushed 5 t = ((cfg1.win 5).blk t).view.read (Elt Ideal)
      (Cert.Spec.conv (V c main_v29) (V c main_v15) (V c main_arg6) (V c main_v30) (V c main_arg8)) := by
  show (cfg1.win 5).cut (grid1.coords t) ((dat1 V c).after 5 t) = _
  rw [after1_5]
  unfold out1_5
  rw [View.canon_unit_zero zero_offsets]
  simp only [View.ld_unit_zero (S := S2000x256) zero_offsets, View.ld_unit_zero (S := S256x256) zero_offsets, View.ld_unit_zero (S := S1x256) zero_offsets]
  funext j
  obtain ⟨p, q, rfl⟩ : ∃ (p : Fin 2000) (q : Fin 256), j = ix2 p q := ⟨j 0, j 1, eq_ix2 j⟩
  show k1_pay1 (F := Ideal) (iblk1 V c 0 t) (iblk1 V c 1 t) (iblk1 V c 2 t) (iblk1 V c 4 t) (iblk1 V c 3 t) (ix2 p q)
    = Cert.Spec.conv (V c main_v29) (V c main_v15) (V c main_arg6) (V c main_v30) (V c main_arg8) (((cfg1.win 5).blk t).view.emb (ix2 p q))
  refine (pay_apply (iblk1 V c 0 t) (iblk1 V c 1 t) (iblk1 V c 2 t) (iblk1 V c 4 t) (iblk1 V c 3 t) p q).trans ?_
  rw [out_emb t p q]
  show _ = Cert.Spec.convAt (V c main_v29) (V c main_v15) (V c main_arg6) (V c main_v30) (V c main_arg8) (rowOf t p) q
  unfold Cert.Spec.convAt
  refine congrArg₂ max (congrArg₂ (· + ·) (congrArg₂ (· + ·) (Finset.sum_congr rfl fun k _ => ?_) ?_) (Finset.sum_congr rfl fun k _ => ?_)) rfl
  · exact congrArg₂ (· * ·) (blockA_apply V c t p k) (blockW_apply V c t k q)
  · exact blockB_apply V c t q
  · exact congrArg₂ (· * ·) (blockX_apply V c t p k) (blockR_apply V c t k q)

/-- An index of the output array is in point t's block iff each coordinate is in the block's range on its axis. -/
theorem mem_block (t : Fin cfg1.N) (i : S100000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v31).slice (win1_5.rect t)).set ↔ _
  rw [View.set_slice_whole, Rect.mem_set_unit]
  exact Iff.rfl

/-- The fifty blocks tile the node axis: row r is in the block of point r / 2000, and every point writes back. -/
theorem cover (i : S100000x256.Idx) :
    ∃ t : Fin cfg1.N, (cfg1.win 5).flush t = true ∧ i ∈ ((cfg1.win 5).blk t).view.set := by
  have hi0 : (i 0).val < 100000 := (i 0).isLt
  have hi1 : (i 1).val < 256 := (i 1).isLt
  have hlt : (i 0).val / 2000 < cfg1.N := by rw [show cfg1.N = 50 from N_1]; omega
  obtain ⟨-, -, -, -, -, -, -, -, -, -, e0, e1⟩ := index_facts ⟨(i 0).val / 2000, hlt⟩
  have e0' : win1_5.index ⟨(i 0).val / 2000, hlt⟩ (0 : Fin 2) = (i 0).val / 2000 := e0
  refine ⟨⟨(i 0).val / 2000, hlt⟩, flush1_5 _, ?_⟩
  rw [mem_block]
  intro a
  match a with
  | ⟨0, _⟩ =>
    show win1_5.index ⟨(i 0).val / 2000, hlt⟩ (0 : Fin 2) * 2000 ≤ (i 0).val ∧ (i 0).val < win1_5.index ⟨(i 0).val / 2000, hlt⟩ (0 : Fin 2) * 2000 + 2000
    rw [e0']; omega
  | ⟨1, _⟩ =>
    show win1_5.index ⟨(i 0).val / 2000, hlt⟩ (1 : Fin 2) * 256 ≤ (i 1).val ∧ (i 1).val < win1_5.index ⟨(i 0).val / 2000, hlt⟩ (1 : Fin 2) * 256 + 256
    rw [e1]; omega

/-- After the region's fifty write-backs its output array is relu(A·W + b + X·R) of the five arrays its
    windows read, as the region finds them. -/
theorem arr (c : Dev nD) :
    (dat1 V c).arrAt 5 cfg1.N
      = Cert.Spec.conv (V c main_v29) (V c main_v15) (V c main_arg6) (V c main_v30) (V c main_arg8) :=
  (dat1 V c).arrAt_eq_of_cover 5
    (Cert.Spec.conv (V c main_v29) (V c main_v15) (V c main_arg6) (V c main_v30) (V c main_arg8))
    (fun t _ => flushed_eq V c t) cover

end Cert.KernelIdeal.Dense1

end
-- ==== Proof.KDense2.lean ====
/-
  GraphConv layer 3's dense step as the kernel computes it: the node axis is cut into fifty blocks of 2000 rows;
  at block t the body forms relu(A_t·W + b + X_t·R) from rows 2000t … 2000t+1999 of the neighbour sums A and
  of the features X and from the whole weights, and writes it to the same rows of the output.  Row p of the
  output therefore depends on row p of A and X only, and the fifty blocks tile the array.
-/
import proofs.«428615_j50182397886862_1_alg».proof.Proof.Gen.KernelIdeal.Frame
import proofs.«428615_j50182397886862_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Dense2

open Idealize.ShloMosaic Idealize.ShloMosaic.TcCoe Idealize.SL.Sem Idealize.ShloMosaic.ValueIdx
open Cert.KernelIdeal Cert.KernelIdeal.Gen

-- the TensorCore's buffer contents when the region is entered: any valuation
variable (V : (c : Dev nD) → (b : Ref sig .tc) → Buf (Elt Ideal) ((c : Thread nD τ).loc b))

/-! ## The product of a block of rows with a whole weight matrix, entry by entry -/

/-- In the product's left factor the row is the output entry's row … -/
theorem lhs_rows (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
/-- … and the column is the summation coordinate. -/
theorem lhs_contr (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
/-- In the right factor the row is the summation coordinate … -/
theorem rhs_contr (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
/-- … and the column is the output entry's column. -/
theorem rhs_cols (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- Entry (p, q) of a [2000,256] block times a [256,256] matrix, accumulated from zero: the sum over the 256
    shared coordinates of the products. -/
theorem rows_mul_apply {φ₁ φ₂ : FTy} (L : FVec Ideal S2000x256 φ₁) (R : FVec Ideal S256x256 φ₂) (p : Fin 2000) (q : Fin 256) :
    matmul dot_S2000x256_S256x256_S2000x256_1_0_0_1_n_n none L R (constant (F := Ideal) S2000x256 .f32 0x00000000#32) (ix2 p q)
      = ∑ k : Fin 256, L (ix2 p k) * R (ix2 k q) := by
  simp only [matmul]
  rw [Ideal.matmul_constant_zero_apply, ← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx (ix2 p q) ((ValueIdx.contrEquiv1 dot_S2000x256_S256x256_S2000x256_1_0_0_1_n_n 256 rfl rfl).symm k) = ix2 p k := funext fun a => Fin.ext (by
    match a with
    | ⟨0, _⟩ => exact lhs_rows _ _
    | ⟨1, _⟩ => exact (lhs_contr _ _).trans hk)
  have er : dot_S2000x256_S256x256_S2000x256_1_0_0_1_n_n.rhsIdx (ix2 p q) ((ValueIdx.contrEquiv1 dot_S2000x256_S256x256_S2000x256_1_0_0_1_n_n 256 rfl rfl).symm k) = ix2 k q := funext fun a => Fin.ext (by
    match a with
    | ⟨0, _⟩ => exact (rhs_contr _ _).trans hk
    | ⟨1, _⟩ => exact rhs_cols _ _)
  rw [el, er]

/-! ## The body's arithmetic at an entry of the block -/

/-- Entry (p, q) of what the body stores, from the five blocks it loads: the changes of float format are the
    identity on extended reals, each matrix product from a zero accumulator is the plain sum, the bias row is
    repeated down the block, and the final maximum is taken against the constant zero. -/
theorem pay_apply (a x : Vec Ideal S2000x256 .f32) (w r : Vec Ideal S256x256 .f32) (b : Vec Ideal S1x256 .f32) (p : Fin 2000) (q : Fin 256) :
    k2_pay1 (F := Ideal) a x w r b (ix2 p q)
      = max ((∑ k : Fin 256, a (ix2 p k) * w (ix2 k q)) + b (ix2 (0 : Fin 1) q) + ∑ k : Fin 256, x (ix2 p k) * r (ix2 k q)) 0 := by
  unfold k2_pay1
  simp only [shapeCast_self]
  rw [maximumf_apply, addf_apply, addf_apply, broadcast_apply, rows_mul_apply, rows_mul_apply, broadcastTo_1b_ab_apply]
  simp only [truncf_apply]
  show max _ (Ideal.ofBits .f32 0x00000000#32) = _
  rw [Ideal.ofBits_zero_f32]

/-! ## Where each window's block sits in its array -/

/-- The body loads and stores its blocks whole: from offset zero on both axes. -/
theorem zero_offsets : (![0, 0] : Fin 2 → Nat) = fun _ => 0 := funext fun a => by fin_cases a <;> rfl

/-- The printed index maps over the fifty points: the two row-blocked inputs and the output are at row block t,
    column block 0; the weights and the bias row are at block (0, 0) throughout. -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row p of block t is row 2000·t + p of the node axis. -/
def rowOf (t : Fin cfg2.N) (p : Fin 2000) : Fin 100000 :=
  ⟨2000 * t.val + p.val, by have h : t.val < 50 := lt_of_lt_of_eq t.isLt N_2; have := p.isLt; omega⟩

theorem rowOf_val (t : Fin cfg2.N) (p : Fin 2000) : (rowOf t p).val = 2000 * t.val + p.val := rfl

/-- Block t of the neighbour sums is their rows 2000·t … 2000·t + 1999. -/
theorem blockA_apply (c : Dev nD) (t : Fin cfg2.N) (p : Fin 2000) (k : Fin 256) :
    (iblk2 V c 0 t : Vec Ideal S2000x256 .f32) (ix2 p k) = (V c main_v45 : S100000x256.Idx → EReal) (ix2 (rowOf t p) k) := by
  obtain ⟨e0, e1, -⟩ := index_facts t
  unfold iblk2
  show V c main_v45 _ = V c main_v45 _
  congr 1
  funext a; apply Fin.ext
  match a with
  | ⟨0, _⟩ => show win2_0.index t (0 : Fin 2) * 2000 + 1 * p.val = 2000 * t.val + p.val; rw [e0]; omega
  | ⟨1, _⟩ => show win2_0.index t (1 : Fin 2) * 256 + 1 * k.val = k.val; rw [e1]; omega

/-- Block t of the features is their rows 2000·t … 2000·t + 1999. -/
theorem blockX_apply (c : Dev nD) (t : Fin cfg2.N) (p : Fin 2000) (k : Fin 256) :
    (iblk2 V c 1 t : Vec Ideal S2000x256 .f32) (ix2 p k) = (V c main_v31 : S100000x256.Idx → EReal) (ix2 (rowOf t p) k) := by
  obtain ⟨-, -, e0, e1, -⟩ := index_facts t
  unfold iblk2
  show V c main_v31 _ = V c main_v31 _
  congr 1
  funext a; apply Fin.ext
  match a with
  | ⟨0, _⟩ => show win2_1.index t (0 : Fin 2) * 2000 + 1 * p.val = 2000 * t.val + p.val; rw [e0]; omega
  | ⟨1, _⟩ => show win2_1.index t (1 : Fin 2) * 256 + 1 * k.val = k.val; rw [e1]; omega

/-- The first weight matrix is staged whole at every point. -/
theorem blockW_apply (c : Dev nD) (t : Fin cfg2.N) (k q : Fin 256) :
    (iblk2 V c 2 t : Vec Ideal S256x256 .f32) (ix2 k q) = (V c main_arg9 : S256x256.Idx → EReal) (ix2 k q) := by
  obtain ⟨-, -, -, -, e0, e1, -⟩ := index_facts t
  unfold iblk2
  show V c main_arg9 _ = V c main_arg9 _
  congr 1
  funext a; apply Fin.ext
  match a with
  | ⟨0, _⟩ => show win2_2.index t (0 : Fin 2) * 256 + 1 * k.val = k.val; rw [e0]; omega
  | ⟨1, _⟩ => show win2_2.index t (1 : Fin 2) * 256 + 1 * q.val = q.val; rw [e1]; omega

/-- The bias row is staged whole at every point. -/
theorem blockB_apply (c : Dev nD) (t : Fin cfg2.N) (q : Fin 256) :
    (iblk2 V c 3 t : Vec Ideal S1x256 .f32) (ix2 (0 : Fin 1) q) = (V c main_v46 : S1x256.Idx → EReal) (ix2 (0 : Fin 1) q) := by
  obtain ⟨-, -, -, -, -, -, e0, e1, -⟩ := index_facts t
  unfold iblk2
  show V c main_v46 _ = V c main_v46 _
  congr 1
  funext a; apply Fin.ext
  match a with
  | ⟨0, _⟩ => show win2_3.index t (0 : Fin 2) * 1 + 1 * 0 = 0; rw [e0]
  | ⟨1, _⟩ => show win2_3.index t (1 : Fin 2) * 256 + 1 * q.val = q.val; rw [e1]; omega

/-- The second weight matrix is staged whole at every point. -/
theorem blockR_apply (c : Dev nD) (t : Fin cfg2.N) (k q : Fin 256) :
    (iblk2 V c 4 t : Vec Ideal S256x256 .f32) (ix2 k q) = (V c main_arg11 : S256x256.Idx → EReal) (ix2 k q) := by
  obtain ⟨-, -, -, -, -, -, -, -, e0, e1, -⟩ := index_facts t
  unfold iblk2
  show V c main_arg11 _ = V c main_arg11 _
  congr 1
  funext a; apply Fin.ext
  match a with
  | ⟨0, _⟩ => show win2_4.index t (0 : Fin 2) * 256 + 1 * k.val = k.val; rw [e0]; omega
  | ⟨1, _⟩ => show win2_4.index t (1 : Fin 2) * 256 + 1 * q.val = q.val; rw [e1]; omega

/-- Entry (p, q) of the output's block t is entry (2000·t + p, q) of the output array. -/
theorem out_emb (t : Fin cfg2.N) (p : Fin 2000) (q : Fin 256) :
    ((cfg2.win 5).blk t).view.emb (ix2 p q) = (ix2 (rowOf t p) q : S100000x256.Idx) := by
  obtain ⟨-, -, -, -, -, -, -, -, -, -, e0, e1⟩ := index_facts t
  funext a; apply Fin.ext
  match a with
  | ⟨0, _⟩ => show win2_5.index t (0 : Fin 2) * 2000 + 1 * p.val = 2000 * t.val + p.val; rw [e0]; omega
  | ⟨1, _⟩ => show win2_5.index t (1 : Fin 2) * 256 + 1 * q.val = q.val; rw [e1]; omega

/-! ## What a point writes back, and the whole array -/

/-- Point t writes back block t of relu(A·W + b + X·R): the body's arithmetic on rows 2000·t … of A and X
    and the whole weights is the specification's entry at those rows. -/
theorem flushed_eq (c : Dev nD) (t : Fin cfg2.N) :
    (dat2 V c).flushed 5 t = ((cfg2.win 5).blk t).view.read (Elt Ideal)
      (Cert.Spec.conv (V c main_v45) (V c main_v31) (V c main_arg9) (V c main_v46) (V c main_arg11)) := by
  show (cfg2.win 5).cut (grid2.coords t) ((dat2 V c).after 5 t) = _
  rw [after2_5]
  unfold out2_5
  rw [View.canon_unit_zero zero_offsets]
  simp only [View.ld_unit_zero (S := S2000x256) zero_offsets, View.ld_unit_zero (S := S256x256) zero_offsets, View.ld_unit_zero (S := S1x256) zero_offsets]
  funext j
  obtain ⟨p, q, rfl⟩ : ∃ (p : Fin 2000) (q : Fin 256), j = ix2 p q := ⟨j 0, j 1, eq_ix2 j⟩
  show k2_pay1 (F := Ideal) (iblk2 V c 0 t) (iblk2 V c 1 t) (iblk2 V c 2 t) (iblk2 V c 4 t) (iblk2 V c 3 t) (ix2 p q)
    = Cert.Spec.conv (V c main_v45) (V c main_v31) (V c main_arg9) (V c main_v46) (V c main_arg11) (((cfg2.win 5).blk t).view.emb (ix2 p q))
  refine (pay_apply (iblk2 V c 0 t) (iblk2 V c 1 t) (iblk2 V c 2 t) (iblk2 V c 4 t) (iblk2 V c 3 t) p q).trans ?_
  rw [out_emb t p q]
  show _ = Cert.Spec.convAt (V c main_v45) (V c main_v31) (V c main_arg9) (V c main_v46) (V c main_arg11) (rowOf t p) q
  unfold Cert.Spec.convAt
  refine congrArg₂ max (congrArg₂ (· + ·) (congrArg₂ (· + ·) (Finset.sum_congr rfl fun k _ => ?_) ?_) (Finset.sum_congr rfl fun k _ => ?_)) rfl
  · exact congrArg₂ (· * ·) (blockA_apply V c t p k) (blockW_apply V c t k q)
  · exact blockB_apply V c t q
  · exact congrArg₂ (· * ·) (blockX_apply V c t p k) (blockR_apply V c t k q)

/-- An index of the output array is in point t's block iff each coordinate is in the block's range on its axis. -/
theorem mem_block (t : Fin cfg2.N) (i : S100000x256.Idx) :
    i ∈ ((cfg2.win 5).blk t).view.set ↔ ∀ a : Fin 2, win2_5.index t a * S2000x256.size a ≤ (i a).val ∧ (i a).val < win2_5.index t a * S2000x256.size a + S2000x256.size a := by
  show i ∈ ((View.whole main_v47).slice (win2_5.rect t)).set ↔ _
  rw [View.set_slice_whole, Rect.mem_set_unit]
  exact Iff.rfl

/-- The fifty blocks tile the node axis: row r is in the block of point r / 2000, and every point writes back. -/
theorem cover (i : S100000x256.Idx) :
    ∃ t : Fin cfg2.N, (cfg2.win 5).flush t = true ∧ i ∈ ((cfg2.win 5).blk t).view.set := by
  have hi0 : (i 0).val < 100000 := (i 0).isLt
  have hi1 : (i 1).val < 256 := (i 1).isLt
  have hlt : (i 0).val / 2000 < cfg2.N := by rw [show cfg2.N = 50 from N_2]; omega
  obtain ⟨-, -, -, -, -, -, -, -, -, -, e0, e1⟩ := index_facts ⟨(i 0).val / 2000, hlt⟩
  have e0' : win2_5.index ⟨(i 0).val / 2000, hlt⟩ (0 : Fin 2) = (i 0).val / 2000 := e0
  refine ⟨⟨(i 0).val / 2000, hlt⟩, flush2_5 _, ?_⟩
  rw [mem_block]
  intro a
  match a with
  | ⟨0, _⟩ =>
    show win2_5.index ⟨(i 0).val / 2000, hlt⟩ (0 : Fin 2) * 2000 ≤ (i 0).val ∧ (i 0).val < win2_5.index ⟨(i 0).val / 2000, hlt⟩ (0 : Fin 2) * 2000 + 2000
    rw [e0']; omega
  | ⟨1, _⟩ =>
    show win2_5.index ⟨(i 0).val / 2000, hlt⟩ (1 : Fin 2) * 256 ≤ (i 1).val ∧ (i 1).val < win2_5.index ⟨(i 0).val / 2000, hlt⟩ (1 : Fin 2) * 256 + 256
    rw [e1]; omega

/-- After the region's fifty write-backs its output array is relu(A·W + b + X·R) of the five arrays its
    windows read, as the region finds them. -/
theorem arr (c : Dev nD) :
    (dat2 V c).arrAt 5 cfg2.N
      = Cert.Spec.conv (V c main_v45) (V c main_v31) (V c main_arg9) (V c main_v46) (V c main_arg11) :=
  (dat2 V c).arrAt_eq_of_cover 5
    (Cert.Spec.conv (V c main_v45) (V c main_v31) (V c main_arg9) (V c main_v46) (V c main_arg11))
    (fun t _ => flushed_eq V c t) cover

end Cert.KernelIdeal.Dense2

end
-- ==== Proof.KDense3.lean ====
/-
  GraphConv layer 4's dense step as the kernel computes it: the node axis is cut into fifty blocks of 2000 rows;
  at block t the body forms relu(A_t·W + b + X_t·R) from rows 2000t … 2000t+1999 of the neighbour sums A and
  of the features X and from the whole weights, and writes it to the same rows of the output.  Row p of the
  output therefore depends on row p of A and X only, and the fifty blocks tile the array.
-/
import proofs.«428615_j50182397886862_1_alg».proof.Proof.Gen.KernelIdeal.Frame
import proofs.«428615_j50182397886862_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Dense3

open Idealize.ShloMosaic Idealize.ShloMosaic.TcCoe Idealize.SL.Sem Idealize.ShloMosaic.ValueIdx
open Cert.KernelIdeal Cert.KernelIdeal.Gen

-- the TensorCore's buffer contents when the region is entered: any valuation
variable (V : (c : Dev nD) → (b : Ref sig .tc) → Buf (Elt Ideal) ((c : Thread nD τ).loc b))

/-! ## The product of a block of rows with a whole weight matrix, entry by entry -/

/-- In the product's left factor the row is the output entry's row … -/
theorem lhs_rows (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
/-- … and the column is the summation coordinate. -/
theorem lhs_contr (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
/-- In the right factor the row is the summation coordinate … -/
theorem rhs_contr (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
/-- … and the column is the output entry's column. -/
theorem rhs_cols (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- Entry (p, q) of a [2000,256] block times a [256,256] matrix, accumulated from zero: the sum over the 256
    shared coordinates of the products. -/
theorem rows_mul_apply {φ₁ φ₂ : FTy} (L : FVec Ideal S2000x256 φ₁) (R : FVec Ideal S256x256 φ₂) (p : Fin 2000) (q : Fin 256) :
    matmul dot_S2000x256_S256x256_S2000x256_1_0_0_1_n_n none L R (constant (F := Ideal) S2000x256 .f32 0x00000000#32) (ix2 p q)
      = ∑ k : Fin 256, L (ix2 p k) * R (ix2 k q) := by
  simp only [matmul]
  rw [Ideal.matmul_constant_zero_apply, ← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx (ix2 p q) ((ValueIdx.contrEquiv1 dot_S2000x256_S256x256_S2000x256_1_0_0_1_n_n 256 rfl rfl).symm k) = ix2 p k := funext fun a => Fin.ext (by
    match a with
    | ⟨0, _⟩ => exact lhs_rows _ _
    | ⟨1, _⟩ => exact (lhs_contr _ _).trans hk)
  have er : dot_S2000x256_S256x256_S2000x256_1_0_0_1_n_n.rhsIdx (ix2 p q) ((ValueIdx.contrEquiv1 dot_S2000x256_S256x256_S2000x256_1_0_0_1_n_n 256 rfl rfl).symm k) = ix2 k q := funext fun a => Fin.ext (by
    match a with
    | ⟨0, _⟩ => exact (rhs_contr _ _).trans hk
    | ⟨1, _⟩ => exact rhs_cols _ _)
  rw [el, er]

/-! ## The body's arithmetic at an entry of the block -/

/-- Entry (p, q) of what the body stores, from the five blocks it loads: the changes of float format are the
    identity on extended reals, each matrix product from a zero accumulator is the plain sum, the bias row is
    repeated down the block, and the final maximum is taken against the constant zero. -/
theorem pay_apply (a x : Vec Ideal S2000x256 .f32) (w r : Vec Ideal S256x256 .f32) (b : Vec Ideal S1x256 .f32) (p : Fin 2000) (q : Fin 256) :
    k3_pay1 (F := Ideal) a x w r b (ix2 p q)
      = max ((∑ k : Fin 256, a (ix2 p k) * w (ix2 k q)) + b (ix2 (0 : Fin 1) q) + ∑ k : Fin 256, x (ix2 p k) * r (ix2 k q)) 0 := by
  unfold k3_pay1
  simp only [shapeCast_self]
  rw [maximumf_apply, addf_apply, addf_apply, broadcast_apply, rows_mul_apply, rows_mul_apply, broadcastTo_1b_ab_apply]
  simp only [truncf_apply]
  show max _ (Ideal.ofBits .f32 0x00000000#32) = _
  rw [Ideal.ofBits_zero_f32]

/-! ## Where each window's block sits in its array -/

/-- The body loads and stores its blocks whole: from offset zero on both axes. -/
theorem zero_offsets : (![0, 0] : Fin 2 → Nat) = fun _ => 0 := funext fun a => by fin_cases a <;> rfl

/-- The printed index maps over the fifty points: the two row-blocked inputs and the output are at row block t,
    column block 0; the weights and the bias row are at block (0, 0) throughout. -/
theorem index_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row p of block t is row 2000·t + p of the node axis. -/
def rowOf (t : Fin cfg3.N) (p : Fin 2000) : Fin 100000 :=
  ⟨2000 * t.val + p.val, by have h : t.val < 50 := lt_of_lt_of_eq t.isLt N_3; have := p.isLt; omega⟩

theorem rowOf_val (t : Fin cfg3.N) (p : Fin 2000) : (rowOf t p).val = 2000 * t.val + p.val := rfl

/-- Block t of the neighbour sums is their rows 2000·t … 2000·t + 1999. -/
theorem blockA_apply (c : Dev nD) (t : Fin cfg3.N) (p : Fin 2000) (k : Fin 256) :
    (iblk3 V c 0 t : Vec Ideal S2000x256 .f32) (ix2 p k) = (V c main_v61 : S100000x256.Idx → EReal) (ix2 (rowOf t p) k) := by
  obtain ⟨e0, e1, -⟩ := index_facts t
  unfold iblk3
  show V c main_v61 _ = V c main_v61 _
  congr 1
  funext a; apply Fin.ext
  match a with
  | ⟨0, _⟩ => show win3_0.index t (0 : Fin 2) * 2000 + 1 * p.val = 2000 * t.val + p.val; rw [e0]; omega
  | ⟨1, _⟩ => show win3_0.index t (1 : Fin 2) * 256 + 1 * k.val = k.val; rw [e1]; omega

/-- Block t of the features is their rows 2000·t … 2000·t + 1999. -/
theorem blockX_apply (c : Dev nD) (t : Fin cfg3.N) (p : Fin 2000) (k : Fin 256) :
    (iblk3 V c 1 t : Vec Ideal S2000x256 .f32) (ix2 p k) = (V c main_v47 : S100000x256.Idx → EReal) (ix2 (rowOf t p) k) := by
  obtain ⟨-, -, e0, e1, -⟩ := index_facts t
  unfold iblk3
  show V c main_v47 _ = V c main_v47 _
  congr 1
  funext a; apply Fin.ext
  match a with
  | ⟨0, _⟩ => show win3_1.index t (0 : Fin 2) * 2000 + 1 * p.val = 2000 * t.val + p.val; rw [e0]; omega
  | ⟨1, _⟩ => show win3_1.index t (1 : Fin 2) * 256 + 1 * k.val = k.val; rw [e1]; omega

/-- The first weight matrix is staged whole at every point. -/
theorem blockW_apply (c : Dev nD) (t : Fin cfg3.N) (k q : Fin 256) :
    (iblk3 V c 2 t : Vec Ideal S256x256 .f32) (ix2 k q) = (V c main_arg12 : S256x256.Idx → EReal) (ix2 k q) := by
  obtain ⟨-, -, -, -, e0, e1, -⟩ := index_facts t
  unfold iblk3
  show V c main_arg12 _ = V c main_arg12 _
  congr 1
  funext a; apply Fin.ext
  match a with
  | ⟨0, _⟩ => show win3_2.index t (0 : Fin 2) * 256 + 1 * k.val = k.val; rw [e0]; omega
  | ⟨1, _⟩ => show win3_2.index t (1 : Fin 2) * 256 + 1 * q.val = q.val; rw [e1]; omega

/-- The bias row is staged whole at every point. -/
theorem blockB_apply (c : Dev nD) (t : Fin cfg3.N) (q : Fin 256) :
    (iblk3 V c 3 t : Vec Ideal S1x256 .f32) (ix2 (0 : Fin 1) q) = (V c main_v62 : S1x256.Idx → EReal) (ix2 (0 : Fin 1) q) := by
  obtain ⟨-, -, -, -, -, -, e0, e1, -⟩ := index_facts t
  unfold iblk3
  show V c main_v62 _ = V c main_v62 _
  congr 1
  funext a; apply Fin.ext
  match a with
  | ⟨0, _⟩ => show win3_3.index t (0 : Fin 2) * 1 + 1 * 0 = 0; rw [e0]
  | ⟨1, _⟩ => show win3_3.index t (1 : Fin 2) * 256 + 1 * q.val = q.val; rw [e1]; omega

/-- The second weight matrix is staged whole at every point. -/
theorem blockR_apply (c : Dev nD) (t : Fin cfg3.N) (k q : Fin 256) :
    (iblk3 V c 4 t : Vec Ideal S256x256 .f32) (ix2 k q) = (V c main_arg14 : S256x256.Idx → EReal) (ix2 k q) := by
  obtain ⟨-, -, -, -, -, -, -, -, e0, e1, -⟩ := index_facts t
  unfold iblk3
  show V c main_arg14 _ = V c main_arg14 _
  congr 1
  funext a; apply Fin.ext
  match a with
  | ⟨0, _⟩ => show win3_4.index t (0 : Fin 2) * 256 + 1 * k.val = k.val; rw [e0]; omega
  | ⟨1, _⟩ => show win3_4.index t (1 : Fin 2) * 256 + 1 * q.val = q.val; rw [e1]; omega

/-- Entry (p, q) of the output's block t is entry (2000·t + p, q) of the output array. -/
theorem out_emb (t : Fin cfg3.N) (p : Fin 2000) (q : Fin 256) :
    ((cfg3.win 5).blk t).view.emb (ix2 p q) = (ix2 (rowOf t p) q : S100000x256.Idx) := by
  obtain ⟨-, -, -, -, -, -, -, -, -, -, e0, e1⟩ := index_facts t
  funext a; apply Fin.ext
  match a with
  | ⟨0, _⟩ => show win3_5.index t (0 : Fin 2) * 2000 + 1 * p.val = 2000 * t.val + p.val; rw [e0]; omega
  | ⟨1, _⟩ => show win3_5.index t (1 : Fin 2) * 256 + 1 * q.val = q.val; rw [e1]; omega

/-! ## What a point writes back, and the whole array -/

/-- Point t writes back block t of relu(A·W + b + X·R): the body's arithmetic on rows 2000·t … of A and X
    and the whole weights is the specification's entry at those rows. -/
theorem flushed_eq (c : Dev nD) (t : Fin cfg3.N) :
    (dat3 V c).flushed 5 t = ((cfg3.win 5).blk t).view.read (Elt Ideal)
      (Cert.Spec.conv (V c main_v61) (V c main_v47) (V c main_arg12) (V c main_v62) (V c main_arg14)) := by
  show (cfg3.win 5).cut (grid3.coords t) ((dat3 V c).after 5 t) = _
  rw [after3_5]
  unfold out3_5
  rw [View.canon_unit_zero zero_offsets]
  simp only [View.ld_unit_zero (S := S2000x256) zero_offsets, View.ld_unit_zero (S := S256x256) zero_offsets, View.ld_unit_zero (S := S1x256) zero_offsets]
  funext j
  obtain ⟨p, q, rfl⟩ : ∃ (p : Fin 2000) (q : Fin 256), j = ix2 p q := ⟨j 0, j 1, eq_ix2 j⟩
  show k3_pay1 (F := Ideal) (iblk3 V c 0 t) (iblk3 V c 1 t) (iblk3 V c 2 t) (iblk3 V c 4 t) (iblk3 V c 3 t) (ix2 p q)
    = Cert.Spec.conv (V c main_v61) (V c main_v47) (V c main_arg12) (V c main_v62) (V c main_arg14) (((cfg3.win 5).blk t).view.emb (ix2 p q))
  refine (pay_apply (iblk3 V c 0 t) (iblk3 V c 1 t) (iblk3 V c 2 t) (iblk3 V c 4 t) (iblk3 V c 3 t) p q).trans ?_
  rw [out_emb t p q]
  show _ = Cert.Spec.convAt (V c main_v61) (V c main_v47) (V c main_arg12) (V c main_v62) (V c main_arg14) (rowOf t p) q
  unfold Cert.Spec.convAt
  refine congrArg₂ max (congrArg₂ (· + ·) (congrArg₂ (· + ·) (Finset.sum_congr rfl fun k _ => ?_) ?_) (Finset.sum_congr rfl fun k _ => ?_)) rfl
  · exact congrArg₂ (· * ·) (blockA_apply V c t p k) (blockW_apply V c t k q)
  · exact blockB_apply V c t q
  · exact congrArg₂ (· * ·) (blockX_apply V c t p k) (blockR_apply V c t k q)

/-- An index of the output array is in point t's block iff each coordinate is in the block's range on its axis. -/
theorem mem_block (t : Fin cfg3.N) (i : S100000x256.Idx) :
    i ∈ ((cfg3.win 5).blk t).view.set ↔ ∀ a : Fin 2, win3_5.index t a * S2000x256.size a ≤ (i a).val ∧ (i a).val < win3_5.index t a * S2000x256.size a + S2000x256.size a := by
  show i ∈ ((View.whole main_v63).slice (win3_5.rect t)).set ↔ _
  rw [View.set_slice_whole, Rect.mem_set_unit]
  exact Iff.rfl

/-- The fifty blocks tile the node axis: row r is in the block of point r / 2000, and every point writes back. -/
theorem cover (i : S100000x256.Idx) :
    ∃ t : Fin cfg3.N, (cfg3.win 5).flush t = true ∧ i ∈ ((cfg3.win 5).blk t).view.set := by
  have hi0 : (i 0).val < 100000 := (i 0).isLt
  have hi1 : (i 1).val < 256 := (i 1).isLt
  have hlt : (i 0).val / 2000 < cfg3.N := by rw [show cfg3.N = 50 from N_3]; omega
  obtain ⟨-, -, -, -, -, -, -, -, -, -, e0, e1⟩ := index_facts ⟨(i 0).val / 2000, hlt⟩
  have e0' : win3_5.index ⟨(i 0).val / 2000, hlt⟩ (0 : Fin 2) = (i 0).val / 2000 := e0
  refine ⟨⟨(i 0).val / 2000, hlt⟩, flush3_5 _, ?_⟩
  rw [mem_block]
  intro a
  match a with
  | ⟨0, _⟩ =>
    show win3_5.index ⟨(i 0).val / 2000, hlt⟩ (0 : Fin 2) * 2000 ≤ (i 0).val ∧ (i 0).val < win3_5.index ⟨(i 0).val / 2000, hlt⟩ (0 : Fin 2) * 2000 + 2000
    rw [e0']; omega
  | ⟨1, _⟩ =>
    show win3_5.index ⟨(i 0).val / 2000, hlt⟩ (1 : Fin 2) * 256 ≤ (i 1).val ∧ (i 1).val < win3_5.index ⟨(i 0).val / 2000, hlt⟩ (1 : Fin 2) * 256 + 256
    rw [e1]; omega

/-- After the region's fifty write-backs its output array is relu(A·W + b + X·R) of the five arrays its
    windows read, as the region finds them. -/
theorem arr (c : Dev nD) :
    (dat3 V c).arrAt 5 cfg3.N
      = Cert.Spec.conv (V c main_v61) (V c main_v47) (V c main_arg12) (V c main_v62) (V c main_arg14) :=
  (dat3 V c).arrAt_eq_of_cover 5
    (Cert.Spec.conv (V c main_v61) (V c main_v47) (V c main_arg12) (V c main_v62) (V c main_arg14))
    (fun t _ => flushed_eq V c t) cover

end Cert.KernelIdeal.Dense3

end
-- ==== Proof.KDense4.lean ====
/-
  GraphConv layer 5's dense step as the kernel computes it: the node axis is cut into fifty blocks of 2000 rows;
  at block t the body forms relu(A_t·W + b + X_t·R) from rows 2000t … 2000t+1999 of the neighbour sums A and
  of the features X and from the whole weights, and writes it to the same rows of the output.  Row p of the
  output therefore depends on row p of A and X only, and the fifty blocks tile the array.
-/
import proofs.«428615_j50182397886862_1_alg».proof.Proof.Gen.KernelIdeal.Frame
import proofs.«428615_j50182397886862_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Dense4

open Idealize.ShloMosaic Idealize.ShloMosaic.TcCoe Idealize.SL.Sem Idealize.ShloMosaic.ValueIdx
open Cert.KernelIdeal Cert.KernelIdeal.Gen

-- the TensorCore's buffer contents when the region is entered: any valuation
variable (V : (c : Dev nD) → (b : Ref sig .tc) → Buf (Elt Ideal) ((c : Thread nD τ).loc b))

/-! ## The product of a block of rows with a whole weight matrix, entry by entry -/

/-- In the product's left factor the row is the output entry's row … -/
theorem lhs_rows (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
/-- … and the column is the summation coordinate. -/
theorem lhs_contr (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
/-- In the right factor the row is the summation coordinate … -/
theorem rhs_contr (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
/-- … and the column is the output entry's column. -/
theorem rhs_cols (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- Entry (p, q) of a [2000,256] block times a [256,256] matrix, accumulated from zero: the sum over the 256
    shared coordinates of the products. -/
theorem rows_mul_apply {φ₁ φ₂ : FTy} (L : FVec Ideal S2000x256 φ₁) (R : FVec Ideal S256x256 φ₂) (p : Fin 2000) (q : Fin 256) :
    matmul dot_S2000x256_S256x256_S2000x256_1_0_0_1_n_n none L R (constant (F := Ideal) S2000x256 .f32 0x00000000#32) (ix2 p q)
      = ∑ k : Fin 256, L (ix2 p k) * R (ix2 k q) := by
  simp only [matmul]
  rw [Ideal.matmul_constant_zero_apply, ← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx (ix2 p q) ((ValueIdx.contrEquiv1 dot_S2000x256_S256x256_S2000x256_1_0_0_1_n_n 256 rfl rfl).symm k) = ix2 p k := funext fun a => Fin.ext (by
    match a with
    | ⟨0, _⟩ => exact lhs_rows _ _
    | ⟨1, _⟩ => exact (lhs_contr _ _).trans hk)
  have er : dot_S2000x256_S256x256_S2000x256_1_0_0_1_n_n.rhsIdx (ix2 p q) ((ValueIdx.contrEquiv1 dot_S2000x256_S256x256_S2000x256_1_0_0_1_n_n 256 rfl rfl).symm k) = ix2 k q := funext fun a => Fin.ext (by
    match a with
    | ⟨0, _⟩ => exact (rhs_contr _ _).trans hk
    | ⟨1, _⟩ => exact rhs_cols _ _)
  rw [el, er]

/-! ## The body's arithmetic at an entry of the block -/

/-- Entry (p, q) of what the body stores, from the five blocks it loads: the changes of float format are the
    identity on extended reals, each matrix product from a zero accumulator is the plain sum, the bias row is
    repeated down the block, and the final maximum is taken against the constant zero. -/
theorem pay_apply (a x : Vec Ideal S2000x256 .f32) (w r : Vec Ideal S256x256 .f32) (b : Vec Ideal S1x256 .f32) (p : Fin 2000) (q : Fin 256) :
    k4_pay1 (F := Ideal) a x w r b (ix2 p q)
      = max ((∑ k : Fin 256, a (ix2 p k) * w (ix2 k q)) + b (ix2 (0 : Fin 1) q) + ∑ k : Fin 256, x (ix2 p k) * r (ix2 k q)) 0 := by
  unfold k4_pay1
  simp only [shapeCast_self]
  rw [maximumf_apply, addf_apply, addf_apply, broadcast_apply, rows_mul_apply, rows_mul_apply, broadcastTo_1b_ab_apply]
  simp only [truncf_apply]
  show max _ (Ideal.ofBits .f32 0x00000000#32) = _
  rw [Ideal.ofBits_zero_f32]

/-! ## Where each window's block sits in its array -/

/-- The body loads and stores its blocks whole: from offset zero on both axes. -/
theorem zero_offsets : (![0, 0] : Fin 2 → Nat) = fun _ => 0 := funext fun a => by fin_cases a <;> rfl

/-- The printed index maps over the fifty points: the two row-blocked inputs and the output are at row block t,
    column block 0; the weights and the bias row are at block (0, 0) throughout. -/
theorem index_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- Row p of block t is row 2000·t + p of the node axis. -/
def rowOf (t : Fin cfg4.N) (p : Fin 2000) : Fin 100000 :=
  ⟨2000 * t.val + p.val, by have h : t.val < 50 := lt_of_lt_of_eq t.isLt N_4; have := p.isLt; omega⟩

theorem rowOf_val (t : Fin cfg4.N) (p : Fin 2000) : (rowOf t p).val = 2000 * t.val + p.val := rfl

/-- Block t of the neighbour sums is their rows 2000·t … 2000·t + 1999. -/
theorem blockA_apply (c : Dev nD) (t : Fin cfg4.N) (p : Fin 2000) (k : Fin 256) :
    (iblk4 V c 0 t : Vec Ideal S2000x256 .f32) (ix2 p k) = (V c main_v77 : S100000x256.Idx → EReal) (ix2 (rowOf t p) k) := by
  obtain ⟨e0, e1, -⟩ := index_facts t
  unfold iblk4
  show V c main_v77 _ = V c main_v77 _
  congr 1
  funext a; apply Fin.ext
  match a with
  | ⟨0, _⟩ => show win4_0.index t (0 : Fin 2) * 2000 + 1 * p.val = 2000 * t.val + p.val; rw [e0]; omega
  | ⟨1, _⟩ => show win4_0.index t (1 : Fin 2) * 256 + 1 * k.val = k.val; rw [e1]; omega

/-- Block t of the features is their rows 2000·t … 2000·t + 1999. -/
theorem blockX_apply (c : Dev nD) (t : Fin cfg4.N) (p : Fin 2000) (k : Fin 256) :
    (iblk4 V c 1 t : Vec Ideal S2000x256 .f32) (ix2 p k) = (V c main_v63 : S100000x256.Idx → EReal) (ix2 (rowOf t p) k) := by
  obtain ⟨-, -, e0, e1, -⟩ := index_facts t
  unfold iblk4
  show V c main_v63 _ = V c main_v63 _
  congr 1
  funext a; apply Fin.ext
  match a with
  | ⟨0, _⟩ => show win4_1.index t (0 : Fin 2) * 2000 + 1 * p.val = 2000 * t.val + p.val; rw [e0]; omega
  | ⟨1, _⟩ => show win4_1.index t (1 : Fin 2) * 256 + 1 * k.val = k.val; rw [e1]; omega

/-- The first weight matrix is staged whole at every point. -/
theorem blockW_apply (c : Dev nD) (t : Fin cfg4.N) (k q : Fin 256) :
    (iblk4 V c 2 t : Vec Ideal S256x256 .f32) (ix2 k q) = (V c main_arg15 : S256x256.Idx → EReal) (ix2 k q) := by
  obtain ⟨-, -, -, -, e0, e1, -⟩ := index_facts t
  unfold iblk4
  show V c main_arg15 _ = V c main_arg15 _
  congr 1
  funext a; apply Fin.ext
  match a with
  | ⟨0, _⟩ => show win4_2.index t (0 : Fin 2) * 256 + 1 * k.val = k.val; rw [e0]; omega
  | ⟨1, _⟩ => show win4_2.index t (1 : Fin 2) * 256 + 1 * q.val = q.val; rw [e1]; omega

/-- The bias row is staged whole at every point. -/
theorem blockB_apply (c : Dev nD) (t : Fin cfg4.N) (q : Fin 256) :
    (iblk4 V c 3 t : Vec Ideal S1x256 .f32) (ix2 (0 : Fin 1) q) = (V c main_v78 : S1x256.Idx → EReal) (ix2 (0 : Fin 1) q) := by
  obtain ⟨-, -, -, -, -, -, e0, e1, -⟩ := index_facts t
  unfold iblk4
  show V c main_v78 _ = V c main_v78 _
  congr 1
  funext a; apply Fin.ext
  match a with
  | ⟨0, _⟩ => show win4_3.index t (0 : Fin 2) * 1 + 1 * 0 = 0; rw [e0]
  | ⟨1, _⟩ => show win4_3.index t (1 : Fin 2) * 256 + 1 * q.val = q.val; rw [e1]; omega

/-- The second weight matrix is staged whole at every point. -/
theorem blockR_apply (c : Dev nD) (t : Fin cfg4.N) (k q : Fin 256) :
    (iblk4 V c 4 t : Vec Ideal S256x256 .f32) (ix2 k q) = (V c main_arg17 : S256x256.Idx → EReal) (ix2 k q) := by
  obtain ⟨-, -, -, -, -, -, -, -, e0, e1, -⟩ := index_facts t
  unfold iblk4
  show V c main_arg17 _ = V c main_arg17 _
  congr 1
  funext a; apply Fin.ext
  match a with
  | ⟨0, _⟩ => show win4_4.index t (0 : Fin 2) * 256 + 1 * k.val = k.val; rw [e0]; omega
  | ⟨1, _⟩ => show win4_4.index t (1 : Fin 2) * 256 + 1 * q.val = q.val; rw [e1]; omega

/-- Entry (p, q) of the output's block t is entry (2000·t + p, q) of the output array. -/
theorem out_emb (t : Fin cfg4.N) (p : Fin 2000) (q : Fin 256) :
    ((cfg4.win 5).blk t).view.emb (ix2 p q) = (ix2 (rowOf t p) q : S100000x256.Idx) := by
  obtain ⟨-, -, -, -, -, -, -, -, -, -, e0, e1⟩ := index_facts t
  funext a; apply Fin.ext
  match a with
  | ⟨0, _⟩ => show win4_5.index t (0 : Fin 2) * 2000 + 1 * p.val = 2000 * t.val + p.val; rw [e0]; omega
  | ⟨1, _⟩ => show win4_5.index t (1 : Fin 2) * 256 + 1 * q.val = q.val; rw [e1]; omega

/-! ## What a point writes back, and the whole array -/

/-- Point t writes back block t of relu(A·W + b + X·R): the body's arithmetic on rows 2000·t … of A and X
    and the whole weights is the specification's entry at those rows. -/
theorem flushed_eq (c : Dev nD) (t : Fin cfg4.N) :
    (dat4 V c).flushed 5 t = ((cfg4.win 5).blk t).view.read (Elt Ideal)
      (Cert.Spec.conv (V c main_v77) (V c main_v63) (V c main_arg15) (V c main_v78) (V c main_arg17)) := by
  show (cfg4.win 5).cut (grid4.coords t) ((dat4 V c).after 5 t) = _
  rw [after4_5]
  unfold out4_5
  rw [View.canon_unit_zero zero_offsets]
  simp only [View.ld_unit_zero (S := S2000x256) zero_offsets, View.ld_unit_zero (S := S256x256) zero_offsets, View.ld_unit_zero (S := S1x256) zero_offsets]
  funext j
  obtain ⟨p, q, rfl⟩ : ∃ (p : Fin 2000) (q : Fin 256), j = ix2 p q := ⟨j 0, j 1, eq_ix2 j⟩
  show k4_pay1 (F := Ideal) (iblk4 V c 0 t) (iblk4 V c 1 t) (iblk4 V c 2 t) (iblk4 V c 4 t) (iblk4 V c 3 t) (ix2 p q)
    = Cert.Spec.conv (V c main_v77) (V c main_v63) (V c main_arg15) (V c main_v78) (V c main_arg17) (((cfg4.win 5).blk t).view.emb (ix2 p q))
  refine (pay_apply (iblk4 V c 0 t) (iblk4 V c 1 t) (iblk4 V c 2 t) (iblk4 V c 4 t) (iblk4 V c 3 t) p q).trans ?_
  rw [out_emb t p q]
  show _ = Cert.Spec.convAt (V c main_v77) (V c main_v63) (V c main_arg15) (V c main_v78) (V c main_arg17) (rowOf t p) q
  unfold Cert.Spec.convAt
  refine congrArg₂ max (congrArg₂ (· + ·) (congrArg₂ (· + ·) (Finset.sum_congr rfl fun k _ => ?_) ?_) (Finset.sum_congr rfl fun k _ => ?_)) rfl
  · exact congrArg₂ (· * ·) (blockA_apply V c t p k) (blockW_apply V c t k q)
  · exact blockB_apply V c t q
  · exact congrArg₂ (· * ·) (blockX_apply V c t p k) (blockR_apply V c t k q)

/-- An index of the output array is in point t's block iff each coordinate is in the block's range on its axis. -/
theorem mem_block (t : Fin cfg4.N) (i : S100000x256.Idx) :
    i ∈ ((cfg4.win 5).blk t).view.set ↔ ∀ a : Fin 2, win4_5.index t a * S2000x256.size a ≤ (i a).val ∧ (i a).val < win4_5.index t a * S2000x256.size a + S2000x256.size a := by
  show i ∈ ((View.whole main_v79).slice (win4_5.rect t)).set ↔ _
  rw [View.set_slice_whole, Rect.mem_set_unit]
  exact Iff.rfl

/-- The fifty blocks tile the node axis: row r is in the block of point r / 2000, and every point writes back. -/
theorem cover (i : S100000x256.Idx) :
    ∃ t : Fin cfg4.N, (cfg4.win 5).flush t = true ∧ i ∈ ((cfg4.win 5).blk t).view.set := by
  have hi0 : (i 0).val < 100000 := (i 0).isLt
  have hi1 : (i 1).val < 256 := (i 1).isLt
  have hlt : (i 0).val / 2000 < cfg4.N := by rw [show cfg4.N = 50 from N_4]; omega
  obtain ⟨-, -, -, -, -, -, -, -, -, -, e0, e1⟩ := index_facts ⟨(i 0).val / 2000, hlt⟩
  have e0' : win4_5.index ⟨(i 0).val / 2000, hlt⟩ (0 : Fin 2) = (i 0).val / 2000 := e0
  refine ⟨⟨(i 0).val / 2000, hlt⟩, flush4_5 _, ?_⟩
  rw [mem_block]
  intro a
  match a with
  | ⟨0, _⟩ =>
    show win4_5.index ⟨(i 0).val / 2000, hlt⟩ (0 : Fin 2) * 2000 ≤ (i 0).val ∧ (i 0).val < win4_5.index ⟨(i 0).val / 2000, hlt⟩ (0 : Fin 2) * 2000 + 2000
    rw [e0']; omega
  | ⟨1, _⟩ =>
    show win4_5.index ⟨(i 0).val / 2000, hlt⟩ (1 : Fin 2) * 256 ≤ (i 1).val ∧ (i 1).val < win4_5.index ⟨(i 0).val / 2000, hlt⟩ (1 : Fin 2) * 256 + 256
    rw [e1]; omega

/-- After the region's fifty write-backs its output array is relu(A·W + b + X·R) of the five arrays its
    windows read, as the region finds them. -/
theorem arr (c : Dev nD) :
    (dat4 V c).arrAt 5 cfg4.N
      = Cert.Spec.conv (V c main_v77) (V c main_v63) (V c main_arg15) (V c main_v78) (V c main_arg17) :=
  (dat4 V c).arrAt_eq_of_cover 5
    (Cert.Spec.conv (V c main_v77) (V c main_v63) (V c main_arg15) (V c main_v78) (V c main_arg17))
    (fun t _ => flushed_eq V c t) cover

end Cert.KernelIdeal.Dense4

end
-- ==== Proof.KPool.lean ====
/-
  The per-graph sum as the kernel computes it: the node axis is cut into fifty blocks of 2000 rows; the whole
  2048 × 256 output block stays resident; at the first block it is cleared, and at block t the product of the
  transposed one-hot matrix (node n of the block against graph g: 1 when the node's id is g, else 0) with the
  block's 2000 × 256 features is added to it; after the last block it is written back.  Entry (g, q) therefore
  ends as the sum over all nodes n of [id n = g] · h(n, q).
-/
import proofs.«428615_j50182397886862_1_alg».proof.Proof.Gen.KernelIdeal.Frame
import proofs.«428615_j50182397886862_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Pool

open Idealize.ShloMosaic Idealize.ShloMosaic.TcCoe Idealize.SL.Sem Idealize.ShloMosaic.ValueIdx
open Cert.KernelIdeal Cert.KernelIdeal.Gen

/-! ## What each control case leaves in the output block -/

section Pieces
variable {F : FTy → Type} [FloatOps F]

theorem hz : (![0, 0] : Fin 2 → Nat) = fun _ => 0 := funext fun a => by fin_cases a <;> rfl

/-- At a later block the body leaves the block's sum added to what the output block held. -/
theorem out_B (c : Dev nD) (i : grid5.Coords) (a1 : Memref sig .tc .vmem S2000x1 .i32) (h1 : a1.IsWhole)
    (a2 : Memref sig .tc .vmem S2000x256 .f32) (h2 : a2.IsWhole) (a3 : Memref sig .tc .vmem S2048x256 .f32) (h3 : a3.IsWhole)
    (hc : ¬cond5_0 i) (x0 : Vec F S2000x1 .i32) (x1 : Vec F S2000x256 .f32) (xo : Vec F S2048x256 .f32) :
    out5_B_2 c i a1 h1 a2 h2 a3 h3 hc x0 x1 xo = k5_pay2 x0 x1 xo := by
  unfold out5_B_2
  rw [View.read_writes_eq_canon _ _ _ (cover5_B_2 c i a1 h1 a2 h2 a3 h3 hc x0 x1 xo)]
  unfold kernelRun5_B
  dsimp only
  sl_unfold_words
  rw [View.canon_unit_zero hz]
  simp only [View.readAt_eq_ld, h1.read_unread, h2.read_unread, h3.read_unread, View.ld_unit_zero (S := S2000x1) hz,
    View.ld_unit_zero (S := S2000x256) hz, View.ld_unit_zero (S := S2048x256) hz]

/-- At the first block the body clears the output block and leaves the block's sum added to the cleared block. -/
theorem out_A (c : Dev nD) (i : grid5.Coords) (a1 : Memref sig .tc .vmem S2000x1 .i32) (h1 : a1.IsWhole)
    (a2 : Memref sig .tc .vmem S2000x256 .f32) (h2 : a2.IsWhole) (a3 : Memref sig .tc .vmem S2048x256 .f32) (h3 : a3.IsWhole)
    (hc : cond5_0 i) (x0 : Vec F S2000x1 .i32) (x1 : Vec F S2000x256 .f32) :
    out5_A_2 c i a1 h1 a2 h2 a3 h3 hc x0 x1 = k5_pay2 x0 x1 (k5_pay1 (F := F)) := by
  unfold out5_A_2
  rw [View.read_writes_eq_canon _ _ _ (cover5_A_2 c i a1 h1 a2 h2 a3 h3 hc x0 x1)]
  unfold kernelRun5_A
  dsimp only
  sl_unfold_words
  rw [View.canon_cons_unit_zero (S := S2048x256) hz, View.readCov_unit_zero (S := S2048x256) _ hz]
  simp only [View.readAt_eq_ld, h1.read_unread, h2.read_unread, View.ld_unit_zero (S := S2000x1) hz,
    View.ld_unit_zero (S := S2000x256) hz]

end Pieces

/-! ## The body's arithmetic at an entry -/

section Payload

/-- The two operands of the product are both read along their axis 0 (the node of the block); the left operand's
    axis 1 is the result's row, the right operand's axis 1 the result's column. -/
theorem lhs_pool_0 (j : S2048x256.Idx) (k : dot_S2000x2048_S2000x256_S2048x256_0_0_1_1_n_n.contr.Idx) :
    (dot_S2000x2048_S2000x256_S2048x256_0_0_1_1_n_n.lhsIdx j k 0).val = (k ⟨0, by decide⟩).val :=
  dot_S2000x2048_S2000x256_S2048x256_0_0_1_1_n_n.lhsIdx_val_of_single rfl j k
theorem lhs_pool_1 (j : S2048x256.Idx) (k : dot_S2000x2048_S2000x256_S2048x256_0_0_1_1_n_n.contr.Idx) :
    (dot_S2000x2048_S2000x256_S2048x256_0_0_1_1_n_n.lhsIdx j k 1).val = (j 0).val := by
  unfold DotDims.lhsIdx
  rw [dif_neg (show ¬(1 : Fin S2000x2048.rank) ∈ dot_S2000x2048_S2000x256_S2048x256_0_0_1_1_n_n.lhsBatch by decide), dif_pos (show (1 : Fin S2000x2048.rank) ∈ dot_S2000x2048_S2000x256_S2048x256_0_0_1_1_n_n.lhsNonContracting by decide)]
  rfl
theorem rhs_pool_0 (j : S2048x256.Idx) (k : dot_S2000x2048_S2000x256_S2048x256_0_0_1_1_n_n.contr.Idx) :
    (dot_S2000x2048_S2000x256_S2048x256_0_0_1_1_n_n.rhsIdx j k 0).val = (k ⟨0, by decide⟩).val :=
  dot_S2000x2048_S2000x256_S2048x256_0_0_1_1_n_n.rhsIdx_val_of_single rfl j k
theorem rhs_pool_1 (j : S2048x256.Idx) (k : dot_S2000x2048_S2000x256_S2048x256_0_0_1_1_n_n.contr.Idx) :
    (dot_S2000x2048_S2000x256_S2048x256_0_0_1_1_n_n.rhsIdx j k 1).val = (j 1).val := by
  unfold DotDims.rhsIdx
  rw [dif_neg (show ¬(1 : Fin S2000x256.rank) ∈ dot_S2000x2048_S2000x256_S2048x256_0_0_1_1_n_n.rhsBatch by decide), dif_pos (show (1 : Fin S2000x256.rank) ∈ dot_S2000x2048_S2000x256_S2048x256_0_0_1_1_n_n.rhsNonContracting by decide)]
  rfl

/-- One entry of the one-hot matrix: the comparison's bit, widened and read as a number, is 1 where the id is the
    graph's number and 0 elsewhere. -/
theorem onehot_entry (b : BitVec 32) (g : Nat) :
    FloatOps.sitofp (F := Ideal) .f32 ((IntOp.cmpi .eq b (BitVec.ofNat 32 g)).setWidth 32)
      = if b = BitVec.ofNat 32 g then (1 : EReal) else 0 := by
  show ((((IntOp.cmpi .eq b (BitVec.ofNat 32 g)).setWidth 32).toInt : ℝ) : EReal) = _
  rw [(by decide : ∀ b : BitVec 1, (b.setWidth 32).toInt = (b.toNat : ℤ)) _]
  unfold IntOp.cmpi
  by_cases h : b = BitVec.ofNat 32 g
  · rw [if_pos h, show (b == BitVec.ofNat 32 g) = true from by simpa using h]; simp
  · rw [if_neg h, show (b == BitVec.ofNat 32 g) = false from by simpa using h]; simp

/-- The cleared block is zero everywhere. -/
theorem pay1_apply (j : S2048x256.Idx) : k5_pay1 (F := Ideal) j = 0 := by
  unfold k5_pay1
  show Ideal.ofBits .f32 0x00000000#32 = 0
  exact Ideal.ofBits_zero_f32

/-- Entry (g, q) of what the body stores: the entry the block held, plus the sum over the block's nodes with id g of
    their feature q. -/
theorem pay2_apply (x0 : Vec Ideal S2000x1 .i32) (x1 : Vec Ideal S2000x256 .f32) (xo : Vec Ideal S2048x256 .f32)
    (g : Fin 2048) (q : Fin 256) :
    k5_pay2 (F := Ideal) x0 x1 xo (ix2 g q)
      = xo (ix2 g q) + ∑ n : Fin 2000, if x0 (ix2 n 0) = BitVec.ofNat 32 g.val then x1 (ix2 n q) else 0 := by
  unfold k5_pay2
  refine congrArg₂ (· + ·) (congrFun (shapeCast_self xo _) (ix2 g q)) ?_
  refine (Ideal.matmul_constant_zero_apply dot_S2000x2048_S2000x256_S2048x256_0_0_1_1_n_n none _ _ (ix2 g q)).trans ?_
  rw [← Equiv.sum_comp (contrEquiv1 dot_S2000x2048_S2000x256_S2048x256_0_0_1_1_n_n 2000 rfl rfl).symm]
  refine Finset.sum_congr rfl fun n _ => ?_
  have hk := contrEquiv1_symm_val dot_S2000x2048_S2000x256_S2048x256_0_0_1_1_n_n 2000 rfl rfl n
  have el : dot_S2000x2048_S2000x256_S2048x256_0_0_1_1_n_n.lhsIdx (ix2 g q) ((contrEquiv1 dot_S2000x2048_S2000x256_S2048x256_0_0_1_1_n_n 2000 rfl rfl).symm n) = ix2 n g := funext fun a => Fin.ext (by
    match a with
    | ⟨0, _⟩ => exact (lhs_pool_0 _ _).trans hk
    | ⟨1, _⟩ => exact lhs_pool_1 _ _)
  have er : dot_S2000x2048_S2000x256_S2048x256_0_0_1_1_n_n.rhsIdx (ix2 g q) ((contrEquiv1 dot_S2000x2048_S2000x256_S2048x256_0_0_1_1_n_n 2000 rfl rfl).symm n) = ix2 n q := funext fun a => Fin.ext (by
    match a with
    | ⟨0, _⟩ => exact (rhs_pool_0 _ _).trans hk
    | ⟨1, _⟩ => exact rhs_pool_1 _ _)
  rw [el, er]
  have e1 : iota .tc S2000x2048 32 [1] iota_S2000x2048_d1_w32 (ix2 n g) = BitVec.ofNat 32 g.val :=
    iota_single_apply .tc S2000x2048 32 1 iota_S2000x2048_d1_w32 (ix2 n g)
  have e2 : broadcastTo S2000x2048 (shapeCast S2000x1 x0 shapeCasts_S2000x1_S2000x1) broadcasts_S2000x1_S2000x2048 (ix2 n g)
      = x0 (ix2 n 0) :=
    (broadcastTo_apply (shapeCast S2000x1 x0 shapeCasts_S2000x1_S2000x1) broadcasts_S2000x1_S2000x2048 (ix2 n g) (ix2 n 0)
      (fun a => by
        match a with
        | ⟨0, _⟩ => show n.val = if (2000 : Nat) = 1 then 0 else n.val; rw [if_neg (by decide)]
        | ⟨1, _⟩ => show (0 : Nat) = if (1 : Nat) = 1 then 0 else g.val; rw [if_pos rfl])).trans
      (congrFun (shapeCast_self x0 shapeCasts_S2000x1_S2000x1) (ix2 n 0))
  have e3 : shapeCast S2000x256 x1 shapeCasts_S2000x256_S2000x256 (ix2 n q) = x1 (ix2 n q) :=
    congrFun (shapeCast_self x1 shapeCasts_S2000x256_S2000x256) (ix2 n q)
  have ef : truncf FTy.bf16 (sitofp (F := Ideal) FTy.f32 (extui 32 (cmpi CmpIPredicate.eq
        (broadcastTo S2000x2048 (shapeCast S2000x1 x0 shapeCasts_S2000x1_S2000x1) broadcasts_S2000x1_S2000x2048)
        (iota Kind.tc S2000x2048 32 [1] iota_S2000x2048_d1_w32)) natLt_1_32)) bitsLt_bf16_f32 (ix2 n g)
      = if x0 (ix2 n 0) = BitVec.ofNat 32 g.val then (1 : EReal) else 0 := by
    show FloatOps.sitofp (F := Ideal) .f32 ((IntOp.cmpi .eq
      (broadcastTo S2000x2048 (shapeCast S2000x1 x0 shapeCasts_S2000x1_S2000x1) broadcasts_S2000x1_S2000x2048 (ix2 n g))
      (iota Kind.tc S2000x2048 32 [1] iota_S2000x2048_d1_w32 (ix2 n g))).setWidth 32) = _
    rw [e1, e2]
    exact onehot_entry _ _
  refine (congrArg₂ (· * ·) ef e3).trans ?_
  by_cases h : x0 (ix2 n 0) = BitVec.ofNat 32 g.val
  · rw [if_pos h, if_pos h, one_mul]
  · rw [if_neg h, if_neg h, zero_mul]

end Payload

-- the TensorCore's buffer contents when the region is entered: any valuation
variable (V : (c : Dev nD) → (b : Ref sig .tc) → Buf (Elt Ideal) ((c : Thread nD τ).loc b))

/-! ## The blocks are runs of 2000 rows of the arrays -/

/-- The ids and the features as the region finds them, and their blocks at block `t`. -/
abbrev idArr (c : Dev nD) : Vec Ideal S100000x1 .i32 := V c main_v80
abbrev hArr (c : Dev nD) : Vec Ideal S100000x256 .f32 := V c main_v79
abbrev idBlk (c : Dev nD) (t : Fin cfg5.N) : Vec Ideal S2000x1 .i32 := iblk5 V c 0 t
abbrev hBlk (c : Dev nD) (t : Fin cfg5.N) : Vec Ideal S2000x256 .f32 := iblk5 V c 1 t

theorem lt50 (t : Fin cfg5.N) : t.val < 50 := lt_of_lt_of_eq t.isLt (show cfg5.N = 50 from N_5)

/-- Row `n` of block `t` is row `2000 t + n` of the array. -/
abbrev row (t : Fin cfg5.N) (n : Fin 2000) : Fin 100000 := ⟨2000 * t.val + n.val, by have := lt50 t; omega⟩

/-- Block `t` of either input starts at row block `t`, column block 0; the output's one block is block (0, 0). -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0 :=
  (by decide +kernel : ∀ t : Fin grid5.N, _)

theorem idBlk_apply (c : Dev nD) (t : Fin cfg5.N) (n : Fin 2000) :
    idBlk V c t (ix2 n 0) = idArr V c (ix2 (row t n) 0) := by
  obtain ⟨e0, e1, -, -, -, -⟩ := idx_facts t
  show V c main_v80 (((cfg5.win 0).blk t).view.emb (ix2 n 0)) = V c main_v80 (ix2 (row t n) 0)
  refine congrArg (V c main_v80) (funext fun a => Fin.ext ?_)
  match a with
  | ⟨0, _⟩ => show win5_0.index t (0 : Fin 2) * 2000 + 1 * n.val = 2000 * t.val + n.val; rw [e0]; omega
  | ⟨1, _⟩ => show win5_0.index t (1 : Fin 2) * 1 + 1 * 0 = 0; rw [e1]

theorem hBlk_apply (c : Dev nD) (t : Fin cfg5.N) (n : Fin 2000) (q : Fin 256) :
    hBlk V c t (ix2 n q) = hArr V c (ix2 (row t n) q) := by
  obtain ⟨-, -, e0, e1, -, -⟩ := idx_facts t
  show V c main_v79 (((cfg5.win 1).blk t).view.emb (ix2 n q)) = V c main_v79 (ix2 (row t n) q)
  refine congrArg (V c main_v79) (funext fun a => Fin.ext ?_)
  match a with
  | ⟨0, _⟩ => show win5_1.index t (0 : Fin 2) * 2000 + 1 * n.val = 2000 * t.val + n.val; rw [e0]; omega
  | ⟨1, _⟩ => show win5_1.index t (1 : Fin 2) * 256 + 1 * q.val = q.val; rw [e1]; omega

/-! ## The fold over the blocks is the sum over all nodes -/

/-- What node `m` adds to entry (g, q): its feature q when its id is g. -/
abbrev term (c : Dev nD) (g : Fin 2048) (q : Fin 256) (m : Fin 100000) : EReal :=
  if idArr V c (ix2 m 0) = BitVec.ofNat 32 g.val then hArr V c (ix2 m q) else 0

/-- What block `s` adds to entry (g, q); nothing past the last block. -/
def blockSum (c : Dev nD) (g : Fin 2048) (q : Fin 256) (s : ℕ) : EReal :=
  if h : s < cfg5.N then ∑ n : Fin 2000, term V c g q (row ⟨s, h⟩ n) else 0

/-- After block `n` entry (g, q) of the output block is the sum of what blocks 0 … n add: cleared and added to at
    block 0, added to at each later block. -/
theorem outsAt_apply (c : Dev nD) (g : Fin 2048) (q : Fin 256) : ∀ (n : ℕ) (h : n < cfg5.N),
    outsAt5 V c n h (ix2 g q) = ∑ s ∈ Finset.range (n + 1), blockSum V c g q s
  | 0, h => by
    have e : outsAt5 V c 0 h = k5_pay2 (F := Ideal) (idBlk V c ⟨0, h⟩) (hBlk V c ⟨0, h⟩) (k5_pay1 (F := Ideal)) :=
      (outsAt5_A V c ⟨0, h⟩ rfl).trans (out_A (F := Ideal) c (grid5.coords ⟨0, h⟩) (ms5_0 ⟨0, h⟩) (hs5_0 ⟨0, h⟩)
        (ms5_1 ⟨0, h⟩) (hs5_1 ⟨0, h⟩) (ms5_2 ⟨0, h⟩) (hs5_2 ⟨0, h⟩) ((hcond5_0 ⟨0, h⟩).mpr rfl)
        (iblk5 V c 0 ⟨0, h⟩) (iblk5 V c 1 ⟨0, h⟩))
    rw [e, pay2_apply, pay1_apply, Finset.sum_range_succ, Finset.sum_range_zero]
    refine congrArg (0 + ·) ?_
    unfold blockSum
    rw [dif_pos h]
    exact Finset.sum_congr rfl fun n' _ => by rw [idBlk_apply, hBlk_apply]
  | n + 1, h => by
    have hN : n + 1 < 50 := lt_of_lt_of_eq h (show cfg5.N = 50 from N_5)
    have hB : ¬(⟨n + 1, h⟩ : Fin cfg5.N).val % 50 = 0 := by dsimp only; omega
    have e : outsAt5 V c (n + 1) h
        = k5_pay2 (F := Ideal) (idBlk V c ⟨n + 1, h⟩) (hBlk V c ⟨n + 1, h⟩) (outsAt5 V c n (Nat.lt_of_succ_lt h)) :=
      (outsAt5_B V c ⟨n + 1, h⟩ hB).trans (out_B (F := Ideal) c (grid5.coords ⟨n + 1, h⟩) (ms5_0 ⟨n + 1, h⟩) (hs5_0 ⟨n + 1, h⟩)
        (ms5_1 ⟨n + 1, h⟩) (hs5_1 ⟨n + 1, h⟩) (ms5_2 ⟨n + 1, h⟩) (hs5_2 ⟨n + 1, h⟩) (fun hh => hB ((hcond5_0 ⟨n + 1, h⟩).mp hh))
        (iblk5 V c 0 ⟨n + 1, h⟩) (iblk5 V c 1 ⟨n + 1, h⟩) (outsAt5 V c n (Nat.lt_of_succ_lt h)))
    rw [e, pay2_apply, outsAt_apply c g q n (Nat.lt_of_succ_lt h), Finset.sum_range_succ _ (n + 1)]
    refine congrArg (_ + ·) ?_
    unfold blockSum
    rw [dif_pos h]
    exact Finset.sum_congr rfl fun n' _ => by rw [idBlk_apply, hBlk_apply]

/-- The fifty blocks' sums together are the sum over all 100000 nodes: node 2000 t + n is node n of block t. -/
theorem sum_all (c : Dev nD) (g : Fin 2048) (q : Fin 256) :
    ∑ s ∈ Finset.range 50, blockSum V c g q s = ∑ m : Fin 100000, term V c g q m := by
  rw [← Fin.sum_univ_eq_sum_range (fun s => blockSum V c g q s) 50,
    ← Equiv.sum_comp (finProdFinEquiv : Fin 50 × Fin 2000 ≃ Fin 100000) (term V c g q), Fintype.sum_prod_type]
  refine Finset.sum_congr rfl fun t _ => ?_
  have ht : t.val < cfg5.N := lt_of_lt_of_eq t.isLt (show cfg5.N = 50 from N_5).symm
  unfold blockSum
  rw [dif_pos ht]
  refine Finset.sum_congr rfl fun n _ => congrArg (term V c g q) (Fin.ext ?_)
  show 2000 * t.val + n.val = n.val + 2000 * t.val
  omega

/-! ## The array after the run -/

/-- The last block's point: the one write-back. -/
abbrev tLast : Fin cfg5.N := ⟨49, by rw [show cfg5.N = 50 from N_5]; decide⟩

/-- After the last block the output block holds the per-graph sum. -/
theorem outsAt_last (c : Dev nD) :
    outsAt5 V c tLast.val tLast.isLt = Cert.Spec.pool (V c main_v80) (V c main_v79) := by
  funext j
  obtain ⟨g, q, rfl⟩ : ∃ (g : Fin 2048) (q : Fin 256), j = ix2 g q := ⟨j 0, j 1, eq_ix2 j⟩
  rw [outsAt_apply V c g q tLast.val tLast.isLt]
  exact sum_all V c g q

/-- The write-back writes that block, and the block is the whole array. -/
theorem flushed_eq (c : Dev nD) (t : Fin cfg5.N) (hf : (cfg5.win 2).flush t = true) :
    (dat5 V c).flushed 2 t
      = ((cfg5.win 2).blk t).view.read (Elt Ideal) (Cert.Spec.pool (V c main_v80) (V c main_v79)) := by
  have h49 : t.val = 49 := by have := (flush5_2 t).mp hf; have := lt50 t; omega
  obtain rfl : t = tLast := Fin.ext h49
  obtain ⟨-, -, -, -, e0, e1⟩ := idx_facts tLast
  show (cfg5.win 2).cut (grid5.coords tLast) ((dat5 V c).after 2 tLast) = _
  rw [after5_2, outsAt_last]
  have hz' : (fun a => win5_2.index tLast a * main_v81.ty.shape.size a) = fun _ => 0 := funext fun a => by
    match a with
    | ⟨0, _⟩ => show win5_2.index tLast (0 : Fin 2) * 2048 = 0; rw [e0]
    | ⟨1, _⟩ => show win5_2.index tLast (1 : Fin 2) * 256 = 0; rw [e1]
  exact (Memref.read_access_unit_zero (Elt Ideal) main_v81 hz' (fun a => by rw [congrFun hz' a]; simp)
    (Cert.Spec.pool (V c main_v80) (V c main_v79))).symm

/-- After the region's run its output array is the per-graph sum of the node features, by the graph ids, as the
    region finds the two arrays. -/
theorem arr (c : Dev nD) :
    (dat5 V c).arrAt 2 cfg5.N = Cert.Spec.pool (V c main_v80) (V c main_v79) :=
  (dat5 V c).arrAt_eq_of_cover 2 (Cert.Spec.pool (V c main_v80) (V c main_v79)) (flushed_eq V c) fun i =>
    ⟨tLast, (flush5_2 tLast).mpr rfl, by
      obtain ⟨-, -, -, -, e0, e1⟩ := idx_facts tLast
      show i ∈ ((View.whole main_v81).slice (win5_2.rect tLast)).set
      rw [View.set_slice_whole, Rect.mem_set_unit]
      intro a
      have h0 : (i 0 : Nat) < 2048 := (i 0).isLt
      have h1 : (i 1 : Nat) < 256 := (i 1).isLt
      match a with
      | ⟨0, _⟩ =>
        show win5_2.index tLast (0 : Fin 2) * 2048 ≤ (i 0 : Nat)
          ∧ (i 0 : Nat) < win5_2.index tLast (0 : Fin 2) * 2048 + 2048
        rw [e0]; omega
      | ⟨1, _⟩ =>
        show win5_2.index tLast (1 : Fin 2) * 256 ≤ (i 1 : Nat)
          ∧ (i 1 : Nat) < win5_2.index tLast (1 : Fin 2) * 256 + 256
        rw [e1]; omega⟩

end Cert.KernelIdeal.Pool

end
-- ==== Proof.KHead.lean ====
/-
  The head as the kernel computes it, in one block: relu(G·W1 + b1)·W2 + b2, then for each row the maximum m of
  its two logits, Σ = Σ_c exp(l_c − m), and the result l − (m + log Σ).
-/
import proofs.«428615_j50182397886862_1_alg».proof.Proof.Gen.KernelIdeal.Frame
import proofs.«428615_j50182397886862_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Head

open Idealize.ShloMosaic Idealize.ShloMosaic.TcCoe Idealize.SL.Sem Idealize.ShloMosaic.ValueIdx
open Cert.KernelIdeal Cert.KernelIdeal.Gen

/-! ## Two keepdims layout forms read at an index -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The body's value in three stages -/

/-- The hidden layer as the body computes it: relu(G·W1 + b1), the bias row broadcast over the rows. -/
def hidV (G : FVec Ideal S2048x256 .f32) (W1 : FVec Ideal S256x256 .f32) (b1 : FVec Ideal S1x256 .f32) :
    FVec Ideal S2048x256 .f32 :=
  maximumf
    (addf
      (matmul dot_S2048x256_S256x256_S2048x256_1_0_0_1_n_n none
        (truncf .bf16 (shapeCast S2048x256 G shapeCasts_S2048x256_S2048x256) bitsLt_bf16_f32)
        (truncf .bf16 W1 bitsLt_bf16_f32) (constant (F := Ideal) S2048x256 .f32 0x00000000#32))
      (broadcastTo S2048x256 (shapeCast S1x256 b1 shapeCasts_S1x256_S1x256) broadcasts_S1x256_S2048x256))
    (broadcast S2048x256 (Scalar.ofBits (F := Ideal) .f32 0x00000000#32))

/-- The logits as the body computes them: h·W2 + b2. -/
def logitV (h : FVec Ideal S2048x256 .f32) (W2 : FVec Ideal S256x2 .f32) (b2 : FVec Ideal S1x2 .f32) :
    FVec Ideal S2048x2 .f32 :=
  addf
    (matmul dot_S2048x256_S256x2_S2048x2_1_0_0_1_n_n none (truncf .bf16 h bitsLt_bf16_f32)
      (truncf .bf16 W2 bitsLt_bf16_f32) (constant (F := Ideal) S2048x2 .f32 0x00000000#32))
    (broadcastTo S2048x2 (shapeCast S1x2 b2 shapeCasts_S1x2_S1x2) broadcasts_S1x2_S2048x2)

/-- The row maximum as a column. -/
def maxV (l : FVec Ideal S2048x2 .f32) : FVec Ideal S2048x1 .f32 :=
  shapeCast S2048x1 (multiReduction (F := Ideal) .maximumf [1] S2048 l 0xFF800000#32 reduces_S2048x2_S2048 (.inl rfl) rfl)
    shapeCasts_S2048_S2048x1

/-- The row sum of exp(l − m) as a column. -/
def sumV (l : FVec Ideal S2048x2 .f32) : FVec Ideal S2048x1 .f32 :=
  shapeCast S2048x1
    (multiReduction (F := Ideal) .add [1] S2048 (exp (subf l (broadcastTo S2048x2 (maxV l) broadcasts_S2048x1_S2048x2)))
      0x00000000#32 reduces_S2048x2_S2048 (.inl rfl) rfl)
    shapeCasts_S2048_S2048x1

/-- The log-softmax as the body computes it: l − (m + log Σ). -/
def lsmV (l : FVec Ideal S2048x2 .f32) : FVec Ideal S2048x2 .f32 :=
  subf l (broadcastTo S2048x2 (addf (maxV l) (log (sumV l))) broadcasts_S2048x1_S2048x2)

/-- The body's payload is the three stages composed. -/
theorem pay_eq (G : Vec Ideal S2048x256 .f32) (W1 : Vec Ideal S256x256 .f32) (b1 : Vec Ideal S1x256 .f32)
    (W2 : Vec Ideal S256x2 .f32) (b2 : Vec Ideal S1x2 .f32) :
    k6_pay1 (F := Ideal) G W1 b1 W2 b2 = lsmV (logitV (hidV G W1 b1) W2 b2) := rfl

/-! ## The two products read at an index -/

theorem lhs1_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide),
    dif_pos (show (0 : Fin S2048x256.rank) ∈ dot_S2048x256_S256x256_S2048x256_1_0_0_1_n_n.lhsNonContracting by decide)]
  rfl
theorem lhs1_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
theorem rhs1_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
theorem rhs1_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide),
    dif_pos (show (1 : Fin S256x256.rank) ∈ dot_S2048x256_S256x256_S2048x256_1_0_0_1_n_n.rhsNonContracting by decide)]
  rfl

/-- The first product onto the zero accumulator, at (g, q): the sum over the 256 contracted coordinates. -/
theorem matmul1_apply (A : FVec Ideal S2048x256 .bf16) (B : FVec Ideal S256x256 .bf16) (g : Fin 2048) (q : Fin 256) :
    matmul dot_S2048x256_S256x256_S2048x256_1_0_0_1_n_n none A B (constant (F := Ideal) S2048x256 .f32 0x00000000#32) (ix2 g q)
      = ∑ k : Fin 256, A (ix2 g k) * B (ix2 k q) := by
  simp only [matmul]
  rw [Ideal.matmul_constant_zero_apply,
    ← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 g q)
      ((contrEquiv1 dot_S2048x256_S256x256_S2048x256_1_0_0_1_n_n 256 rfl rfl).symm k) = ix2 g k :=
    funext fun a => Fin.ext (by
      match a with
      | ⟨0, _⟩ => exact lhs1_0 _ _
      | ⟨1, _⟩ => exact (lhs1_1 _ _).trans hk)
  have er : dot_S2048x256_S256x256_S2048x256_1_0_0_1_n_n.rhsIdx (ix2 g q)
      ((contrEquiv1 dot_S2048x256_S256x256_S2048x256_1_0_0_1_n_n 256 rfl rfl).symm k) = ix2 k q :=
    funext fun a => Fin.ext (by
      match a with
      | ⟨0, _⟩ => exact (rhs1_0 _ _).trans hk
      | ⟨1, _⟩ => exact rhs1_1 _ _)
  rw [el, er]

theorem lhs2_0 (i : S2048x2.Idx) (q : dot_S2048x256_S256x2_S2048x2_1_0_0_1_n_n.contr.Idx) :
    (dot_S2048x256_S256x2_S2048x2_1_0_0_1_n_n.lhsIdx i q 0).val = (i 0).val := by
  unfold DotDims.lhsIdx
  rw [dif_neg (show ¬(0 : Fin S2048x256.rank) ∈ dot_S2048x256_S256x2_S2048x2_1_0_0_1_n_n.lhsBatch by decide),
    dif_pos (show (0 : Fin S2048x256.rank) ∈ dot_S2048x256_S256x2_S2048x2_1_0_0_1_n_n.lhsNonContracting by decide)]
  rfl
theorem lhs2_1 (i : S2048x2.Idx) (q : dot_S2048x256_S256x2_S2048x2_1_0_0_1_n_n.contr.Idx) :
    (dot_S2048x256_S256x2_S2048x2_1_0_0_1_n_n.lhsIdx i q 1).val = (q ⟨0, by decide⟩).val :=
  dot_S2048x256_S256x2_S2048x2_1_0_0_1_n_n.lhsIdx_val_of_single rfl i q
theorem rhs2_0 (i : S2048x2.Idx) (q : dot_S2048x256_S256x2_S2048x2_1_0_0_1_n_n.contr.Idx) :
    (dot_S2048x256_S256x2_S2048x2_1_0_0_1_n_n.rhsIdx i q 0).val = (q ⟨0, by decide⟩).val :=
  dot_S2048x256_S256x2_S2048x2_1_0_0_1_n_n.rhsIdx_val_of_single rfl i q
theorem rhs2_1 (i : S2048x2.Idx) (q : dot_S2048x256_S256x2_S2048x2_1_0_0_1_n_n.contr.Idx) :
    (dot_S2048x256_S256x2_S2048x2_1_0_0_1_n_n.rhsIdx i q 1).val = (i 1).val := by
  unfold DotDims.rhsIdx
  rw [dif_neg (show ¬(1 : Fin S256x2.rank) ∈ dot_S2048x256_S256x2_S2048x2_1_0_0_1_n_n.rhsBatch by decide),
    dif_pos (show (1 : Fin S256x2.rank) ∈ dot_S2048x256_S256x2_S2048x2_1_0_0_1_n_n.rhsNonContracting by decide)]
  rfl

/-- The second product onto the zero accumulator, at (g, c): the sum over the 256 contracted coordinates. -/
theorem matmul2_apply (A : FVec Ideal S2048x256 .bf16) (B : FVec Ideal S256x2 .bf16) (g : Fin 2048) (c : Fin 2) :
    matmul dot_S2048x256_S256x2_S2048x2_1_0_0_1_n_n none A B (constant (F := Ideal) S2048x2 .f32 0x00000000#32) (ix2 g c)
      = ∑ k : Fin 256, A (ix2 g k) * B (ix2 k c) := by
  simp only [matmul]
  rw [Ideal.matmul_constant_zero_apply,
    ← Equiv.sum_comp (contrEquiv1 dot_S2048x256_S256x2_S2048x2_1_0_0_1_n_n 256 rfl rfl).symm]
  refine Finset.sum_congr rfl fun k _ => ?_
  have hk := contrEquiv1_symm_val dot_S2048x256_S256x2_S2048x2_1_0_0_1_n_n 256 rfl rfl k
  have el : dot_S2048x256_S256x2_S2048x2_1_0_0_1_n_n.lhsIdx (ix2 g c)
      ((contrEquiv1 dot_S2048x256_S256x2_S2048x2_1_0_0_1_n_n 256 rfl rfl).symm k) = ix2 g k :=
    funext fun a => Fin.ext (by
      match a with
      | ⟨0, _⟩ => exact lhs2_0 _ _
      | ⟨1, _⟩ => exact (lhs2_1 _ _).trans hk)
  have er : dot_S2048x256_S256x2_S2048x2_1_0_0_1_n_n.rhsIdx (ix2 g c)
      ((contrEquiv1 dot_S2048x256_S256x2_S2048x2_1_0_0_1_n_n 256 rfl rfl).symm k) = ix2 k c :=
    funext fun a => Fin.ext (by
      match a with
      | ⟨0, _⟩ => exact (rhs2_0 _ _).trans hk
      | ⟨1, _⟩ => exact rhs2_1 _ _)
  rw [el, er]

/-! ## The hidden layer and the logits at an index -/

theorem hidV_apply (G : FVec Ideal S2048x256 .f32) (W1 : FVec Ideal S256x256 .f32) (b1 : FVec Ideal S1x256 .f32)
    (g : Fin 2048) (q : Fin 256) : hidV G W1 b1 (ix2 g q) = Cert.Spec.hidAt G W1 b1 g q := by
  unfold hidV Cert.Spec.hidAt
  rw [maximumf_apply, addf_apply, broadcast_apply, matmul1_apply, broadcastTo_1b_ab_apply, shapeCast_self, shapeCast_self]
  simp only [truncf_apply]
  show max _ (Ideal.ofBits .f32 0x00000000#32) = _
  rw [Ideal.ofBits_zero_f32]

theorem logitV_apply (G : FVec Ideal S2048x256 .f32) (W1 : FVec Ideal S256x256 .f32) (b1 : FVec Ideal S1x256 .f32)
    (W2 : FVec Ideal S256x2 .f32) (b2 : FVec Ideal S1x2 .f32) (g : Fin 2048) (c : Fin 2) :
    logitV (hidV G W1 b1) W2 b2 (ix2 g c) = Cert.Spec.logitAt G W1 b1 W2 b2 g c := by
  unfold logitV Cert.Spec.logitAt
  rw [addf_apply, matmul2_apply, broadcastTo_1b_ab_apply, shapeCast_self]
  simp only [truncf_apply, hidV_apply]

/-! ## The two row reductions read at a row -/

/-- The index of row g of a [2048, 2] array with column k inserted is (g, k). -/
theorem lift_row (g : Fin 2048) (k : Fin 2) : reduces_S2048x2_S2048.lift (ix1 g) k = ix2 g k :=
  funext fun c => Fin.ext (by
    match c with
    | ⟨0, _⟩ => rfl
    | ⟨1, _⟩ => rfl)

/-- The f32 pattern of −∞ is the bottom of the extended reals. -/
theorem ofBits_neg_inf_f32 : Ideal.ofBits .f32 0xFF800000#32 = ⊥ := by simp [Ideal.ofBits, Ideal.ieee]

/-- A fold of max from the bottom over two entries is the larger of them. -/
theorem fold_max_two (f : Fin 2 → EReal) : (Finset.univ : Finset (Fin 2)).fold max ⊥ f = max (f 0) (f 1) := by
  rw [show (Finset.univ : Finset (Fin 2)) = {0, 1} from rfl, Finset.fold_insert (by decide), Finset.fold_singleton,
    max_bot_right]

/-- The maximum over the two columns from −∞, at row g: the larger of the row's two entries. -/
theorem rowMax_apply (l : FVec Ideal S2048x2 .f32) (g : Fin 2048) :
    multiReduction (F := Ideal) .maximumf [1] S2048 l 0xFF800000#32 reduces_S2048x2_S2048 (.inl rfl) rfl (ix1 g)
      = max (l (ix2 g 0)) (l (ix2 g 1)) := by
  refine (Ideal.multiReduction_maximumf_single l 0xFF800000#32 reduces_S2048x2_S2048 (.inl rfl) rfl (ix1 g)).trans ?_
  refine Eq.trans (b := (Finset.univ : Finset (Fin 2)).fold max ⊥ (fun k : Fin 2 => l (ix2 g k))) ?_ (fold_max_two _)
  show (Finset.univ : Finset (Fin 2)).fold max (Ideal.ofBits .f32 0xFF800000#32)
      (fun k : Fin 2 => l (reduces_S2048x2_S2048.lift (ix1 g) k)) = _
  rw [ofBits_neg_inf_f32]
  exact congrArg (fun f : Fin 2 → EReal => (Finset.univ : Finset (Fin 2)).fold max ⊥ f)
    (funext fun k => congrArg l (lift_row g k))

/-- The sum over the two columns, at row g. -/
theorem rowSum_apply (e : FVec Ideal S2048x2 .f32) (g : Fin 2048) :
    multiReduction (F := Ideal) .add [1] S2048 e 0x00000000#32 reduces_S2048x2_S2048 (.inl rfl) rfl (ix1 g)
      = ∑ k : Fin 2, e (ix2 g k) := by
  refine (Ideal.multiReduction_add_single e 0x00000000#32 reduces_S2048x2_S2048 (.inl rfl) rfl (ix1 g)).trans ?_
  show ∑ k : Fin 2, e (reduces_S2048x2_S2048.lift (ix1 g) k) = _
  exact Finset.sum_congr rfl fun k _ => congrArg e (lift_row g k)

/-! ## The log-softmax at an index -/

theorem maxV_apply (l : FVec Ideal S2048x2 .f32) (g : Fin 2048) (u : Fin 1) :
    maxV l (ix2 g u) = max (l (ix2 g 0)) (l (ix2 g 1)) := by
  unfold maxV
  exact (shapeCast_a_a1_apply _ _ g u).trans (rowMax_apply l g)

theorem sumV_apply (l : FVec Ideal S2048x2 .f32) (g : Fin 2048) (u : Fin 1) :
    sumV l (ix2 g u) = ∑ k : Fin 2, Ideal.exp (l (ix2 g k) - max (l (ix2 g 0)) (l (ix2 g 1))) := by
  unfold sumV
  refine (shapeCast_a_a1_apply _ _ g u).trans ?_
  refine (rowSum_apply _ g).trans ?_
  refine Finset.sum_congr rfl fun k _ => ?_
  show Ideal.exp (l (ix2 g k) - broadcastTo S2048x2 (maxV l) broadcasts_S2048x1_S2048x2 (ix2 g k)) = _
  rw [broadcastTo_a1_ab_apply, maxV_apply]

theorem lsmV_apply (l : FVec Ideal S2048x2 .f32) (g : Fin 2048) (c : Fin 2) :
    lsmV l (ix2 g c) = Cert.Spec.lsmSum (fun c' => l (ix2 g c')) c := by
  unfold lsmV Cert.Spec.lsmSum Cert.Spec.sumExp Cert.Spec.rowMax
  rw [subf_apply, broadcastTo_a1_ab_apply, addf_apply, maxV_apply]
  show l (ix2 g c) - (_ + Ideal.log (sumV l (ix2 g 0))) = _
  rw [sumV_apply]

/-- The body's payload at (g, c) is the head's entry there. -/
theorem pay_apply (G : Vec Ideal S2048x256 .f32) (W1 : Vec Ideal S256x256 .f32) (b1 : Vec Ideal S1x256 .f32)
    (W2 : Vec Ideal S256x2 .f32) (b2 : Vec Ideal S1x2 .f32) (g : Fin 2048) (c : Fin 2) :
    k6_pay1 (F := Ideal) G W1 b1 W2 b2 (ix2 g c)
      = Cert.Spec.lsmSum (fun c' => Cert.Spec.logitAt G W1 b1 W2 b2 g c') c := by
  rw [pay_eq, lsmV_apply]
  simp only [logitV_apply]

/-! ## The region's one point: every window's block is its whole array -/

-- the TensorCore's buffer contents when the region is entered: any valuation
variable (V : (c : Dev nD) → (b : Ref sig .tc) → Buf (Elt Ideal) ((c : Thread nD τ).loc b))

theorem hz : (![0, 0] : Fin 2 → Nat) = fun _ => 0 := funext fun a => by fin_cases a <;> rfl

theorem iblk6_0_eq (c : Dev nD) (t : Fin cfg6.N) : iblk6 V c 0 t = V c main_v81 := by
  funext j
  show V c main_v81 (((cfg6.win 0).blk t).view.emb j) = V c main_v81 j
  refine congrArg _ (funext fun a => Fin.ext ?_)
  match a with
  | ⟨0, _⟩ => show 0 * 2048 + 1 * (j 0).val = (j 0).val; omega
  | ⟨1, _⟩ => show 0 * 256 + 1 * (j 1).val = (j 1).val; omega

theorem iblk6_1_eq (c : Dev nD) (t : Fin cfg6.N) : iblk6 V c 1 t = V c main_arg18 := by
  funext j
  show V c main_arg18 (((cfg6.win 1).blk t).view.emb j) = V c main_arg18 j
  refine congrArg _ (funext fun a => Fin.ext ?_)
  match a with
  | ⟨0, _⟩ => show 0 * 256 + 1 * (j 0).val = (j 0).val; omega
  | ⟨1, _⟩ => show 0 * 256 + 1 * (j 1).val = (j 1).val; omega

theorem iblk6_2_eq (c : Dev nD) (t : Fin cfg6.N) : iblk6 V c 2 t = V c main_v82 := by
  funext j
  show V c main_v82 (((cfg6.win 2).blk t).view.emb j) = V c main_v82 j
  refine congrArg _ (funext fun a => Fin.ext ?_)
  match a with
  | ⟨0, _⟩ => show 0 * 1 + 1 * (j 0).val = (j 0).val; omega
  | ⟨1, _⟩ => show 0 * 256 + 1 * (j 1).val = (j 1).val; omega

theorem iblk6_3_eq (c : Dev nD) (t : Fin cfg6.N) : iblk6 V c 3 t = V c main_arg20 := by
  funext j
  show V c main_arg20 (((cfg6.win 3).blk t).view.emb j) = V c main_arg20 j
  refine congrArg _ (funext fun a => Fin.ext ?_)
  match a with
  | ⟨0, _⟩ => show 0 * 256 + 1 * (j 0).val = (j 0).val; omega
  | ⟨1, _⟩ => show 0 * 2 + 1 * (j 1).val = (j 1).val; omega

theorem iblk6_4_eq (c : Dev nD) (t : Fin cfg6.N) : iblk6 V c 4 t = V c main_v83 := by
  funext j
  show V c main_v83 (((cfg6.win 4).blk t).view.emb j) = V c main_v83 j
  refine congrArg _ (funext fun a => Fin.ext ?_)
  match a with
  | ⟨0, _⟩ => show 0 * 1 + 1 * (j 0).val = (j 0).val; omega
  | ⟨1, _⟩ => show 0 * 2 + 1 * (j 1).val = (j 1).val; omega

/-- The output's block at the one point is the whole array too. -/
theorem emb5_eq (t : Fin cfg6.N) (j : S2048x2.Idx) : ((cfg6.win 5).blk t).view.emb j = j := by
  refine funext fun a => Fin.ext ?_
  match a with
  | ⟨0, _⟩ => show 0 * 2048 + 1 * (j 0).val = (j 0).val; omega
  | ⟨1, _⟩ => show 0 * 2 + 1 * (j 1).val = (j 1).val; omega

/-- What the one point writes back is the head's array, read through the output's block. -/
theorem flushed_eq (c : Dev nD) (t : Fin cfg6.N) :
    (dat6 V c).flushed 5 t = ((cfg6.win 5).blk t).view.read (Elt Ideal)
      (Cert.Spec.headSum (V c main_v81) (V c main_arg18) (V c main_v82) (V c main_arg20) (V c main_v83)) := by
  show (cfg6.win 5).cut (grid6.coords t) ((dat6 V c).after 5 t) = _
  rw [after6_5]
  unfold out6_5
  rw [View.canon_unit_zero hz]
  simp only [View.ld_unit_zero (S := S2048x256) hz, View.ld_unit_zero (S := S256x256) hz, View.ld_unit_zero (S := S1x256) hz,
    View.ld_unit_zero (S := S256x2) hz, View.ld_unit_zero (S := S1x2) hz]
  rw [iblk6_0_eq, iblk6_1_eq, iblk6_2_eq, iblk6_3_eq, iblk6_4_eq]
  funext j
  show k6_pay1 (F := Ideal) (V c main_v81) (V c main_arg18) (V c main_v82) (V c main_arg20) (V c main_v83) j
    = Cert.Spec.headSum (V c main_v81) (V c main_arg18) (V c main_v82) (V c main_arg20) (V c main_v83)
        (((cfg6.win 5).blk t).view.emb j)
  rw [emb5_eq]
  obtain ⟨g, q, rfl⟩ : ∃ (g : Fin 2048) (q : Fin 2), j = ix2 g q := ⟨j 0, j 1, eq_ix2 j⟩
  exact pay_apply _ _ _ _ _ g q

/-- Every index of the output array is in the one point's block. -/
theorem cover (i : S2048x2.Idx) : ∃ t : Fin cfg6.N, (cfg6.win 5).flush t = true ∧ i ∈ ((cfg6.win 5).blk t).view.set := by
  refine ⟨t6_0, flush6_5 t6_0, ?_⟩
  show i ∈ ((View.whole main_v84).slice (win6_5.rect t6_0)).set
  rw [View.set_slice_whole, Rect.mem_set_unit]
  intro a
  match a with
  | ⟨0, _⟩ => show 0 * 2048 ≤ (i 0).val ∧ (i 0).val < 0 * 2048 + 2048; have := idx2_lt0 i; omega
  | ⟨1, _⟩ => show 0 * 2 ≤ (i 1).val ∧ (i 1).val < 0 * 2 + 2; have := idx2_lt1 i; omega

/-- After the region's one point its output array is the head's function of the five arrays its windows read. -/
theorem arr (c : Dev nD) :
    (dat6 V c).arrAt 5 cfg6.N
      = Cert.Spec.headSum (V c main_v81) (V c main_arg18) (V c main_v82) (V c main_arg20) (V c main_v83) :=
  (dat6 V c).arrAt_eq_of_cover 5 _ (fun t _ => flushed_eq V c t) cover

end Cert.KernelIdeal.Head

end
-- ==== Proof.KTail.lean ====
/-
  The end of the kernel program's run: once the fifth layer's output N is in place, the graph ids are reshaped to
  a column, the pool region leaves the per-graph sums of N, two biases are reshaped to rows, and the head region
  leaves the result; the arguments read on the way are as launched.
-/
import proofs.«428615_j50182397886862_1_alg».proof.Proof.Gen.KernelIdeal.Frame
import proofs.«428615_j50182397886862_1_alg».proof.Proof.KRun
import proofs.«428615_j50182397886862_1_alg».proof.Proof.HostTerms
import proofs.«428615_j50182397886862_1_alg».proof.Proof.KPool
import proofs.«428615_j50182397886862_1_alg».proof.Proof.KHead
import Idealize.ShloMosaic.Lib.StableHlo.Run

set_option maxRecDepth 16384

noncomputable section

namespace Cert.KernelIdeal.Tail

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- From the fifth layer's output N at the boundary after region 4 to the result buffer at the last boundary. -/
theorem tail_eq (c : Dev nD) (N : FVec Ideal S100000x256 .f32)
    (hN : W10 m ρ c (Proc.devRef .tc main_v79) = N) :
    W14 m ρ c (Proc.devRef .tc main_v84)
      = Cert.Net.outSum (Cert.Net.pooled (m ((c : Thread nD τ).loc main_arg2)) N)
          (m ((c : Thread nD τ).loc main_arg18)) (m ((c : Thread nD τ).loc main_arg19)) (m ((c : Thread nD τ).loc main_arg20)) (m ((c : Thread nD τ).loc main_arg21)) := by
  -- what the pool region finds: the ids as a column, and the fifth layer's output untouched by the reshape
  have h80 : V11 m ρ c main_v80 = Cert.Net.idsOf (m ((c : Thread nD τ).loc main_arg2)) := by
    have e : StableHlo.after hostOps5 (W10 m ρ c) (Proc.devRef .tc main_v80)
        = Cert.Net.idsOf (W10 m ρ c (Proc.devRef .tc main_arg2)) := by
      after_results
      rfl
    exact e.trans (congrArg Cert.Net.idsOf (W10_main_arg2 m ρ c))
  have h79 : V11 m ρ c main_v79 = N :=
    (StableHlo.after_of_forall_not_mem (b := Proc.devRef .tc main_v79) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans hN
  -- so it leaves the per-graph sums of N, which the two bias reshapes do not touch
  have h81 : V13 m ρ c main_v81 = Cert.Net.pooled (m ((c : Thread nD τ).loc main_arg2)) N := by
    have e : W12 m ρ c (Proc.devRef .tc main_v81) = Cert.Net.pooled (m ((c : Thread nD τ).loc main_arg2)) N := by
      refine ((W12_arr m ρ c 2).trans (Cert.KernelIdeal.Pool.arr (V11 m ρ) c)).trans ?_
      rw [h80, h79]
      rfl
    exact (StableHlo.after_of_forall_not_mem (b := Proc.devRef .tc main_v81) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans e
  -- what the head region finds besides: the two weights as launched, the two biases as rows
  have h18 : V13 m ρ c main_arg18 = m ((c : Thread nD τ).loc main_arg18) := W13_main_arg18 m ρ c
  have h20 : V13 m ρ c main_arg20 = m ((c : Thread nD τ).loc main_arg20) := W13_main_arg20 m ρ c
  have h82 : V13 m ρ c main_v82 = Cert.Net.rowOf (m ((c : Thread nD τ).loc main_arg19)) := by
    have e : StableHlo.after hostOps6 (W12 m ρ c) (Proc.devRef .tc main_v82)
        = Cert.Net.rowOf (W12 m ρ c (Proc.devRef .tc main_arg19)) := by
      after_results
      rfl
    exact e.trans (congrArg Cert.Net.rowOf (W12_main_arg19 m ρ c))
  have h83 : V13 m ρ c main_v83 = Cert.Net.row2Of (m ((c : Thread nD τ).loc main_arg21)) := by
    have e : StableHlo.after hostOps6 (W12 m ρ c) (Proc.devRef .tc main_v83)
        = Cert.Net.row2Of (W12 m ρ c (Proc.devRef .tc main_arg21)) := by
      after_results
      rfl
    exact e.trans (congrArg Cert.Net.row2Of (W12_main_arg21 m ρ c))
  -- the head region's output array is the head's function of those five
  refine ((W14_arr m ρ c 5).trans (Cert.KernelIdeal.Head.arr (V13 m ρ) c)).trans ?_
  rw [h81, h18, h82, h20, h83]
  rfl

end Cert.KernelIdeal.Tail

end
-- ==== Proof.KChain.lean ====
/-
  The kernel program's result as the network's function of the argument arrays.

  The run alternates stretches of host operations with kernel regions.  No host operation and no region writes an
  argument array, so every argument is found as launched wherever it is read.  Before region k the host forms
  the neighbour sums of the current node features and reshapes the layer's bias to a row; the region then leaves
  the layer's output, which the next stretch reads.  After the fifth layer the graph ids are reshaped to a
  column, the pool region leaves the per-graph sums, two biases are reshaped to rows, and the head region leaves
  the result.
-/
import proofs.«428615_j50182397886862_1_alg».proof.Proof.Gen.KernelIdeal.Frame
import proofs.«428615_j50182397886862_1_alg».proof.Proof.KRun
import proofs.«428615_j50182397886862_1_alg».proof.Proof.HostTerms
import proofs.«428615_j50182397886862_1_alg».proof.Proof.KDense0
import proofs.«428615_j50182397886862_1_alg».proof.Proof.KDense1
import proofs.«428615_j50182397886862_1_alg».proof.Proof.KDense2
import proofs.«428615_j50182397886862_1_alg».proof.Proof.KDense3
import proofs.«428615_j50182397886862_1_alg».proof.Proof.KDense4
import proofs.«428615_j50182397886862_1_alg».proof.Proof.KPool
import proofs.«428615_j50182397886862_1_alg».proof.Proof.KHead
import proofs.«428615_j50182397886862_1_alg».proof.Proof.KTail
import Idealize.ShloMosaic.Lib.StableHlo.Run

set_option maxRecDepth 16384

noncomputable section

namespace Cert.KernelIdeal.Chain

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The node features after the five layers, of the arguments as launched. -/
abbrev nodes (c : Dev nD) : FVec Ideal S100000x256 .f32 :=
  Cert.Net.nodes5 (m ((c : Thread nD τ).loc main_arg0)) (m ((c : Thread nD τ).loc main_arg1))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))
    (m ((c : Thread nD τ).loc main_arg15)) (m ((c : Thread nD τ).loc main_arg16)) (m ((c : Thread nD τ).loc main_arg17))

/-- Equal arguments give equal values, for a function of five arguments. -/
theorem congr5 {α β γ δ ε ζ : Type} (f : α → β → γ → δ → ε → ζ) {a a' : α} {b b' : β} {g g' : γ} {d d' : δ} {e e' : ε}
    (h1 : a = a') (h2 : b = b') (h3 : g = g') (h4 : d = d') (h5 : e = e') : f a b g d e = f a' b' g' d' e' := by
  subst h1 h2 h3 h4 h5; rfl

/-! ## What each host stretch leaves, from any contents it finds

Reading the stretch's fold at the buffer of its last scatter-add gives the neighbour sums of the node features
and the edge list it found; at the buffer of its last reshape, the bias as a row; at the previous layer's output,
which it does not write, what was there. -/

section Host

variable (V : Valuation τ sig (Elt Ideal))

set_option maxHeartbeats 1000000 in
/-- Stretch 0: the neighbour sums it leaves, of the node features and the edge list it finds. -/
theorem host0_agg : StableHlo.after hostOps0 V (Proc.devRef .tc main_v13)
    = Cert.Net.agg14 (V (Proc.devRef .tc main_arg0)) (V (Proc.devRef .tc main_arg1)) := by
  after_results_simp
  rfl

set_option maxHeartbeats 1000000 in
/-- Stretch 0: the bias row it leaves, of the bias vector it finds. -/
theorem host0_row : StableHlo.after hostOps0 V (Proc.devRef .tc main_v14)
    = Cert.Net.rowOf (V (Proc.devRef .tc main_arg4)) := by
  after_results_simp
  rfl

set_option maxHeartbeats 1000000 in
/-- Stretch 1: the neighbour sums it leaves, of the node features and the edge list it finds. -/
theorem host1_agg : StableHlo.after hostOps1 V (Proc.devRef .tc main_v29)
    = Cert.Net.agg (V (Proc.devRef .tc main_v15)) (V (Proc.devRef .tc main_arg1)) := by
  after_results_simp
  rfl

set_option maxHeartbeats 1000000 in
/-- Stretch 1: the bias row it leaves, of the bias vector it finds. -/
theorem host1_row : StableHlo.after hostOps1 V (Proc.devRef .tc main_v30)
    = Cert.Net.rowOf (V (Proc.devRef .tc main_arg7)) := by
  after_results_simp
  rfl

set_option maxHeartbeats 1000000 in
/-- Stretch 1 writes no node features: the previous layer's output is as it was found. -/
theorem host1_keep : StableHlo.after hostOps1 V (Proc.devRef .tc main_v15) = V (Proc.devRef .tc main_v15) := by
  after_results_simp

set_option maxHeartbeats 1000000 in
/-- Stretch 2: the neighbour sums it leaves, of the node features and the edge list it finds. -/
theorem host2_agg : StableHlo.after hostOps2 V (Proc.devRef .tc main_v45)
    = Cert.Net.agg (V (Proc.devRef .tc main_v31)) (V (Proc.devRef .tc main_arg1)) := by
  after_results_simp
  rfl

set_option maxHeartbeats 1000000 in
/-- Stretch 2: the bias row it leaves, of the bias vector it finds. -/
theorem host2_row : StableHlo.after hostOps2 V (Proc.devRef .tc main_v46)
    = Cert.Net.rowOf (V (Proc.devRef .tc main_arg10)) := by
  after_results_simp
  rfl

set_option maxHeartbeats 1000000 in
/-- Stretch 2 writes no node features: the previous layer's output is as it was found. -/
theorem host2_keep : StableHlo.after hostOps2 V (Proc.devRef .tc main_v31) = V (Proc.devRef .tc main_v31) := by
  after_results_simp

set_option maxHeartbeats 1000000 in
/-- Stretch 3: the neighbour sums it leaves, of the node features and the edge list it finds. -/
theorem host3_agg : StableHlo.after hostOps3 V (Proc.devRef .tc main_v61)
    = Cert.Net.agg (V (Proc.devRef .tc main_v47)) (V (Proc.devRef .tc main_arg1)) := by
  after_results_simp
  rfl

set_option maxHeartbeats 1000000 in
/-- Stretch 3: the bias row it leaves, of the bias vector it finds. -/
theorem host3_row : StableHlo.after hostOps3 V (Proc.devRef .tc main_v62)
    = Cert.Net.rowOf (V (Proc.devRef .tc main_arg13)) := by
  after_results_simp
  rfl

set_option maxHeartbeats 1000000 in
/-- Stretch 3 writes no node features: the previous layer's output is as it was found. -/
theorem host3_keep : StableHlo.after hostOps3 V (Proc.devRef .tc main_v47) = V (Proc.devRef .tc main_v47) := by
  after_results_simp

set_option maxHeartbeats 1000000 in
/-- Stretch 4: the neighbour sums it leaves, of the node features and the edge list it finds. -/
theorem host4_agg : StableHlo.after hostOps4 V (Proc.devRef .tc main_v77)
    = Cert.Net.agg (V (Proc.devRef .tc main_v63)) (V (Proc.devRef .tc main_arg1)) := by
  after_results_simp
  rfl

set_option maxHeartbeats 1000000 in
/-- Stretch 4: the bias row it leaves, of the bias vector it finds. -/
theorem host4_row : StableHlo.after hostOps4 V (Proc.devRef .tc main_v78)
    = Cert.Net.rowOf (V (Proc.devRef .tc main_arg16)) := by
  after_results_simp
  rfl

set_option maxHeartbeats 1000000 in
/-- Stretch 4 writes no node features: the previous layer's output is as it was found. -/
theorem host4_keep : StableHlo.after hostOps4 V (Proc.devRef .tc main_v63) = V (Proc.devRef .tc main_v63) := by
  after_results_simp

end Host

/-! ## The layers' outputs, boundary by boundary -/

/-- The first layer's output, of the arguments as launched. -/
abbrev h1 (c : Dev nD) : FVec Ideal S100000x256 .f32 :=
  Cert.Net.layer1 (m ((c : Thread nD τ).loc main_arg0)) (m ((c : Thread nD τ).loc main_arg1)) (m ((c : Thread nD τ).loc main_arg3)) (m ((c : Thread nD τ).loc main_arg4)) (m ((c : Thread nD τ).loc main_arg5))
/-- The output of layer 2, of the arguments as launched. -/
abbrev h2 (c : Dev nD) : FVec Ideal S100000x256 .f32 :=
  Cert.Net.layer (h1 m c) (m ((c : Thread nD τ).loc main_arg1)) (m ((c : Thread nD τ).loc main_arg6)) (m ((c : Thread nD τ).loc main_arg7)) (m ((c : Thread nD τ).loc main_arg8))
/-- The output of layer 3, of the arguments as launched. -/
abbrev h3 (c : Dev nD) : FVec Ideal S100000x256 .f32 :=
  Cert.Net.layer (h2 m c) (m ((c : Thread nD τ).loc main_arg1)) (m ((c : Thread nD τ).loc main_arg9)) (m ((c : Thread nD τ).loc main_arg10)) (m ((c : Thread nD τ).loc main_arg11))
/-- The output of layer 4, of the arguments as launched. -/
abbrev h4 (c : Dev nD) : FVec Ideal S100000x256 .f32 :=
  Cert.Net.layer (h3 m c) (m ((c : Thread nD τ).loc main_arg1)) (m ((c : Thread nD τ).loc main_arg12)) (m ((c : Thread nD τ).loc main_arg13)) (m ((c : Thread nD τ).loc main_arg14))
/-- The output of layer 5, of the arguments as launched. -/
abbrev h5 (c : Dev nD) : FVec Ideal S100000x256 .f32 :=
  Cert.Net.layer (h4 m c) (m ((c : Thread nD τ).loc main_arg1)) (m ((c : Thread nD τ).loc main_arg15)) (m ((c : Thread nD τ).loc main_arg16)) (m ((c : Thread nD τ).loc main_arg17))

/-- After region 0 its output array holds the first layer's output: the region's value at the contents the
    first stretch leaves, whose aggregate and bias row are the host terms of the arguments as launched. -/
theorem out0 (c : Dev nD) : W2 m ρ c (Proc.devRef .tc main_v15) = h1 m c := by
  refine ((W2_arr m ρ c 5).trans (Cert.KernelIdeal.Dense0.arr (V1 m ρ) c)).trans ?_
  refine congr5 Cert.Spec.conv14 ?_ (W1_main_arg0 m ρ c) (W1_main_arg3 m ρ c) ?_ (W1_main_arg5 m ρ c)
  · exact (host0_agg (W0 m ρ c)).trans (congrArg₂ Cert.Net.agg14 (W0_main_arg0 m ρ c) (W0_main_arg1 m ρ c))
  · exact (host0_row (W0 m ρ c)).trans (congrArg Cert.Net.rowOf (W0_main_arg4 m ρ c))

/-- After region 1 its output array holds the output of layer 2. -/
theorem out1 (c : Dev nD) : W4 m ρ c (Proc.devRef .tc main_v31) = h2 m c := by
  refine ((W4_arr m ρ c 5).trans (Cert.KernelIdeal.Dense1.arr (V3 m ρ) c)).trans ?_
  refine congr5 Cert.Spec.conv ?_ ?_ (W3_main_arg6 m ρ c) ?_ (W3_main_arg8 m ρ c)
  · exact (host1_agg (W2 m ρ c)).trans (congrArg₂ Cert.Net.agg (out0 m ρ c) (W2_main_arg1 m ρ c))
  · exact (host1_keep (W2 m ρ c)).trans (out0 m ρ c)
  · exact (host1_row (W2 m ρ c)).trans (congrArg Cert.Net.rowOf (W2_main_arg7 m ρ c))

/-- After region 2 its output array holds the output of layer 3. -/
theorem out2 (c : Dev nD) : W6 m ρ c (Proc.devRef .tc main_v47) = h3 m c := by
  refine ((W6_arr m ρ c 5).trans (Cert.KernelIdeal.Dense2.arr (V5 m ρ) c)).trans ?_
  refine congr5 Cert.Spec.conv ?_ ?_ (W5_main_arg9 m ρ c) ?_ (W5_main_arg11 m ρ c)
  · exact (host2_agg (W4 m ρ c)).trans (congrArg₂ Cert.Net.agg (out1 m ρ c) (W4_main_arg1 m ρ c))
  · exact (host2_keep (W4 m ρ c)).trans (out1 m ρ c)
  · exact (host2_row (W4 m ρ c)).trans (congrArg Cert.Net.rowOf (W4_main_arg10 m ρ c))

/-- After region 3 its output array holds the output of layer 4. -/
theorem out3 (c : Dev nD) : W8 m ρ c (Proc.devRef .tc main_v63) = h4 m c := by
  refine ((W8_arr m ρ c 5).trans (Cert.KernelIdeal.Dense3.arr (V7 m ρ) c)).trans ?_
  refine congr5 Cert.Spec.conv ?_ ?_ (W7_main_arg12 m ρ c) ?_ (W7_main_arg14 m ρ c)
  · exact (host3_agg (W6 m ρ c)).trans (congrArg₂ Cert.Net.agg (out2 m ρ c) (W6_main_arg1 m ρ c))
  · exact (host3_keep (W6 m ρ c)).trans (out2 m ρ c)
  · exact (host3_row (W6 m ρ c)).trans (congrArg Cert.Net.rowOf (W6_main_arg13 m ρ c))

/-- After region 4 its output array holds the output of layer 5. -/
theorem out4 (c : Dev nD) : W10 m ρ c (Proc.devRef .tc main_v79) = h5 m c := by
  refine ((W10_arr m ρ c 5).trans (Cert.KernelIdeal.Dense4.arr (V9 m ρ) c)).trans ?_
  refine congr5 Cert.Spec.conv ?_ ?_ (W9_main_arg15 m ρ c) ?_ (W9_main_arg17 m ρ c)
  · exact (host4_agg (W8 m ρ c)).trans (congrArg₂ Cert.Net.agg (out3 m ρ c) (W8_main_arg1 m ρ c))
  · exact (host4_keep (W8 m ρ c)).trans (out3 m ρ c)
  · exact (host4_row (W8 m ρ c)).trans (congrArg Cert.Net.rowOf (W8_main_arg16 m ρ c))

/-- After region 4 its output array holds the node features after the five layers. -/
theorem nodes_eq (c : Dev nD) : W10 m ρ c (Proc.devRef .tc main_v79) = nodes m c := out4 m ρ c

/-- The result buffer at the last boundary of the run is the network's function of the arguments as launched
    (the log-softmax bracketed as l − (m + log Σ)). -/
theorem out_eq (c : Dev nD) :
    W14 m ρ c (Proc.devRef .tc main_v84)
      = Cert.Net.outSum (Cert.Net.pooled (m ((c : Thread nD τ).loc main_arg2)) (nodes m c))
          (m ((c : Thread nD τ).loc main_arg18)) (m ((c : Thread nD τ).loc main_arg19)) (m ((c : Thread nD τ).loc main_arg20)) (m ((c : Thread nD τ).loc main_arg21)) := by
  exact Cert.KernelIdeal.Tail.tail_eq m ρ c (nodes m c) (nodes_eq m ρ c)

end Cert.KernelIdeal.Chain

end
-- ==== Proof.RefPool.lean ====
/-
  The reference's per-graph sum is a scatter-add of the node features' rows into a zero array by the graph ids:
  entry (g, q) is zero plus the sum of the update entries (n, c) that land on (g, q), and (n, c) lands on
  (id n, c) when 0 ≤ id n < 2048 (the id read as a signed integer) and nowhere otherwise.  So entry (g, q) is the
  sum over the nodes n whose id is g of h(n, q).
-/
import proofs.«428615_j50182397886862_1_alg».proof.ReferenceIdeal
import proofs.«428615_j50182397886862_1_alg».proof.Proof.Gen.ReferenceIdeal
import proofs.«428615_j50182397886862_1_alg».proof.Proof.HostTerms
import Idealize.ShloMosaic.Lib.Pipeline.Value

set_option maxRecDepth 16384

noncomputable section

open scoped BigOperators

namespace Cert.ReferenceIdeal.RefPool

open Idealize.ShloMosaic Idealize.ShloMosaic.ValueIdx
open Cert.ReferenceIdeal Cert.ReferenceIdeal.Facts₀ Cert.ReferenceIdeal.Facts

/-- The scatter's dimension numbers: update axis 1 is the window axis, operand axis 0 is inserted and is the axis
    the index names, the index vector lies along axis 1 of the index array. -/
abbrev D := scatter_S2048x256_S100000x1_S100000x256_1_0_0_1

/-! ## The dimension numbers read at an update index (n, c) -/

/-- Update index (n, c) reads its start index at row n of the index column. -/
theorem siIdx_eq (n : Fin 100000) (c : Fin 256) (k : Fin D.scatterDimsToOperandDims.length) :
    D.siIdx (ix2 n c) k = ix2 n 0 := by
  funext b
  match b with
  | ⟨0, _⟩ => exact Fin.ext rfl
  | ⟨1, _⟩ =>
    apply Fin.ext
    have := k.isLt
    show k.val = 0
    have h : D.scatterDimsToOperandDims.length = 1 := rfl
    omega

/-- On operand axis 0 the window starts at the index word of row n, read as a signed integer. -/
theorem start_zero (n : Fin 100000) (c : Fin 256) (idx : IVec S100000x1 32) :
    D.start (ix2 n c) idx 0 = (idx (ix2 n 0)).toInt := by
  unfold ScatterDims.start
  have h : (0 : Fin S2048x256.rank) ∈ D.scatterDimsToOperandDims := List.mem_singleton.2 rfl
  rw [dif_pos h, siIdx_eq]

/-- On operand axis 1 the window starts at 0. -/
theorem start_one (n : Fin 100000) (c : Fin 256) (idx : IVec S100000x1 32) :
    D.start (ix2 n c) idx 1 = 0 := by
  unfold ScatterDims.start
  have h : ¬ (1 : Fin S2048x256.rank) ∈ D.scatterDimsToOperandDims := by
    show ¬ (1 : Fin 2) ∈ [(0 : Fin 2)]
    decide
  rw [dif_neg h]

/-- The window coordinate on the inserted axis 0 is 0. -/
theorem window_zero (n : Fin 100000) (c : Fin 256) : D.window (ix2 n c) 0 = 0 := by
  unfold ScatterDims.window
  have h : ¬ (0 : Fin S2048x256.rank) ∈ D.sKept := by
    show ¬ (0 : Fin 2) ∈ [(1 : Fin 2)]
    decide
  rw [dif_neg h]

/-- The window coordinate on axis 1 is the update's column c. -/
theorem window_one (n : Fin 100000) (c : Fin 256) : D.window (ix2 n c) 1 = c.val := by
  unfold ScatterDims.window
  have h : (1 : Fin S2048x256.rank) ∈ D.sKept := by
    show (1 : Fin 2) ∈ [(1 : Fin 2)]
    decide
  rw [dif_pos h]
  rfl

/-! ## Where an update lands -/

/-- An update index lands on operand index i exactly when start plus window coordinate is i's coordinate on
    every axis: the sum is then inside the operand, and outside it the update is dropped. -/
theorem resultIdx?_eq_some_iff_forall {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro e a
      have e' := Option.some.inj e
      have e2 : (d.start j idx a + (d.window j a : Int)).toNat = (i a).val := congrArg (fun f => (f a).val) e'
      have := h a
      omega
    · intro e
      refine congrArg some (funext fun a => Fin.ext ?_)
      show (d.start j idx a + (d.window j a : Int)).toNat = (i a).val
      have := e a
      omega
  · rename_i h
    constructor
    · intro e; cases e
    · intro e
      exfalso
      apply h
      intro a
      have := e a
      have := (i a).isLt
      omega

/-- A 32-bit word read signed is the natural number g < 2048 exactly when it is the word of g. -/
theorem toInt_eq_iff (x : BitVec 32) (g : Nat) (hg : g < 2048) : x.toInt = (g : Int) ↔ x = BitVec.ofNat 32 g := by
  have h1 : (BitVec.ofNat 32 g).toNat = g := by rw [BitVec.toNat_ofNat]; omega
  have h2 : (BitVec.ofNat 32 g).toInt = (g : Int) := by
    rw [BitVec.toInt_eq_toNat_of_lt (by rw [h1]; omega), h1]
  constructor
  · intro h; apply BitVec.eq_of_toInt_eq; rw [h, h2]
  · intro h; rw [h, h2]

/-- Update (n, c) lands on (g, q) exactly when node n's id is the word of g and c = q. -/
theorem resultIdx?_eq_some_iff (n : Fin 100000) (c : Fin 256) (idx : IVec S100000x1 32) (g : Fin 2048) (q : Fin 256) :
    D.resultIdx? (ix2 n c) idx = some (ix2 g q) ↔ (idx (ix2 n 0) = BitVec.ofNat 32 g.val ∧ c = q) := by
  rw [resultIdx?_eq_some_iff_forall, Fin.forall_fin_two, start_zero, start_one, window_zero, window_one,
    ← toInt_eq_iff _ _ g.isLt]
  show ((idx (ix2 n 0)).toInt + ((0 : Nat) : Int) = (g.val : Int) ∧ (0 : Int) + (c.val : Int) = (q.val : Int)) ↔ _
  constructor
  · rintro ⟨h0, h1⟩; exact ⟨by omega, Fin.ext (by omega)⟩
  · rintro ⟨h0, rfl⟩; exact ⟨by omega, by omega⟩

/-! ## The id column, either way it is made -/

/-- The ids broadcast to a column read at row n are the id of node n. -/
theorem ids_bcast (B : IVec S100000 32) (n : Fin 100000) :
    broadcastInDim S100000x1 ![0] bcast_S100000_S100000x1_0 B (ix2 n 0) = B (ix1 n) :=
  broadcastInDim_apply _ bcast_S100000_S100000x1_0 B (ix2 n 0) (ix1 n) (fun a => match a with
    | ⟨0, _⟩ => by show n.val = if (100000 : Nat) = 1 then 0 else n.val; rw [if_neg (by decide)])

/-- The ids reshaped to a column read at row n are the id of node n: both have row-major position n. -/
theorem ids_cast (B : IVec S100000 32) (n : Fin 100000) : Cert.Net.idsOf B (ix2 n 0) = B (ix1 n) := by
  unfold Cert.Net.idsOf
  refine shapeCast_apply B _ (ix2 n 0) (ix1 n) ?_
  rw [Shape.rowMajor_val_one, Shape.rowMajor_val_two]
  show n.val = n.val * 1 + 0
  omega

/-! ## The per-graph sum -/

/-- The reference's scatter-add of the node features by graph id is the per-graph sum. -/
theorem pool_eq (B : IVec S100000 32) (H : FVec Ideal S100000x256 .f32) :
    Host.scatterAdd (F := Ideal) scatter_S2048x256_S100000x1_S100000x256_1_0_0_1
        (broadcastInDim S2048x256 ![] bcast_S_S2048x256 (constant (F := Ideal) S_ .f32 0x00000000#32))
        (broadcastInDim S100000x1 ![0] bcast_S100000_S100000x1_0 B) H
      = Cert.Net.pooled B H := by
  funext i
  obtain ⟨g, q, rfl⟩ : ∃ (g : Fin 2048) (q : Fin 256), i = ix2 g q := ⟨i 0, i 1, eq_ix2 i⟩
  -- entry (g, q): the zero entry plus the sum of the updates that land on (g, q)
  show Ideal.ofBits .f32 0x00000000#32
      + ∑ j ∈ Finset.univ.filter (fun j => D.resultIdx? j (broadcastInDim S100000x1 ![0] bcast_S100000_S100000x1_0 B) = some (ix2 g q)), H j
    = Cert.Spec.poolAt (Cert.Net.idsOf B) H g q
  -- the filtered sum as a sum of indicators over nodes n and columns c
  rw [Ideal.ofBits_zero_f32, zero_add, Finset.sum_filter, sum_idx2]
  unfold Cert.Spec.poolAt
  refine Finset.sum_congr rfl fun n _ => ?_
  have key : ∀ c : Fin 256,
      D.resultIdx? (ix2 n c) (broadcastInDim S100000x1 ![0] bcast_S100000_S100000x1_0 B) = some (ix2 g q)
        ↔ (Cert.Net.idsOf B (ix2 n 0) = BitVec.ofNat 32 g.val ∧ c = q) := fun c => by
    rw [resultIdx?_eq_some_iff, ids_bcast, ids_cast]
  -- node n contributes h(n, q) when its id is g (the column sum collapses to c = q), and nothing otherwise
  by_cases hP : Cert.Net.idsOf B (ix2 n 0) = BitVec.ofNat 32 g.val
  · rw [if_pos hP,
      Finset.sum_eq_single q (fun c _ hc => if_neg fun h => hc ((key c).1 h).2) (fun h => absurd (Finset.mem_univ q) h),
      if_pos ((key q).2 ⟨hP, rfl⟩)]
  · rw [if_neg hP]
    exact Finset.sum_eq_zero fun c _ => if_neg fun h => hP ((key c).1 h).1

end Cert.ReferenceIdeal.RefPool

end
-- ==== Proof.RefLayers.lean ====
/-
  The reference's neighbour sums as the network's: the edges' source ids, a negative one wrapped by the node
  count, pick the rows that are gathered, and each gathered row is added into the row its edge's destination id
  names, starting from the zero array.  The reference's records of the dimension numbers carry the same numbers
  as the network's, so the two terms are one term.
-/
import proofs.«428615_j50182397886862_1_alg».proof.ReferenceIdeal
import proofs.«428615_j50182397886862_1_alg».proof.Proof.Gen.ReferenceIdeal
import proofs.«428615_j50182397886862_1_alg».proof.Proof.HostTerms
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.Layers

open Idealize.ShloMosaic Idealize.ShloMosaic.ValueIdx
open Cert.ReferenceIdeal Cert.ReferenceIdeal.Facts₀ Cert.ReferenceIdeal.Facts

/-- The reference's neighbour sums of 14-wide node features are the network's. -/
theorem agg14_eq (X : FVec Ideal S100000x14 .f32) (E : IVec S2x300000 32) :
    Host.scatterAdd (F := Ideal) scatter_S100000x14_S300000x1_S300000x14_1_0_0_1
        (broadcastInDim S100000x14 ![] bcast_S_S100000x14 (constant (F := Ideal) S_ .f32 0x00000000#32))
        (broadcastInDim S300000x1 ![0] bcast_S300000_S300000x1_0
        (shapeCast S300000 (extractStridedSlice S1x300000 ![1, 0] E slices_S2x300000_S1x300000_1_0) shapeCasts_S1x300000_S300000))
        (Host.gather gather_S100000x14_S300000x1_S300000x14_1_0_n_n_0_1_114 X
          (broadcastInDim S300000x1 ![0] bcast_S300000_S300000x1_0
          (select
            (cmpi .slt (shapeCast S300000 (extractStridedSlice S1x300000 ![0, 0] E slices_S2x300000_S1x300000_0_0) shapeCasts_S1x300000_S300000)
              (broadcastInDim S300000 ![] bcast_S_S300000 (constantI S_ 32 0#32)))
            (addi (shapeCast S300000 (extractStridedSlice S1x300000 ![0, 0] E slices_S2x300000_S1x300000_0_0) shapeCasts_S1x300000_S300000)
              (broadcastInDim S300000 ![] bcast_S_S300000 (constantI S_ 32 100000#32)))
            (shapeCast S300000 (extractStridedSlice S1x300000 ![0, 0] E slices_S2x300000_S1x300000_0_0) shapeCasts_S1x300000_S300000))))
      = Cert.Net.agg14 X E := rfl

/-- The reference's neighbour sums of 256-wide node features are the network's. -/
theorem agg_eq (X : FVec Ideal S100000x256 .f32) (E : IVec S2x300000 32) :
    Host.scatterAdd (F := Ideal) scatter_S100000x256_S300000x1_S300000x256_1_0_0_1
        (broadcastInDim S100000x256 ![] bcast_S_S100000x256 (constant (F := Ideal) S_ .f32 0x00000000#32))
        (broadcastInDim S300000x1 ![0] bcast_S300000_S300000x1_0
        (shapeCast S300000 (extractStridedSlice S1x300000 ![1, 0] E slices_S2x300000_S1x300000_1_0) shapeCasts_S1x300000_S300000))
        (Host.gather gather_S100000x256_S300000x1_S300000x256_1_0_n_n_0_1_1256 X
          (broadcastInDim S300000x1 ![0] bcast_S300000_S300000x1_0
          (select
            (cmpi .slt (shapeCast S300000 (extractStridedSlice S1x300000 ![0, 0] E slices_S2x300000_S1x300000_0_0) shapeCasts_S1x300000_S300000)
              (broadcastInDim S300000 ![] bcast_S_S300000 (constantI S_ 32 0#32)))
            (addi (shapeCast S300000 (extractStridedSlice S1x300000 ![0, 0] E slices_S2x300000_S1x300000_0_0) shapeCasts_S1x300000_S300000)
              (broadcastInDim S300000 ![] bcast_S_S300000 (constantI S_ 32 100000#32)))
            (shapeCast S300000 (extractStridedSlice S1x300000 ![0, 0] E slices_S2x300000_S1x300000_0_0) shapeCasts_S1x300000_S300000))))
      = Cert.Net.agg X E := rfl

end Cert.ReferenceIdeal.Layers

end
-- ==== Proof.RefConv.lean ====
/-
  One GraphConv layer as the reference computes it: a dot_general is the sum over the contracted axis of the
  products, the bias read at the column, relu the maximum with zero.
-/
import proofs.«428615_j50182397886862_1_alg».proof.ReferenceIdeal
import proofs.«428615_j50182397886862_1_alg».proof.Proof.Gen.ReferenceIdeal
import proofs.«428615_j50182397886862_1_alg».proof.Proof.HostTerms
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.RefConv

open Idealize.ShloMosaic Idealize.ShloMosaic.ValueIdx
open Cert.ReferenceIdeal Cert.ReferenceIdeal.Facts₀ Cert.ReferenceIdeal.Facts

/-! ## A dot_general of the node array with a weight matrix, entry by entry -/

/-- In the product's left factor the row is the output entry's row … -/
theorem lhs_rows (i : S100000x256.Idx) (q : dot_S100000x256_S256x256_S100000x256_1_0_0_1_n_n.contr.Idx) :
    (dot_S100000x256_S256x256_S100000x256_1_0_0_1_n_n.lhsIdx i q 0).val = (i 0).val := by
  unfold DotDims.lhsIdx
  rw [dif_neg (show ¬(0 : Fin S100000x256.rank) ∈ dot_S100000x256_S256x256_S100000x256_1_0_0_1_n_n.lhsBatch by decide), dif_pos (show (0 : Fin S100000x256.rank) ∈ dot_S100000x256_S256x256_S100000x256_1_0_0_1_n_n.lhsNonContracting by decide)]
  rfl
/-- … and the column is the summation coordinate. -/
theorem lhs_contr (i : S100000x256.Idx) (q : dot_S100000x256_S256x256_S100000x256_1_0_0_1_n_n.contr.Idx) :
    (dot_S100000x256_S256x256_S100000x256_1_0_0_1_n_n.lhsIdx i q 1).val = (q ⟨0, by decide⟩).val :=
  dot_S100000x256_S256x256_S100000x256_1_0_0_1_n_n.lhsIdx_val_of_single rfl i q
/-- In the right factor the row is the summation coordinate … -/
theorem rhs_contr (i : S100000x256.Idx) (q : dot_S100000x256_S256x256_S100000x256_1_0_0_1_n_n.contr.Idx) :
    (dot_S100000x256_S256x256_S100000x256_1_0_0_1_n_n.rhsIdx i q 0).val = (q ⟨0, by decide⟩).val :=
  dot_S100000x256_S256x256_S100000x256_1_0_0_1_n_n.rhsIdx_val_of_single rfl i q
/-- … and the column is the output entry's column. -/
theorem rhs_cols (i : S100000x256.Idx) (q : dot_S100000x256_S256x256_S100000x256_1_0_0_1_n_n.contr.Idx) :
    (dot_S100000x256_S256x256_S100000x256_1_0_0_1_n_n.rhsIdx i q 1).val = (i 1).val := by
  unfold DotDims.rhsIdx
  rw [dif_neg (show ¬(1 : Fin S256x256.rank) ∈ dot_S100000x256_S256x256_S100000x256_1_0_0_1_n_n.rhsBatch by decide), dif_pos (show (1 : Fin S256x256.rank) ∈ dot_S100000x256_S256x256_S100000x256_1_0_0_1_n_n.rhsNonContracting by decide)]
  rfl

/-- Entry (p, q) of a [100000,256] array times a [256,256] matrix: the sum over the 256 shared coordinates of the products. -/
theorem dot_apply (L : FVec Ideal S100000x256 .f32) (R : FVec Ideal S256x256 .f32) (p : Fin 100000) (q : Fin 256) :
    Host.dotGeneral dot_S100000x256_S256x256_S100000x256_1_0_0_1_n_n none L R (ix2 p q) = ∑ k : Fin 256, L (ix2 p k) * R (ix2 k q) := by
  simp only [Host.dotGeneral]
  rw [Ideal.dotGeneral_apply, ← Equiv.sum_comp (ValueIdx.contrEquiv1 dot_S100000x256_S256x256_S100000x256_1_0_0_1_n_n 256 rfl rfl).symm]
  refine Finset.sum_congr rfl fun k _ => ?_
  have hk := ValueIdx.contrEquiv1_symm_val dot_S100000x256_S256x256_S100000x256_1_0_0_1_n_n 256 rfl rfl k
  have el : dot_S100000x256_S256x256_S100000x256_1_0_0_1_n_n.lhsIdx (ix2 p q) ((ValueIdx.contrEquiv1 dot_S100000x256_S256x256_S100000x256_1_0_0_1_n_n 256 rfl rfl).symm k) = ix2 p k := funext fun a => Fin.ext (by
    match a with
    | ⟨0, _⟩ => exact lhs_rows _ _
    | ⟨1, _⟩ => exact (lhs_contr _ _).trans hk)
  have er : dot_S100000x256_S256x256_S100000x256_1_0_0_1_n_n.rhsIdx (ix2 p q) ((ValueIdx.contrEquiv1 dot_S100000x256_S256x256_S100000x256_1_0_0_1_n_n 256 rfl rfl).symm k) = ix2 k q := funext fun a => Fin.ext (by
    match a with
    | ⟨0, _⟩ => exact (rhs_contr _ _).trans hk
    | ⟨1, _⟩ => exact rhs_cols _ _)
  rw [el, er]

/-- In the product's left factor the row is the output entry's row … -/
theorem lhs_rows14 (i : S100000x256.Idx) (q : dot_S100000x14_S14x256_S100000x256_1_0_0_1_n_n.contr.Idx) :
    (dot_S100000x14_S14x256_S100000x256_1_0_0_1_n_n.lhsIdx i q 0).val = (i 0).val := by
  unfold DotDims.lhsIdx
  rw [dif_neg (show ¬(0 : Fin S100000x14.rank) ∈ dot_S100000x14_S14x256_S100000x256_1_0_0_1_n_n.lhsBatch by decide), dif_pos (show (0 : Fin S100000x14.rank) ∈ dot_S100000x14_S14x256_S100000x256_1_0_0_1_n_n.lhsNonContracting by decide)]
  rfl
/-- … and the column is the summation coordinate. -/
theorem lhs_contr14 (i : S100000x256.Idx) (q : dot_S100000x14_S14x256_S100000x256_1_0_0_1_n_n.contr.Idx) :
    (dot_S100000x14_S14x256_S100000x256_1_0_0_1_n_n.lhsIdx i q 1).val = (q ⟨0, by decide⟩).val :=
  dot_S100000x14_S14x256_S100000x256_1_0_0_1_n_n.lhsIdx_val_of_single rfl i q
/-- In the right factor the row is the summation coordinate … -/
theorem rhs_contr14 (i : S100000x256.Idx) (q : dot_S100000x14_S14x256_S100000x256_1_0_0_1_n_n.contr.Idx) :
    (dot_S100000x14_S14x256_S100000x256_1_0_0_1_n_n.rhsIdx i q 0).val = (q ⟨0, by decide⟩).val :=
  dot_S100000x14_S14x256_S100000x256_1_0_0_1_n_n.rhsIdx_val_of_single rfl i q
/-- … and the column is the output entry's column. -/
theorem rhs_cols14 (i : S100000x256.Idx) (q : dot_S100000x14_S14x256_S100000x256_1_0_0_1_n_n.contr.Idx) :
    (dot_S100000x14_S14x256_S100000x256_1_0_0_1_n_n.rhsIdx i q 1).val = (i 1).val := by
  unfold DotDims.rhsIdx
  rw [dif_neg (show ¬(1 : Fin S14x256.rank) ∈ dot_S100000x14_S14x256_S100000x256_1_0_0_1_n_n.rhsBatch by decide), dif_pos (show (1 : Fin S14x256.rank) ∈ dot_S100000x14_S14x256_S100000x256_1_0_0_1_n_n.rhsNonContracting by decide)]
  rfl

/-- Entry (p, q) of a [100000,14] array times a [14,256] matrix: the sum over the 14 shared coordinates of the products. -/
theorem dot14_apply (L : FVec Ideal S100000x14 .f32) (R : FVec Ideal S14x256 .f32) (p : Fin 100000) (q : Fin 256) :
    Host.dotGeneral dot_S100000x14_S14x256_S100000x256_1_0_0_1_n_n none L R (ix2 p q) = ∑ k : Fin 14, L (ix2 p k) * R (ix2 k q) := by
  simp only [Host.dotGeneral]
  rw [Ideal.dotGeneral_apply, ← Equiv.sum_comp (ValueIdx.contrEquiv1 dot_S100000x14_S14x256_S100000x256_1_0_0_1_n_n 14 rfl rfl).symm]
  refine Finset.sum_congr rfl fun k _ => ?_
  have hk := ValueIdx.contrEquiv1_symm_val dot_S100000x14_S14x256_S100000x256_1_0_0_1_n_n 14 rfl rfl k
  have el : dot_S100000x14_S14x256_S100000x256_1_0_0_1_n_n.lhsIdx (ix2 p q) ((ValueIdx.contrEquiv1 dot_S100000x14_S14x256_S100000x256_1_0_0_1_n_n 14 rfl rfl).symm k) = ix2 p k := funext fun a => Fin.ext (by
    match a with
    | ⟨0, _⟩ => exact lhs_rows14 _ _
    | ⟨1, _⟩ => exact (lhs_contr14 _ _).trans hk)
  have er : dot_S100000x14_S14x256_S100000x256_1_0_0_1_n_n.rhsIdx (ix2 p q) ((ValueIdx.contrEquiv1 dot_S100000x14_S14x256_S100000x256_1_0_0_1_n_n 14 rfl rfl).symm k) = ix2 k q := funext fun a => Fin.ext (by
    match a with
    | ⟨0, _⟩ => exact (rhs_contr14 _ _).trans hk
    | ⟨1, _⟩ => exact rhs_cols14 _ _)
  rw [el, er]

/-! ## The bias repeated down the rows, and the zero array, at an entry -/

/-- The bias vector made a one-row matrix and repeated over the 100000 rows reads, at (p, q), the vector at q. -/
theorem bias_apply (b : FVec Ideal S256 .f32) (p : Fin 100000) (q : Fin 256) :
    broadcastInDim S100000x256 ![0, 1] bcast_S1x256_S100000x256_0_1 (broadcastInDim S1x256 ![1] bcast_S256_S1x256_1 b) (ix2 p q)
      = b (ix1 q) := by
  refine (broadcastInDim_apply _ bcast_S1x256_S100000x256_0_1 _ (ix2 p q) (ix2 (0 : Fin 1) q) (fun a => match a with
    | ⟨0, _⟩ => by show 0 = if (1 : Nat) = 1 then 0 else p.val; rw [if_pos rfl]
    | ⟨1, _⟩ => by show q.val = if (256 : Nat) = 1 then 0 else q.val; rw [if_neg (by decide)])).trans ?_
  exact broadcastInDim_apply _ bcast_S256_S1x256_1 b (ix2 (0 : Fin 1) q) (ix1 q) (fun a => match a with
    | ⟨0, _⟩ => by show q.val = if (256 : Nat) = 1 then 0 else q.val; rw [if_neg (by decide)])

/-- The bias vector as a one-row matrix reads, at (0, q), the vector at q. -/
theorem rowOf_apply (b : FVec Ideal S256 .f32) (q : Fin 256) : Cert.Net.rowOf b (ix2 (0 : Fin 1) q) = b (ix1 q) := by
  unfold Cert.Net.rowOf
  exact shapeCast_a_1a_apply b _ 0 q

/-! ## The layer -/

/-- The reference's operations for one GraphConv layer on 256 input features — two dot_generals, the bias
    broadcast over the rows, two additions, the maximum with the zero array — are relu(A·W + b + X·R) entry by entry. -/
theorem conv_eq (A X : FVec Ideal S100000x256 .f32) (W R : FVec Ideal S256x256 .f32) (b : FVec Ideal S256 .f32) :
    maximumf
        (addf
          (addf (Host.dotGeneral dot_S100000x256_S256x256_S100000x256_1_0_0_1_n_n none A W)
            (broadcastInDim S100000x256 ![0, 1] bcast_S1x256_S100000x256_0_1 (broadcastInDim S1x256 ![1] bcast_S256_S1x256_1 b)))
          (Host.dotGeneral dot_S100000x256_S256x256_S100000x256_1_0_0_1_n_n none X R))
        (broadcastInDim S100000x256 ![] bcast_S_S100000x256 (constant (F := Ideal) S_ .f32 0x00000000#32))
      = Cert.Spec.conv A X W (Cert.Net.rowOf b) R := by
  funext i
  obtain ⟨p, q, rfl⟩ : ∃ (p : Fin 100000) (q : Fin 256), i = ix2 p q := ⟨i 0, i 1, eq_ix2 i⟩
  rw [maximumf_apply, addf_apply, addf_apply, dot_apply, dot_apply, bias_apply]
  show max _ (Ideal.ofBits .f32 0x00000000#32) = Cert.Spec.convAt A X W (Cert.Net.rowOf b) R p q
  rw [Ideal.ofBits_zero_f32]
  unfold Cert.Spec.convAt
  rw [rowOf_apply]

/-- The reference's operations for one GraphConv layer on 14 input features — two dot_generals, the bias
    broadcast over the rows, two additions, the maximum with the zero array — are relu(A·W + b + X·R) entry by entry. -/
theorem conv14_eq (A X : FVec Ideal S100000x14 .f32) (W R : FVec Ideal S14x256 .f32) (b : FVec Ideal S256 .f32) :
    maximumf
        (addf
          (addf (Host.dotGeneral dot_S100000x14_S14x256_S100000x256_1_0_0_1_n_n none A W)
            (broadcastInDim S100000x256 ![0, 1] bcast_S1x256_S100000x256_0_1 (broadcastInDim S1x256 ![1] bcast_S256_S1x256_1 b)))
          (Host.dotGeneral dot_S100000x14_S14x256_S100000x256_1_0_0_1_n_n none X R))
        (broadcastInDim S100000x256 ![] bcast_S_S100000x256 (constant (F := Ideal) S_ .f32 0x00000000#32))
      = Cert.Spec.conv14 A X W (Cert.Net.rowOf b) R := by
  funext i
  obtain ⟨p, q, rfl⟩ : ∃ (p : Fin 100000) (q : Fin 256), i = ix2 p q := ⟨i 0, i 1, eq_ix2 i⟩
  rw [maximumf_apply, addf_apply, addf_apply, dot14_apply, dot14_apply, bias_apply]
  show max _ (Ideal.ofBits .f32 0x00000000#32) = Cert.Spec.conv14At A X W (Cert.Net.rowOf b) R p q
  rw [Ideal.ofBits_zero_f32]
  unfold Cert.Spec.conv14At
  rw [rowOf_apply]

end Cert.ReferenceIdeal.RefConv

end
-- ==== Proof.RefHead.lean ====
/-
  The head as the reference computes it: relu(G·W1 + b1)·W2 + b2, then the log-softmax: the row maximum m (a
  max-reduce from −∞, then the maximum with −∞ once more), the shifted logits l − m, and the result
  (l − m) − log Σ exp(l − m).
-/
import proofs.«428615_j50182397886862_1_alg».proof.ReferenceIdeal
import proofs.«428615_j50182397886862_1_alg».proof.Proof.Gen.ReferenceIdeal
import proofs.«428615_j50182397886862_1_alg».proof.Proof.HostTerms
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.RefHead

open Idealize.ShloMosaic Idealize.ShloMosaic.ValueIdx
open Cert.ReferenceIdeal Cert.ReferenceIdeal.Facts₀ Cert.ReferenceIdeal.Facts

/-- The reference's logits relu(G·W1 + b1)·W2 + b2. -/
def logits (G : FVec Ideal S2048x256 .f32) (l1 : FVec Ideal S256x256 .f32) (c1 : FVec Ideal S256 .f32)
    (l2 : FVec Ideal S256x2 .f32) (c2 : FVec Ideal S2 .f32) : FVec Ideal S2048x2 .f32 :=
  addf
    (Host.dotGeneral dot_S2048x256_S256x2_S2048x2_1_0_0_1_n_n none
      (maximumf
        (addf (Host.dotGeneral dot_S2048x256_S256x256_S2048x256_1_0_0_1_n_n none G l1)
          (broadcastInDim S2048x256 ![0, 1] bcast_S1x256_S2048x256_0_1 (broadcastInDim S1x256 ![1] bcast_S256_S1x256_1 c1)))
        (broadcastInDim S2048x256 ![] bcast_S_S2048x256 (constant (F := Ideal) S_ .f32 0x00000000#32)))
      l2)
    (broadcastInDim S2048x2 ![0, 1] bcast_S1x2_S2048x2_0_1 (broadcastInDim S1x2 ![1] bcast_S2_S1x2_1 c2))

/-- The logits less their row maximum. -/
def shifted (L : FVec Ideal S2048x2 .f32) : FVec Ideal S2048x2 .f32 :=
  subf L
    (broadcastInDim S2048x2 ![0, 1] bcast_S2048x1_S2048x2_0_1
      (broadcastInDim S2048x1 ![0] bcast_S2048_S2048x1_0
        (maximumf (broadcastInDim S2048 ![] bcast_S_S2048 (constant (F := Ideal) S_ .f32 0xFF800000#32))
          (Host.reduce FloatOps.maximumf L (constant (F := Ideal) S_ .f32 0xFF800000#32) reducesTo_S2048x2_S2048_d1 h_S_))))

/-- The reference's log-softmax of the logits. -/
def logSoftmax (L : FVec Ideal S2048x2 .f32) : FVec Ideal S2048x2 .f32 :=
  subf (shifted L)
    (broadcastInDim S2048x2 ![0, 1] bcast_S2048x1_S2048x2_0_1
      (Host.log
        (broadcastInDim S2048x1 ![0] bcast_S2048_S2048x1_0
          (Host.reduceAdd (Host.exp (shifted L)) (constant (F := Ideal) S_ .f32 0x00000000#32) reducesTo_S2048x2_S2048_d1 h_S_))))

/-! ## Broadcasts read at an index -/

/-- A 256-vector broadcast to a row and then over the 2048 rows reads, at (g, q), the vector at q. -/
theorem bias1_apply (c1 : FVec Ideal S256 .f32) (g : Fin 2048) (q : Fin 256) :
    broadcastInDim S2048x256 ![0, 1] bcast_S1x256_S2048x256_0_1 (broadcastInDim S1x256 ![1] bcast_S256_S1x256_1 c1) (ix2 g q)
      = c1 (ix1 q) := by
  refine (broadcastInDim_apply _ bcast_S1x256_S2048x256_0_1 _ (ix2 g q) (ix2 (0 : Fin 1) q) (fun a => match a with
    | ⟨0, _⟩ => by show 0 = if (1 : Nat) = 1 then 0 else g.val; rw [if_pos rfl]
    | ⟨1, _⟩ => by show q.val = if (256 : Nat) = 1 then 0 else q.val; rw [if_neg (by decide)])).trans ?_
  exact broadcastInDim_apply _ bcast_S256_S1x256_1 c1 (ix2 (0 : Fin 1) q) (ix1 q) (fun a => match a with
    | ⟨0, _⟩ => by show q.val = if (256 : Nat) = 1 then 0 else q.val; rw [if_neg (by decide)])

/-- A 2-vector broadcast to a row and then over the 2048 rows reads, at (g, c), the vector at c. -/
theorem bias2_apply (c2 : FVec Ideal S2 .f32) (g : Fin 2048) (c : Fin 2) :
    broadcastInDim S2048x2 ![0, 1] bcast_S1x2_S2048x2_0_1 (broadcastInDim S1x2 ![1] bcast_S2_S1x2_1 c2) (ix2 g c)
      = c2 (ix1 c) := by
  refine (broadcastInDim_apply _ bcast_S1x2_S2048x2_0_1 _ (ix2 g c) (ix2 (0 : Fin 1) c) (fun a => match a with
    | ⟨0, _⟩ => by show 0 = if (1 : Nat) = 1 then 0 else g.val; rw [if_pos rfl]
    | ⟨1, _⟩ => by show c.val = if (2 : Nat) = 1 then 0 else c.val; rw [if_neg (by decide)])).trans ?_
  exact broadcastInDim_apply _ bcast_S2_S1x2_1 c2 (ix2 (0 : Fin 1) c) (ix1 c) (fun a => match a with
    | ⟨0, _⟩ => by show c.val = if (2 : Nat) = 1 then 0 else c.val; rw [if_neg (by decide)])

/-- A scalar broadcast to any shape reads the scalar everywhere. -/
theorem splat_apply {t : Shape} (h : S_.BroadcastsInDim t (![] : Fin 0 → Fin t.rank)) (x : FVec Ideal S_ .f32) (i : t.Idx)
    (z : S_.Idx) : broadcastInDim t ![] h x i = x z :=
  (broadcastInDim_apply _ h x i (fun a => a.elim0) (fun a => a.elim0)).trans (congrArg x (funext fun a => a.elim0))

/-- A 2048-vector broadcast to a column and then over 2 columns reads, at (g, c), the vector at g. -/
theorem col_apply (v : FVec Ideal S2048 .f32) (g : Fin 2048) (c : Fin 2) :
    broadcastInDim S2048x2 ![0, 1] bcast_S2048x1_S2048x2_0_1 (broadcastInDim S2048x1 ![0] bcast_S2048_S2048x1_0 v) (ix2 g c)
      = v (ix1 g) := by
  refine (broadcastInDim_apply _ bcast_S2048x1_S2048x2_0_1 _ (ix2 g c) (ix2 g (0 : Fin 1)) (fun a => match a with
    | ⟨0, _⟩ => by show g.val = if (2048 : Nat) = 1 then 0 else g.val; rw [if_neg (by decide)]
    | ⟨1, _⟩ => by show 0 = if (1 : Nat) = 1 then 0 else c.val; rw [if_pos rfl])).trans ?_
  exact broadcastInDim_apply _ bcast_S2048_S2048x1_0 v (ix2 g (0 : Fin 1)) (ix1 g) (fun a => match a with
    | ⟨0, _⟩ => by show g.val = if (2048 : Nat) = 1 then 0 else g.val; rw [if_neg (by decide)])

/-- A [2048, 1] column broadcast over 2 columns reads, at (g, c), the column at row g. -/
theorem col1_apply (v : FVec Ideal S2048x1 .f32) (g : Fin 2048) (c : Fin 2) :
    broadcastInDim S2048x2 ![0, 1] bcast_S2048x1_S2048x2_0_1 v (ix2 g c) = v (ix2 g (0 : Fin 1)) :=
  broadcastInDim_apply _ bcast_S2048x1_S2048x2_0_1 v (ix2 g c) (ix2 g (0 : Fin 1)) (fun a => match a with
    | ⟨0, _⟩ => by show g.val = if (2048 : Nat) = 1 then 0 else g.val; rw [if_neg (by decide)]
    | ⟨1, _⟩ => by show 0 = if (1 : Nat) = 1 then 0 else c.val; rw [if_pos rfl])

/-- A 2048-vector broadcast to a column reads, at (g, u), the vector at g. -/
theorem tocol_apply (v : FVec Ideal S2048 .f32) (g : Fin 2048) (u : Fin 1) :
    broadcastInDim S2048x1 ![0] bcast_S2048_S2048x1_0 v (ix2 g u) = v (ix1 g) :=
  broadcastInDim_apply _ bcast_S2048_S2048x1_0 v (ix2 g u) (ix1 g) (fun a => match a with
    | ⟨0, _⟩ => by show g.val = if (2048 : Nat) = 1 then 0 else g.val; rw [if_neg (by decide)])

/-! ## The two products read at an index -/

theorem lhs1_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide),
    dif_pos (show (0 : Fin S2048x256.rank) ∈ dot_S2048x256_S256x256_S2048x256_1_0_0_1_n_n.lhsNonContracting by decide)]
  rfl
theorem lhs1_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
theorem rhs1_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
theorem rhs1_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide),
    dif_pos (show (1 : Fin S256x256.rank) ∈ dot_S2048x256_S256x256_S2048x256_1_0_0_1_n_n.rhsNonContracting by decide)]
  rfl

/-- The first product at (g, q): the sum over the 256 contracted coordinates. -/
theorem dot1_apply (A : FVec Ideal S2048x256 .f32) (B : FVec Ideal S256x256 .f32) (g : Fin 2048) (q : Fin 256) :
    Host.dotGeneral dot_S2048x256_S256x256_S2048x256_1_0_0_1_n_n none A B (ix2 g q)
      = ∑ k : Fin 256, A (ix2 g k) * B (ix2 k q) := by
  simp only [Host.dotGeneral]
  rw [Ideal.dotGeneral_apply,
    ← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 g q)
      ((contrEquiv1 dot_S2048x256_S256x256_S2048x256_1_0_0_1_n_n 256 rfl rfl).symm k) = ix2 g k :=
    funext fun a => Fin.ext (by
      match a with
      | ⟨0, _⟩ => exact lhs1_0 _ _
      | ⟨1, _⟩ => exact (lhs1_1 _ _).trans hk)
  have er : dot_S2048x256_S256x256_S2048x256_1_0_0_1_n_n.rhsIdx (ix2 g q)
      ((contrEquiv1 dot_S2048x256_S256x256_S2048x256_1_0_0_1_n_n 256 rfl rfl).symm k) = ix2 k q :=
    funext fun a => Fin.ext (by
      match a with
      | ⟨0, _⟩ => exact (rhs1_0 _ _).trans hk
      | ⟨1, _⟩ => exact rhs1_1 _ _)
  rw [el, er]

theorem lhs2_0 (i : S2048x2.Idx) (q : dot_S2048x256_S256x2_S2048x2_1_0_0_1_n_n.contr.Idx) :
    (dot_S2048x256_S256x2_S2048x2_1_0_0_1_n_n.lhsIdx i q 0).val = (i 0).val := by
  unfold DotDims.lhsIdx
  rw [dif_neg (show ¬(0 : Fin S2048x256.rank) ∈ dot_S2048x256_S256x2_S2048x2_1_0_0_1_n_n.lhsBatch by decide),
    dif_pos (show (0 : Fin S2048x256.rank) ∈ dot_S2048x256_S256x2_S2048x2_1_0_0_1_n_n.lhsNonContracting by decide)]
  rfl
theorem lhs2_1 (i : S2048x2.Idx) (q : dot_S2048x256_S256x2_S2048x2_1_0_0_1_n_n.contr.Idx) :
    (dot_S2048x256_S256x2_S2048x2_1_0_0_1_n_n.lhsIdx i q 1).val = (q ⟨0, by decide⟩).val :=
  dot_S2048x256_S256x2_S2048x2_1_0_0_1_n_n.lhsIdx_val_of_single rfl i q
theorem rhs2_0 (i : S2048x2.Idx) (q : dot_S2048x256_S256x2_S2048x2_1_0_0_1_n_n.contr.Idx) :
    (dot_S2048x256_S256x2_S2048x2_1_0_0_1_n_n.rhsIdx i q 0).val = (q ⟨0, by decide⟩).val :=
  dot_S2048x256_S256x2_S2048x2_1_0_0_1_n_n.rhsIdx_val_of_single rfl i q
theorem rhs2_1 (i : S2048x2.Idx) (q : dot_S2048x256_S256x2_S2048x2_1_0_0_1_n_n.contr.Idx) :
    (dot_S2048x256_S256x2_S2048x2_1_0_0_1_n_n.rhsIdx i q 1).val = (i 1).val := by
  unfold DotDims.rhsIdx
  rw [dif_neg (show ¬(1 : Fin S256x2.rank) ∈ dot_S2048x256_S256x2_S2048x2_1_0_0_1_n_n.rhsBatch by decide),
    dif_pos (show (1 : Fin S256x2.rank) ∈ dot_S2048x256_S256x2_S2048x2_1_0_0_1_n_n.rhsNonContracting by decide)]
  rfl

/-- The second product at (g, c): the sum over the 256 contracted coordinates. -/
theorem dot2_apply (A : FVec Ideal S2048x256 .f32) (B : FVec Ideal S256x2 .f32) (g : Fin 2048) (c : Fin 2) :
    Host.dotGeneral dot_S2048x256_S256x2_S2048x2_1_0_0_1_n_n none A B (ix2 g c)
      = ∑ k : Fin 256, A (ix2 g k) * B (ix2 k c) := by
  simp only [Host.dotGeneral]
  rw [Ideal.dotGeneral_apply,
    ← Equiv.sum_comp (contrEquiv1 dot_S2048x256_S256x2_S2048x2_1_0_0_1_n_n 256 rfl rfl).symm]
  refine Finset.sum_congr rfl fun k _ => ?_
  have hk := contrEquiv1_symm_val dot_S2048x256_S256x2_S2048x2_1_0_0_1_n_n 256 rfl rfl k
  have el : dot_S2048x256_S256x2_S2048x2_1_0_0_1_n_n.lhsIdx (ix2 g c)
      ((contrEquiv1 dot_S2048x256_S256x2_S2048x2_1_0_0_1_n_n 256 rfl rfl).symm k) = ix2 g k :=
    funext fun a => Fin.ext (by
      match a with
      | ⟨0, _⟩ => exact lhs2_0 _ _
      | ⟨1, _⟩ => exact (lhs2_1 _ _).trans hk)
  have er : dot_S2048x256_S256x2_S2048x2_1_0_0_1_n_n.rhsIdx (ix2 g c)
      ((contrEquiv1 dot_S2048x256_S256x2_S2048x2_1_0_0_1_n_n 256 rfl rfl).symm k) = ix2 k c :=
    funext fun a => Fin.ext (by
      match a with
      | ⟨0, _⟩ => exact (rhs2_0 _ _).trans hk
      | ⟨1, _⟩ => exact rhs2_1 _ _)
  rw [el, er]

/-! ## The logits at an index -/

/-- The hidden layer at (g, q), the bias read as the network's one-row matrix. -/
theorem hidden_apply (G : FVec Ideal S2048x256 .f32) (l1 : FVec Ideal S256x256 .f32) (c1 : FVec Ideal S256 .f32)
    (g : Fin 2048) (q : Fin 256) :
    maximumf
        (addf (Host.dotGeneral dot_S2048x256_S256x256_S2048x256_1_0_0_1_n_n none G l1)
          (broadcastInDim S2048x256 ![0, 1] bcast_S1x256_S2048x256_0_1 (broadcastInDim S1x256 ![1] bcast_S256_S1x256_1 c1)))
        (broadcastInDim S2048x256 ![] bcast_S_S2048x256 (constant (F := Ideal) S_ .f32 0x00000000#32)) (ix2 g q)
      = Cert.Spec.hidAt G l1 (Cert.Net.rowOf c1) g q := by
  unfold Cert.Spec.hidAt Cert.Net.rowOf
  rw [maximumf_apply, addf_apply, dot1_apply, bias1_apply, splat_apply _ _ _ (Shape.Idx.first h_S_),
    shapeCast_a_1a_apply]
  show max _ (Ideal.ofBits .f32 0x00000000#32) = _
  rw [Ideal.ofBits_zero_f32]

theorem logits_apply (G : FVec Ideal S2048x256 .f32) (l1 : FVec Ideal S256x256 .f32) (c1 : FVec Ideal S256 .f32)
    (l2 : FVec Ideal S256x2 .f32) (c2 : FVec Ideal S2 .f32) (g : Fin 2048) (c : Fin 2) :
    logits G l1 c1 l2 c2 (ix2 g c) = Cert.Spec.logitAt G l1 (Cert.Net.rowOf c1) l2 (Cert.Net.row2Of c2) g c := by
  unfold logits Cert.Spec.logitAt
  rw [addf_apply, dot2_apply, bias2_apply]
  unfold Cert.Net.row2Of
  rw [shapeCast_a_1a_apply]
  refine congrArg (· + c2 (ix1 c)) (Finset.sum_congr rfl fun k _ => ?_)
  rw [hidden_apply]

/-! ## The two row reductions read at a row -/

/-- The index of row g of a [2048, 2] array with column k inserted is (g, k). -/
theorem lift_row (h : S2048x2.Reduces [1] S2048) (g : Fin 2048) (k : Fin 2) : h.lift (ix1 g) k = ix2 g k :=
  funext fun c => Fin.ext (by
    match c with
    | ⟨0, _⟩ => rfl
    | ⟨1, _⟩ => rfl)

/-- The f32 pattern of −∞ is the bottom of the extended reals. -/
theorem ofBits_neg_inf_f32 : Ideal.ofBits .f32 0xFF800000#32 = ⊥ := by simp [Ideal.ofBits, Ideal.ieee]

/-- A fold of max from the bottom over two entries is the larger of them. -/
theorem fold_max_two (f : Fin 2 → EReal) : (Finset.univ : Finset (Fin 2)).fold max ⊥ f = max (f 0) (f 1) := by
  rw [show (Finset.univ : Finset (Fin 2)) = {0, 1} from rfl, Finset.fold_insert (by decide), Finset.fold_singleton,
    max_bot_right]

/-- The max-reduce over the two columns from −∞, at row g: the larger of the row's two entries. -/
theorem reduceMax_apply (L : FVec Ideal S2048x2 .f32) (g : Fin 2048) :
    Host.reduce FloatOps.maximumf L (constant (F := Ideal) S_ .f32 0xFF800000#32) reducesTo_S2048x2_S2048_d1 h_S_ (ix1 g)
      = max (L (ix2 g 0)) (L (ix2 g 1)) := by
  have hr : S2048x2.Reduces [1] S2048 := by decide
  refine (Host.reduce_eq_fold_single (FloatOps.maximumf (F := Ideal) (φ := .f32)) L _ reducesTo_S2048x2_S2048_d1 hr h_S_
    (ix1 g)).trans ?_
  refine Eq.trans (b := (Finset.univ : Finset (Fin 2)).fold max ⊥ (fun k : Fin 2 => L (ix2 g k))) ?_ (fold_max_two _)
  show (Finset.univ : Finset (Fin 2)).fold max (Ideal.ofBits .f32 0xFF800000#32) (fun k : Fin 2 => L (hr.lift (ix1 g) k)) = _
  rw [ofBits_neg_inf_f32]
  exact congrArg (fun f : Fin 2 → EReal => (Finset.univ : Finset (Fin 2)).fold max ⊥ f)
    (funext fun k => congrArg L (lift_row hr g k))

/-- The add-reduce over the two columns from 0, at row g. -/
theorem reduceAdd_apply (e : FVec Ideal S2048x2 .f32) (g : Fin 2048) :
    Host.reduceAdd e (constant (F := Ideal) S_ .f32 0x00000000#32) reducesTo_S2048x2_S2048_d1 h_S_ (ix1 g)
      = ∑ k : Fin 2, e (ix2 g k) := by
  have hr : S2048x2.Reduces [1] S2048 := by decide
  simp only [Host.reduceAdd, Ideal.hostReduceAdd_def]
  rw [Ideal.hostReduceAdd_single reducesTo_S2048x2_S2048_d1 hr]
  show Ideal.ofBits .f32 0x00000000#32 + ∑ k : Fin 2, e (hr.lift (ix1 g) k) = _
  rw [Ideal.ofBits_zero_f32, zero_add]
  exact Finset.sum_congr rfl fun k _ => congrArg e (lift_row hr g k)

/-! ## The log-softmax at an index -/

/-- The host's exponential and logarithm are pointwise the extended reals'. -/
theorem hostExp_apply {s : Shape} (x : FVec Ideal s .f32) (i : s.Idx) : Host.exp x i = Ideal.exp (x i) := rfl
theorem hostLog_apply {s : Shape} (x : FVec Ideal s .f32) (i : s.Idx) : Host.log x i = Ideal.log (x i) := rfl

theorem shifted_apply (L : FVec Ideal S2048x2 .f32) (g : Fin 2048) (c : Fin 2) :
    shifted L (ix2 g c) = L (ix2 g c) - max (L (ix2 g 0)) (L (ix2 g 1)) := by
  unfold shifted
  rw [subf_apply, col_apply, maximumf_apply, reduceMax_apply, splat_apply _ _ _ (Shape.Idx.first h_S_)]
  show _ - max (Ideal.ofBits .f32 0xFF800000#32) _ = _
  rw [ofBits_neg_inf_f32, max_bot_left]

theorem logSoftmax_apply (L : FVec Ideal S2048x2 .f32) (g : Fin 2048) (c : Fin 2) :
    logSoftmax L (ix2 g c) = Cert.Spec.lsmShift (fun c' => L (ix2 g c')) c := by
  unfold logSoftmax Cert.Spec.lsmShift Cert.Spec.sumExp Cert.Spec.rowMax
  rw [subf_apply, col1_apply, shifted_apply, hostLog_apply, tocol_apply, reduceAdd_apply]
  refine congrArg (fun s => _ - Ideal.log s) (Finset.sum_congr rfl fun k _ => ?_)
  rw [hostExp_apply, shifted_apply]

/-- The reference's head is the network's, the log-softmax bracketed as (l − m) − log Σ. -/
theorem head_eq (G : FVec Ideal S2048x256 .f32) (l1 : FVec Ideal S256x256 .f32) (c1 : FVec Ideal S256 .f32)
    (l2 : FVec Ideal S256x2 .f32) (c2 : FVec Ideal S2 .f32) :
    logSoftmax (logits G l1 c1 l2 c2) = Cert.Net.outShift G l1 c1 l2 c2 := by
  funext i
  obtain ⟨g, c, rfl⟩ : ∃ (g : Fin 2048) (c : Fin 2), i = ix2 g c := ⟨i 0, i 1, eq_ix2 i⟩
  rw [logSoftmax_apply]
  show Cert.Spec.lsmShift (fun c' => logits G l1 c1 l2 c2 (ix2 g c')) c
    = Cert.Spec.lsmShift (fun c' => Cert.Spec.logitAt G l1 (Cert.Net.rowOf c1) l2 (Cert.Net.row2Of c2) g c') c
  exact congrArg (fun l => Cert.Spec.lsmShift l c) (funext fun c' => logits_apply G l1 c1 l2 c2 g c')

end Cert.ReferenceIdeal.RefHead

end
-- ==== Proof.RefValue.lean ====
/-
  The reference's result as the network's function of the argument arrays: each GraphConv layer is
  relu(A·W + b + X·R) of the neighbour sums A of the layer's input X, the pool is the scatter-add by graph id, and
  the head ends in the log-softmax bracketed as (l − m) − log Σ.
-/
import proofs.«428615_j50182397886862_1_alg».proof.Proof.Gen.ReferenceIdeal.Run
import proofs.«428615_j50182397886862_1_alg».proof.Proof.Gen.ReferenceIdeal.Read
import proofs.«428615_j50182397886862_1_alg».proof.Proof.HostTerms
import proofs.«428615_j50182397886862_1_alg».proof.Proof.RefPool
import proofs.«428615_j50182397886862_1_alg».proof.Proof.RefLayers
import proofs.«428615_j50182397886862_1_alg».proof.Proof.RefConv
import proofs.«428615_j50182397886862_1_alg».proof.Proof.RefHead

set_option maxRecDepth 16384

noncomputable section

namespace Cert.ReferenceIdeal.RefValue

open Idealize.ShloMosaic Idealize.ShloMosaic.TcCoe Idealize.SL.Sem
open Cert.ReferenceIdeal Cert.ReferenceIdeal.Facts₀ Cert.ReferenceIdeal.Facts

section Stages

variable (x0 : (⟨S100000x14, .f32⟩ : BufTy).Contents (Elt Ideal)) (x1 : (⟨S2x300000, .i32⟩ : BufTy).Contents (Elt Ideal)) (x2 : (⟨S100000, .i32⟩ : BufTy).Contents (Elt Ideal)) (x3 : (⟨S14x256, .f32⟩ : BufTy).Contents (Elt Ideal)) (x4 : (⟨S256, .f32⟩ : BufTy).Contents (Elt Ideal)) (x5 : (⟨S14x256, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 : (⟨S256x256, .f32⟩ : BufTy).Contents (Elt Ideal)) (x13 : (⟨S256, .f32⟩ : BufTy).Contents (Elt Ideal)) (x14 : (⟨S256x256, .f32⟩ : BufTy).Contents (Elt Ideal)) (x15 : (⟨S256x256, .f32⟩ : BufTy).Contents (Elt Ideal)) (x16 : (⟨S256, .f32⟩ : BufTy).Contents (Elt Ideal)) (x17 : (⟨S256x256, .f32⟩ : BufTy).Contents (Elt Ideal)) (x18 : (⟨S256x256, .f32⟩ : BufTy).Contents (Elt Ideal)) (x19 : (⟨S256, .f32⟩ : BufTy).Contents (Elt Ideal)) (x20 : (⟨S256x2, .f32⟩ : BufTy).Contents (Elt Ideal)) (x21 : (⟨S2, .f32⟩ : BufTy).Contents (Elt Ideal))

/-- One later layer as the reference computes it — the neighbour sums of the layer's input, the two dot_generals,
    the bias, the maximum with zero — is the network's layer. -/
theorem layer_step (H : FVec Ideal S100000x256 .f32) (E : IVec S2x300000 32) (W : FVec Ideal S256x256 .f32)
    (b : FVec Ideal S256 .f32) (R : FVec Ideal S256x256 .f32) :
    maximumf
        (addf
          (addf (Host.dotGeneral dot_S100000x256_S256x256_S100000x256_1_0_0_1_n_n none
              (Host.scatterAdd (F := Ideal) scatter_S100000x256_S300000x1_S300000x256_1_0_0_1
                (broadcastInDim S100000x256 ![] bcast_S_S100000x256 (constant (F := Ideal) S_ .f32 0x00000000#32))
                (broadcastInDim S300000x1 ![0] bcast_S300000_S300000x1_0
        (shapeCast S300000 (extractStridedSlice S1x300000 ![1, 0] E slices_S2x300000_S1x300000_1_0) shapeCasts_S1x300000_S300000))
                (Host.gather gather_S100000x256_S300000x1_S300000x256_1_0_n_n_0_1_1256 H
                  (broadcastInDim S300000x1 ![0] bcast_S300000_S300000x1_0
          (select
            (cmpi .slt (shapeCast S300000 (extractStridedSlice S1x300000 ![0, 0] E slices_S2x300000_S1x300000_0_0) shapeCasts_S1x300000_S300000)
              (broadcastInDim S300000 ![] bcast_S_S300000 (constantI S_ 32 0#32)))
            (addi (shapeCast S300000 (extractStridedSlice S1x300000 ![0, 0] E slices_S2x300000_S1x300000_0_0) shapeCasts_S1x300000_S300000)
              (broadcastInDim S300000 ![] bcast_S_S300000 (constantI S_ 32 100000#32)))
            (shapeCast S300000 (extractStridedSlice S1x300000 ![0, 0] E slices_S2x300000_S1x300000_0_0) shapeCasts_S1x300000_S300000))))) W)
            (broadcastInDim S100000x256 ![0, 1] bcast_S1x256_S100000x256_0_1 (broadcastInDim S1x256 ![1] bcast_S256_S1x256_1 b)))
          (Host.dotGeneral dot_S100000x256_S256x256_S100000x256_1_0_0_1_n_n none H R))
        (broadcastInDim S100000x256 ![] bcast_S_S100000x256 (constant (F := Ideal) S_ .f32 0x00000000#32))
      = Cert.Net.layer H E W b R :=
  (RefConv.conv_eq _ H W R b).trans (congrArg (fun A => Cert.Spec.conv A H W (Cert.Net.rowOf b) R) (Layers.agg_eq H E))

/-- The first layer. -/
theorem n1_eq : Read.val_main_v20 (F := Ideal) x0 x1 x3 x4 x5 = Cert.Net.layer1 x0 x1 x3 x4 x5 :=
  (RefConv.conv14_eq (Read.val_main_v13 (F := Ideal) x0 x1) x0 x3 x5 x4).trans
    (congrArg (fun A => Cert.Spec.conv14 A x0 x3 (Cert.Net.rowOf x4) x5) (Layers.agg14_eq x0 x1))

/-- The second layer, on the first layer's result. -/
theorem n2_eq : Read.val_main_v41 (F := Ideal) x0 x1 x3 x4 x5 x6 x7 x8
    = Cert.Net.layer (Cert.Net.layer1 x0 x1 x3 x4 x5) x1 x6 x7 x8 :=
  (layer_step (Read.val_main_v20 (F := Ideal) x0 x1 x3 x4 x5) x1 x6 x7 x8).trans
    (congrArg (fun H => Cert.Net.layer H x1 x6 x7 x8) (n1_eq x0 x1 x3 x4 x5))

/-- The third layer. -/
theorem n3_eq : Read.val_main_v62 (F := Ideal) x0 x1 x3 x4 x5 x6 x7 x8 x9 x10 x11
    = Cert.Net.layer (Cert.Net.layer (Cert.Net.layer1 x0 x1 x3 x4 x5) x1 x6 x7 x8) x1 x9 x10 x11 :=
  (layer_step (Read.val_main_v41 (F := Ideal) x0 x1 x3 x4 x5 x6 x7 x8) x1 x9 x10 x11).trans
    (congrArg (fun H => Cert.Net.layer H x1 x9 x10 x11) (n2_eq x0 x1 x3 x4 x5 x6 x7 x8))

/-- The fourth layer. -/
theorem n4_eq : Read.val_main_v83 (F := Ideal) x0 x1 x3 x4 x5 x6 x7 x8 x9 x10 x11 x12 x13 x14
    = Cert.Net.layer (Cert.Net.layer (Cert.Net.layer (Cert.Net.layer1 x0 x1 x3 x4 x5) x1 x6 x7 x8) x1 x9 x10 x11) x1 x12 x13 x14 :=
  (layer_step (Read.val_main_v62 (F := Ideal) x0 x1 x3 x4 x5 x6 x7 x8 x9 x10 x11) x1 x12 x13 x14).trans
    (congrArg (fun H => Cert.Net.layer H x1 x12 x13 x14) (n3_eq x0 x1 x3 x4 x5 x6 x7 x8 x9 x10 x11))

/-- The fifth layer: the node features the pool adds up. -/
theorem n5_eq : Read.val_main_v104 (F := Ideal) x0 x1 x3 x4 x5 x6 x7 x8 x9 x10 x11 x12 x13 x14 x15 x16 x17
    = Cert.Net.nodes5 x0 x1 x3 x4 x5 x6 x7 x8 x9 x10 x11 x12 x13 x14 x15 x16 x17 :=
  (layer_step (Read.val_main_v83 (F := Ideal) x0 x1 x3 x4 x5 x6 x7 x8 x9 x10 x11 x12 x13 x14) x1 x15 x16 x17).trans
    (congrArg (fun H => Cert.Net.layer H x1 x15 x16 x17) (n4_eq x0 x1 x3 x4 x5 x6 x7 x8 x9 x10 x11 x12 x13 x14))

/-- The per-graph sums. -/
theorem pooled_eq : Read.val_main_v107 (F := Ideal) x0 x1 x2 x3 x4 x5 x6 x7 x8 x9 x10 x11 x12 x13 x14 x15 x16 x17
    = Cert.Net.pooled x2 (Cert.Net.nodes5 x0 x1 x3 x4 x5 x6 x7 x8 x9 x10 x11 x12 x13 x14 x15 x16 x17) :=
  (RefPool.pool_eq x2 (Read.val_main_v104 (F := Ideal) x0 x1 x3 x4 x5 x6 x7 x8 x9 x10 x11 x12 x13 x14 x15 x16 x17)).trans
    (congrArg (Cert.Net.pooled x2) (n5_eq x0 x1 x3 x4 x5 x6 x7 x8 x9 x10 x11 x12 x13 x14 x15 x16 x17))

/-- The head's operations on the per-graph sums, as the reference spells them. -/
theorem head_stage : Read.val_main_v117 (F := Ideal) x0 x1 x2 x3 x4 x5 x6 x7 x8 x9 x10 x11 x12 x13 x14 x15 x16 x17 x18 x19 x20 x21
    = RefHead.logSoftmax (RefHead.logits (Read.val_main_v107 (F := Ideal) x0 x1 x2 x3 x4 x5 x6 x7 x8 x9 x10 x11 x12 x13 x14 x15 x16 x17) x18 x19 x20 x21) := rfl

/-- The whole reference, stage by stage, is the network. -/
theorem net_eq : Read.val_main_v117 (F := Ideal) x0 x1 x2 x3 x4 x5 x6 x7 x8 x9 x10 x11 x12 x13 x14 x15 x16 x17 x18 x19 x20 x21
    = Cert.Net.outShift (Cert.Net.pooled x2 (Cert.Net.nodes5 x0 x1 x3 x4 x5 x6 x7 x8 x9 x10 x11 x12 x13 x14 x15 x16 x17)) x18 x19 x20 x21 :=
  (head_stage x0 x1 x2 x3 x4 x5 x6 x7 x8 x9 x10 x11 x12 x13 x14 x15 x16 x17 x18 x19 x20 x21).trans
    ((RefHead.head_eq (Read.val_main_v107 (F := Ideal) x0 x1 x2 x3 x4 x5 x6 x7 x8 x9 x10 x11 x12 x13 x14 x15 x16 x17) x18 x19 x20 x21).trans
      (congrArg (fun G => Cert.Net.outShift G x18 x19 x20 x21) (pooled_eq x0 x1 x2 x3 x4 x5 x6 x7 x8 x9 x10 x11 x12 x13 x14 x15 x16 x17)))

end Stages

/-- The reference run's result term is the network's function of the arguments as launched (the log-softmax
    bracketed as (l − m) − log Σ). -/
theorem ref_eq (m : (ℓ : Loc nD τ sig) → Buf (Elt Ideal) ℓ) (c : Dev nD) :
    Cert.ReferenceIdeal.Value.res_main_v117 (F := Ideal) m c
      = Cert.Net.outShift
          (Cert.Net.pooled (m ((c.tc : Thread nD τ).loc main_arg2))
            (Cert.Net.nodes5 (m ((c.tc : Thread nD τ).loc main_arg0)) (m ((c.tc : Thread nD τ).loc main_arg1))
              (m ((c.tc : Thread nD τ).loc main_arg3)) (m ((c.tc : Thread nD τ).loc main_arg4)) (m ((c.tc : Thread nD τ).loc main_arg5))
              (m ((c.tc : Thread nD τ).loc main_arg6)) (m ((c.tc : Thread nD τ).loc main_arg7)) (m ((c.tc : Thread nD τ).loc main_arg8))
              (m ((c.tc : Thread nD τ).loc main_arg9)) (m ((c.tc : Thread nD τ).loc main_arg10)) (m ((c.tc : Thread nD τ).loc main_arg11))
              (m ((c.tc : Thread nD τ).loc main_arg12)) (m ((c.tc : Thread nD τ).loc main_arg13)) (m ((c.tc : Thread nD τ).loc main_arg14))
              (m ((c.tc : Thread nD τ).loc main_arg15)) (m ((c.tc : Thread nD τ).loc main_arg16)) (m ((c.tc : Thread nD τ).loc main_arg17))))
          (m ((c.tc : Thread nD τ).loc main_arg18)) (m ((c.tc : Thread nD τ).loc main_arg19)) (m ((c.tc : Thread nD τ).loc main_arg20)) (m ((c.tc : Thread nD τ).loc main_arg21)) :=
  (Read.val_main_v117_eq (F := Ideal) m c).trans
    (net_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)))

end Cert.ReferenceIdeal.RefValue

end
-- ==== Proof.PreReal.lean ====
/-
  The precondition says that every float input is finite: for each of the twenty float arrays, every entry's
  absolute value is below +∞.  An extended real whose absolute value is below +∞ is a real number.
-/
import proofs.«428615_j50182397886862_1_alg».proof.Pre_finite_inputs
import proofs.«428615_j50182397886862_1_alg».proof.Proof.Gen.Pre_finite_inputs
import proofs.«428615_j50182397886862_1_alg».proof.Proof.Spec
import Idealize.ShloMosaic.Lib.ReduceAll

noncomputable section

namespace Cert.PreReal

open Idealize.ShloMosaic Idealize.ShloMosaic.ValueIdx
open Cert.Pre_finite_inputs Cert.Spec

/-- The rank-0 shape has one index. -/
instance : Subsingleton S_.Idx := ⟨fun a b => funext fun d => d.elim0⟩

/-- The f32 pattern 0x7F800000 denotes +∞. -/
theorem ofBits_inf : Ideal.ofBits .f32 0x7F800000#32 = (⊤ : EReal) := by simp [Ideal.ofBits, Ideal.ieee]

/-- An extended real whose absolute value max(x, −x) is below +∞ is a real number. -/
theorem isR_of_abs_lt_top (x : EReal) (h : max x (-x) < ⊤) : IsR x := by
  induction x using EReal.rec with
  | bot => simp at h
  | coe r => exact ⟨r, rfl⟩
  | top => simp at h

/-- One entry: where the comparison |x| < +∞ gives the bit 1, x is a real number. -/
theorem isR_of_cmp (x : Ideal .f32)
    (h : FloatOps.cmpf .olt (FloatOps.hostAbsf x) (FloatOps.ofBits (F := Ideal) .f32 0x7F800000#32) = 1#1) : IsR x := by
  refine isR_of_abs_lt_top x ?_
  have h' : BitVec.ofBool (decide (max (x : EReal) (-(x : EReal)) < Ideal.ofBits .f32 0x7F800000#32)) = 1#1 := h
  rw [ofBits_inf] at h'
  by_contra hn
  rw [decide_eq_false hn] at h'
  exact absurd h' (by decide)

/-- All entries: where all(|x| < +∞), reduced by "and" from 1 over every axis, is 1, every entry of x is real. -/
theorem allR_of_all_lt {s : Shape} {axes : List (Fin s.rank)} (x : FVec Ideal s .f32)
    (hb : S_.BroadcastsInDim s (![] : Fin 0 → Fin s.rank)) (hr : s.ReducesTo axes S_) (hu : 0 < S_.numel)
    (hall : Host.reduce IntOp.andi
        (cmpf .olt (Host.absf x) (broadcastInDim s ![] hb (constant (F := Ideal) S_ .f32 0x7F800000#32)))
        (constantI S_ 1 1#1) hr hu ValueIdx.ix0 = 1#1) : AllR x := by
  intro i
  have e := Host.reduce_andi_all _ _ hr hu ValueIdx.ix0 hall i
  exact isR_of_cmp (x i) e

/-- The conjunction of two bits at the one index of the rank-0 shape is 1 only where both are. -/
theorem and_ix0 (x y : IVec S_ 1) (h : andi x y ValueIdx.ix0 = 1#1) : x ValueIdx.ix0 = 1#1 ∧ y ValueIdx.ix0 = 1#1 :=
  IntOp.andi_eq_one.1 h

/-- Where the precondition's predicate is all ones, every entry of every float input is a real number. -/
theorem allR_of_fn [Cert.Pre_finite_inputs.Facts] (a0 : FVec Ideal S100000x14 .f32) (a1 : IVec S2x300000 32) (a2 : IVec S100000 32) (a3 : FVec Ideal S14x256 .f32) (a4 : FVec Ideal S256 .f32) (a5 : FVec Ideal S14x256 .f32) (a6 : FVec Ideal S256x256 .f32) (a7 : FVec Ideal S256 .f32) (a8 : FVec Ideal S256x256 .f32) (a9 : FVec Ideal S256x256 .f32) (a10 : FVec Ideal S256 .f32) (a11 : FVec Ideal S256x256 .f32) (a12 : FVec Ideal S256x256 .f32) (a13 : FVec Ideal S256 .f32) (a14 : FVec Ideal S256x256 .f32) (a15 : FVec Ideal S256x256 .f32) (a16 : FVec Ideal S256 .f32) (a17 : FVec Ideal S256x256 .f32) (a18 : FVec Ideal S256x256 .f32) (a19 : FVec Ideal S256 .f32) (a20 : FVec Ideal S256x2 .f32) (a21 : FVec Ideal S2 .f32)
    (h : Cert.Pre_finite_inputs.fn (F := Ideal) a0 a1 a2 a3 a4 a5 a6 a7 a8 a9 a10 a11 a12 a13 a14 a15 a16 a17 a18 a19 a20 a21 = (fun _ => 1#1)) :
    AllR a0 ∧ AllR a3 ∧ AllR a4 ∧ AllR a5 ∧ AllR a6 ∧ AllR a7 ∧ AllR a8 ∧ AllR a9 ∧ AllR a10 ∧ AllR a11 ∧ AllR a12 ∧ AllR a13 ∧ AllR a14 ∧ AllR a15 ∧ AllR a16 ∧ AllR a17 ∧ AllR a18 ∧ AllR a19 ∧ AllR a20 ∧ AllR a21 := by
  -- the predicate at the one index of the rank-0 result, its operations in view
  have hh := congrFun h ValueIdx.ix0
  dsimp only [fn, fn_part1, fn_part2, fn_part3, fn_part4, fn_part5] at hh
  -- the conjunction of the twenty bits, split from the last input back to the first
  obtain ⟨hh, h21⟩ := and_ix0 _ _ hh
  obtain ⟨hh, h20⟩ := and_ix0 _ _ hh
  obtain ⟨hh, h19⟩ := and_ix0 _ _ hh
  obtain ⟨hh, h18⟩ := and_ix0 _ _ hh
  obtain ⟨hh, h17⟩ := and_ix0 _ _ hh
  obtain ⟨hh, h16⟩ := and_ix0 _ _ hh
  obtain ⟨hh, h15⟩ := and_ix0 _ _ hh
  obtain ⟨hh, h14⟩ := and_ix0 _ _ hh
  obtain ⟨hh, h13⟩ := and_ix0 _ _ hh
  obtain ⟨hh, h12⟩ := and_ix0 _ _ hh
  obtain ⟨hh, h11⟩ := and_ix0 _ _ hh
  obtain ⟨hh, h10⟩ := and_ix0 _ _ hh
  obtain ⟨hh, h9⟩ := and_ix0 _ _ hh
  obtain ⟨hh, h8⟩ := and_ix0 _ _ hh
  obtain ⟨hh, h7⟩ := and_ix0 _ _ hh
  obtain ⟨hh, h6⟩ := and_ix0 _ _ hh
  obtain ⟨hh, h5⟩ := and_ix0 _ _ hh
  obtain ⟨hh, h4⟩ := and_ix0 _ _ hh
  obtain ⟨h0, h3⟩ := and_ix0 _ _ hh
  -- each bit is all(|X| < +∞) for its input X
  exact ⟨allR_of_all_lt a0 _ _ _ h0, allR_of_all_lt a3 _ _ _ h3, allR_of_all_lt a4 _ _ _ h4, allR_of_all_lt a5 _ _ _ h5, allR_of_all_lt a6 _ _ _ h6, allR_of_all_lt a7 _ _ _ h7, allR_of_all_lt a8 _ _ _ h8, allR_of_all_lt a9 _ _ _ h9, allR_of_all_lt a10 _ _ _ h10, allR_of_all_lt a11 _ _ _ h11, allR_of_all_lt a12 _ _ _ h12, allR_of_all_lt a13 _ _ _ h13, allR_of_all_lt a14 _ _ _ h14, allR_of_all_lt a15 _ _ _ h15, allR_of_all_lt a16 _ _ _ h16, allR_of_all_lt a17 _ _ _ h17, allR_of_all_lt a18 _ _ _ h18, allR_of_all_lt a19 _ _ _ h19, allR_of_all_lt a20 _ _ _ h20, allR_of_all_lt a21 _ _ _ h21⟩

end Cert.PreReal

end
-- ==== Proof.lean ====
/-
  The kernel and the reference compute one function on the extended reals.

  Both programs run five GraphConv layers relu(A·W + b + X·R) over the same neighbour sums A, add the node
  features up per graph, and apply the two-layer head.  The kernel tiles the node axis in blocks of 2000 rows
  and forms the per-graph sum as a product with a one-hot matrix accumulated over the blocks; at the extended
  reals a format change is the identity and a product onto a zero accumulator is the plain sum, so layer by
  layer and for the pool the two sides are the same sums.  The head's log-softmax is bracketed as
  l − (m + log Σ) by the kernel and as (l − m) − log Σ by the reference; these agree because every input is
  finite, hence every logit, and with them the row maximum m, is a real number.
-/
import proofs.«428615_j50182397886862_1_alg».proof.Defs
import proofs.«428615_j50182397886862_1_alg».proof.Proof.Gen.Kernel
import proofs.«428615_j50182397886862_1_alg».proof.Proof.Gen.Kernel.Frame
import proofs.«428615_j50182397886862_1_alg».proof.Proof.Gen.KernelIdeal
import proofs.«428615_j50182397886862_1_alg».proof.Proof.Gen.KernelIdeal.Frame
import proofs.«428615_j50182397886862_1_alg».proof.Proof.Gen.ReferenceIdeal
import proofs.«428615_j50182397886862_1_alg».proof.Proof.Gen.ReferenceIdeal.Run
import proofs.«428615_j50182397886862_1_alg».proof.Proof.Gen.Pre_finite_inputs
import proofs.«428615_j50182397886862_1_alg».proof.Proof.HostTerms
import proofs.«428615_j50182397886862_1_alg».proof.Proof.KRun
import proofs.«428615_j50182397886862_1_alg».proof.Proof.KChain
import proofs.«428615_j50182397886862_1_alg».proof.Proof.RefValue
import proofs.«428615_j50182397886862_1_alg».proof.Proof.PreReal
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end at the network's function of the arguments; the two bracketings of the log-softmax
    agree because the inputs, and so the logits, are real numbers. -/
theorem algebraic : Cert.algebraic_KernelIdeal_ReferenceIdeal := by
  intro m ρ m' ρ' hpre hagree
  refine ⟨fun c => Cert.Net.outSum (Cert.Net.pooled (m ((c.tc : Thread Cert.KernelIdeal.nD Cert.KernelIdeal.τ).loc Cert.KernelIdeal.main_arg2)) (Cert.KernelIdeal.Chain.nodes m c))
      (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)), ?_, ?_⟩
  · exact (θ_run Cert.KernelIdeal.defs _ _).mono
      (fun r h c => ⟨((h c).1).trans (Cert.KernelIdeal.Chain.out_eq m ρ c), (h c).2⟩)
      (Cert.KernelIdeal.Gen.run_named m ρ)
  · refine (θ_run Cert.ReferenceIdeal.defs _ _).mono (fun r h c => ⟨?_, (h c).2⟩)
      (Cert.ReferenceIdeal.Value.run (F := Ideal) m' ρ')
    obtain ⟨e0, e1, e2, e3, e4, e5, e6, e7, e8, e9, e10, e11, e12, e13, e14, e15, e16, e17, e18, e19, e20, e21⟩ := hagree c
    obtain ⟨r0, r3, r4, r5, r6, r7, r8, r9, r10, r11, r12, r13, r14, r15, r16, r17, r18, r19, r20, r21⟩ :=
      Cert.PreReal.allR_of_fn _ _ _ _ _ _ _ _ _ _ _ _ _ _ _ _ _ _ _ _ _ _ (hpre c)
    rw [(h c).1, Cert.ReferenceIdeal.RefValue.ref_eq, e0, e1, e2, e3, e4, e5, e6, e7, e8, e9, e10, e11, e12, e13, e14, e15,
      e16, e17, e18, e19, e20, e21]
    refine (Cert.Net.out_law (Cert.Spec.pool_allR ?_) r18 r19 r20 r21).symm
    exact Cert.Net.layer_allR _ (Cert.Net.layer_allR _ (Cert.Net.layer_allR _ (Cert.Net.layer_allR _
      (Cert.Net.layer1_allR _ r0 r3 r4 r5) r6 r7 r8) r9 r10 r11) r12 r13 r14) r15 r16 r17

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
